-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v39)) (v3 : (c : Dev Cert.KernelIdeal.nD) → Buf (Elt Ideal) ((c.tc : Thread Cert.KernelIdeal.nD Cert.KernelIdeal.τ).loc Cert.KernelIdeal.main_v24)) (v4 : (c : Dev Cert.KernelIdeal.nD) → Buf (Elt Ideal) ((c.tc : Thread Cert.KernelIdeal.nD Cert.KernelIdeal.τ).loc Cert.KernelIdeal.main_v34)) (v5 : (c : Dev Cert.KernelIdeal.nD) → Buf (Elt Ideal) ((c.tc : Thread Cert.KernelIdeal.nD Cert.KernelIdeal.τ).loc Cert.KernelIdeal.main_v29)) (v6 : (c : Dev Cert.KernelIdeal.nD) → Buf (Elt Ideal) ((c.tc : Thread Cert.KernelIdeal.nD Cert.KernelIdeal.τ).loc Cert.KernelIdeal.main_v13)) (v7 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_v29) = v5 c
          ∧ r.2.mem ((c.tc : Thread Cert.KernelIdeal.nD Cert.KernelIdeal.τ).loc Cert.KernelIdeal.main_v13) = v6 c
          ∧ r.2.mem ((c.tc : Thread Cert.KernelIdeal.nD Cert.KernelIdeal.τ).loc Cert.KernelIdeal.main_v14) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v148) = v4 c
          ∧ r.2.mem ((c.tc : Thread Cert.ReferenceIdeal.nD Cert.ReferenceIdeal.τ).loc Cert.ReferenceIdeal.main_v146) = v5 c
          ∧ r.2.mem ((c.tc : Thread Cert.ReferenceIdeal.nD Cert.ReferenceIdeal.τ).loc Cert.ReferenceIdeal.main_v95) = v6 c
          ∧ r.2.mem ((c.tc : Thread Cert.ReferenceIdeal.nD Cert.ReferenceIdeal.τ).loc Cert.ReferenceIdeal.main_v98) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x10 : Shape := ⟨2, ![50000, 10]⟩
abbrev S3200000 : Shape := ⟨1, ![3200000]⟩
abbrev S50000x2 : Shape := ⟨2, ![50000, 2]⟩
abbrev S4x16 : Shape := ⟨2, ![4, 16]⟩
abbrev S10x16 : Shape := ⟨2, ![10, 16]⟩
abbrev S16 : Shape := ⟨1, ![16]⟩
abbrev S16x4 : Shape := ⟨2, ![16, 4]⟩
abbrev S4 : Shape := ⟨1, ![4]⟩
abbrev S_ : Shape := ⟨0, ![]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S4x16 : S_.BroadcastsInDim S4x16 (![] : Fin 0 → Fin S4x16.rank)
  reducesTo_S4x16_S_d0_1 : S4x16.ReducesTo [0, 1] S_
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg1 : IVec S3200000 32) (main_arg2 : IVec S3200000 32) (main_v33 : IVec S_ 1) : IVec S_ 1 :=
  let main_c_12 : IVec S_ 32 := constantI S_ 32 0#32
  let main_v34 : IVec S3200000 32 := broadcastInDim S3200000 ![] bcast_S_S3200000 main_c_12
  let main_v35 : IVec S3200000 1 := cmpi .sge main_arg1 main_v34
  let main_c_13 : IVec S_ 32 := constantI S_ 32 50000#32
  let main_v36 : IVec S3200000 32 := broadcastInDim S3200000 ![] bcast_S_S3200000 main_c_13
  let main_v37 : IVec S3200000 1 := cmpi .slt main_arg1 main_v36
  let main_v38 : IVec S3200000 1 := andi main_v35 main_v37
  let main_c_14 : IVec S_ 1 := constantI S_ 1 1#1
  let main_v39 : IVec S_ 1 := (fun x v => Host.reduce IntOp.andi x v reducesTo_S3200000_S_d0 h_S_) main_v38 main_c_14
  let main_v40 : IVec S_ 1 := andi main_v33 main_v39
  let main_c_15 : IVec S_ 32 := constantI S_ 32 0#32
  let main_v41 : IVec S3200000 32 := broadcastInDim S3200000 ![] bcast_S_S3200000 main_c_15
  let main_v42 : IVec S3200000 1 := cmpi .sge main_arg2 main_v41
  let main_c_16 : IVec S_ 32 := constantI S_ 32 50000#32
  let main_v43 : IVec S3200000 32 := broadcastInDim S3200000 ![] bcast_S_S3200000 main_c_16
  let main_v44 : IVec S3200000 1 := cmpi .slt main_arg2 main_v43
  let main_v45 : IVec S3200000 1 := andi main_v42 main_v44
  let main_c_17 : IVec S_ 1 := constantI S_ 1 1#1
  let main_v46 : IVec S_ 1 := (fun x v => Host.reduce IntOp.andi x v reducesTo_S3200000_S_d0 h_S_) main_v45 main_c_17
  let main_v47 : IVec S_ 1 := andi main_v40 main_v46
  main_v47

def fn_part1 {F : FTy → Type} [FloatOps F] (main_arg1 : IVec S3200000 32) (main_arg2 : IVec S3200000 32) (main_arg6 : FVec F S16 .f32) (main_arg7 : FVec F S16x4 .f32) (main_arg8 : FVec F S4 .f32) (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x4 .f32 := Host.absf main_arg7
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg1 main_arg2 main_v33

def fn {F : FTy → Type} [FloatOps F] (main_arg0 : FVec F S50000x10 .f32) (main_arg1 : IVec S3200000 32) (main_arg2 : IVec S3200000 32) (main_arg3 : FVec F S50000x2 .f32) (main_arg4 : FVec F S4x16 .f32) (main_arg5 : FVec F S10x16 .f32) (main_arg6 : FVec F S16 .f32) (main_arg7 : FVec F S16x4 .f32) (main_arg8 : FVec F S4 .f32) : IVec S_ 1 :=
  let main_v0 : FVec F S50000x10 .f32 := Host.absf main_arg0
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S50000x2 .f32 := Host.absf main_arg3
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S4x16 .f32 := Host.absf main_arg4
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S10x16 .f32 := Host.absf main_arg5
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_arg1 main_arg2 main_arg6 main_arg7 main_arg8 main_v13 main_v16
-- ==== Kernel.lean ====
abbrev S50000x10 : Shape := ⟨2, ![50000, 10]⟩
abbrev S3200000 : Shape := ⟨1, ![3200000]⟩
abbrev S50000x2 : Shape := ⟨2, ![50000, 2]⟩
abbrev S4x16 : Shape := ⟨2, ![4, 16]⟩
abbrev S10x16 : Shape := ⟨2, ![10, 16]⟩
abbrev S16 : Shape := ⟨1, ![16]⟩
abbrev S16x4 : Shape := ⟨2, ![16, 4]⟩
abbrev S4 : Shape := ⟨1, ![4]⟩
abbrev S10x50000 : Shape := ⟨2, ![10, 50000]⟩
abbrev S2x50000 : Shape := ⟨2, ![2, 50000]⟩
abbrev S1x50000 : Shape := ⟨2, ![1, 50000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S10x3200000 : Shape := ⟨2, ![10, 3200000]⟩
abbrev S2x3200000 : Shape := ⟨2, ![2, 3200000]⟩
abbrev S1x3200000 : Shape := ⟨2, ![1, 3200000]⟩
abbrev S3200000x18 : Shape := ⟨2, ![3200000, 18]⟩
abbrev S100x8x128 : Shape := ⟨3, ![100, 8, 128]⟩
abbrev S10x32000 : Shape := ⟨2, ![10, 32000]⟩
abbrev S2x32000 : Shape := ⟨2, ![2, 32000]⟩
abbrev S1x32000 : Shape := ⟨2, ![1, 32000]⟩
abbrev S32000x18 : Shape := ⟨2, ![32000, 18]⟩
abbrev S1x8x128 : Shape := ⟨3, ![1, 8, 128]⟩
abbrev S32000 : Shape := ⟨1, ![32000]⟩
abbrev S4x32000 : Shape := ⟨2, ![4, 32000]⟩
abbrev S32000x16 : Shape := ⟨2, ![32000, 16]⟩
abbrev S1x16 : Shape := ⟨2, ![1, 16]⟩
abbrev S32000x1 : Shape := ⟨2, ![32000, 1]⟩
abbrev S1x2 : Shape := ⟨2, ![1, 2]⟩
abbrev S1x126 : Shape := ⟨2, ![1, 126]⟩
abbrev S1x128 : Shape := ⟨2, ![1, 128]⟩
abbrev S7x128 : Shape := ⟨2, ![7, 128]⟩
abbrev S8x128 : Shape := ⟨2, ![8, 128]⟩
abbrev S100x1x1 : Shape := ⟨3, ![100, 1, 1]⟩
abbrev S100 : Shape := ⟨1, ![100]⟩
abbrev S50000x18 : Shape := ⟨2, ![50000, 18]⟩
abbrev S50000x1 : Shape := ⟨2, ![50000, 1]⟩
abbrev S10x8x128 : Shape := ⟨3, ![10, 8, 128]⟩
abbrev S5000x10 : Shape := ⟨2, ![5000, 10]⟩
abbrev S5000x18 : Shape := ⟨2, ![5000, 18]⟩
abbrev S5000x2 : Shape := ⟨2, ![5000, 2]⟩
abbrev S5000x1 : Shape := ⟨2, ![5000, 1]⟩
abbrev S5000x16 : Shape := ⟨2, ![5000, 16]⟩
abbrev S5000 : Shape := ⟨1, ![5000]⟩
abbrev S5000x4 : Shape := ⟨2, ![5000, 4]⟩
abbrev S1x4 : Shape := ⟨2, ![1, 4]⟩
abbrev S5000x3 : Shape := ⟨2, ![5000, 3]⟩
abbrev S5000x5 : Shape := ⟨2, ![5000, 5]⟩
abbrev S5 : Shape := ⟨1, ![5]⟩
abbrev S1x5 : Shape := ⟨2, ![1, 5]⟩
abbrev S1x123 : Shape := ⟨2, ![1, 123]⟩
abbrev S50000 : Shape := ⟨1, ![50000]⟩
abbrev S10x1x1 : Shape := ⟨3, ![10, 1, 1]⟩
abbrev S10 : Shape := ⟨1, ![10]⟩
abbrev S10x1x2 : Shape := ⟨3, ![10, 1, 2]⟩
abbrev S10x2 : Shape := ⟨2, ![10, 2]⟩
abbrev S2 : Shape := ⟨1, ![2]⟩

abbrev nBuf : Space → Nat
  | .hbm => 127
  | .vmem => 27
  | .smem => 0
  | _ => 0

abbrev bufTy : (tb : Table) → Fin (tcTables nBuf tb) → BufTy
  | .hbm, ⟨0, _⟩ => ⟨S50000x10, .f32⟩
  | .hbm, ⟨1, _⟩ => ⟨S3200000, .i32⟩
  | .hbm, ⟨2, _⟩ => ⟨S3200000, .i32⟩
  | .hbm, ⟨3, _⟩ => ⟨S50000x2, .f32⟩
  | .hbm, ⟨4, _⟩ => ⟨S4x16, .f32⟩
  | .hbm, ⟨5, _⟩ => ⟨S10x16, .f32⟩
  | .hbm, ⟨6, _⟩ => ⟨S16, .f32⟩
  | .hbm, ⟨7, _⟩ => ⟨S16x4, .f32⟩
  | .hbm, ⟨8, _⟩ => ⟨S4, .f32⟩
  | .hbm, ⟨9, _⟩ => ⟨S10x50000, .f32⟩
  | .hbm, ⟨10, _⟩ => ⟨S2x50000, .f32⟩
  | .hbm, ⟨11, _⟩ => ⟨S1x50000, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S1, .i32⟩
  | .hbm, ⟨21, _⟩ => ⟨S_, .i32⟩
  | .hbm, ⟨22, _⟩ => ⟨S3200000x1, .i32⟩
  | .hbm, ⟨23, _⟩ => ⟨S3200000x1, .i1⟩
  | .hbm, ⟨24, _⟩ => ⟨S1x1, .i32⟩
  | .hbm, ⟨25, _⟩ => ⟨S3200000x1, .i32⟩
  | .hbm, ⟨26, _⟩ => ⟨S3200000x1, .i1⟩
  | .hbm, ⟨27, _⟩ => ⟨S3200000x1, .i1⟩
  | .hbm, ⟨28, _⟩ => ⟨S_, .i1⟩
  | .hbm, ⟨29, _⟩ => ⟨S3200000, .i1⟩
  | .hbm, ⟨30, _⟩ => ⟨S10x3200000, .f32⟩
  | .hbm, ⟨31, _⟩ => ⟨S10x3200000, .i1⟩
  | .hbm, ⟨32, _⟩ => ⟨S_, .f32⟩
  | .hbm, ⟨33, _⟩ => ⟨S10x3200000, .f32⟩
  | .hbm, ⟨34, _⟩ => ⟨S10x3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S1, .i32⟩
  | .hbm, ⟨44, _⟩ => ⟨S_, .i32⟩
  | .hbm, ⟨45, _⟩ => ⟨S3200000x1, .i32⟩
  | .hbm, ⟨46, _⟩ => ⟨S3200000x1, .i1⟩
  | .hbm, ⟨47, _⟩ => ⟨S1x1, .i32⟩
  | .hbm, ⟨48, _⟩ => ⟨S3200000x1, .i32⟩
  | .hbm, ⟨49, _⟩ => ⟨S3200000x1, .i1⟩
  | .hbm, ⟨50, _⟩ => ⟨S3200000x1, .i1⟩
  | .hbm, ⟨51, _⟩ => ⟨S_, .i1⟩
  | .hbm, ⟨52, _⟩ => ⟨S3200000, .i1⟩
  | .hbm, ⟨53, _⟩ => ⟨S2x3200000, .f32⟩
  | .hbm, ⟨54, _⟩ => ⟨S2x3200000, .i1⟩
  | .hbm, ⟨55, _⟩ => ⟨S_, .f32⟩
  | .hbm, ⟨56, _⟩ => ⟨S2x3200000, .f32⟩
  | .hbm, ⟨57, _⟩ => ⟨S2x3200000, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S1, .i32⟩
  | .hbm, ⟨67, _⟩ => ⟨S_, .i32⟩
  | .hbm, ⟨68, _⟩ => ⟨S3200000x1, .i32⟩
  | .hbm, ⟨69, _⟩ => ⟨S3200000x1, .i1⟩
  | .hbm, ⟨70, _⟩ => ⟨S1x1, .i32⟩
  | .hbm, ⟨71, _⟩ => ⟨S3200000x1, .i32⟩
  | .hbm, ⟨72, _⟩ => ⟨S3200000x1, .i1⟩
  | .hbm, ⟨73, _⟩ => ⟨S3200000x1, .i1⟩
  | .hbm, ⟨74, _⟩ => ⟨S_, .i1⟩
  | .hbm, ⟨75, _⟩ => ⟨S3200000, .i1⟩
  | .hbm, ⟨76, _⟩ => ⟨S1x3200000, .f32⟩
  | .hbm, ⟨77, _⟩ => ⟨S1x3200000, .i1⟩
  | .hbm, ⟨78, _⟩ => ⟨S_, .f32⟩
  | .hbm, ⟨79, _⟩ => ⟨S1x3200000, .f32⟩
  | .hbm, ⟨80, _⟩ => ⟨S1x3200000, .f32⟩
  | .hbm, ⟨81, _⟩ => ⟨S3200000x18, .f32⟩
  | .hbm, ⟨82, _⟩ => ⟨S100x8x128, .f32⟩
  | .hbm, ⟨83, _⟩ => ⟨S100x1x1, .f32⟩
  | .hbm, ⟨84, _⟩ => ⟨S100, .f32⟩
  | .hbm, ⟨85, _⟩ => ⟨S100x1x1, .f32⟩
  | .hbm, ⟨86, _⟩ => ⟨S100, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S50000x18, .f32⟩
  | .hbm, ⟨95, _⟩ => ⟨S3200000x1, .i32⟩
  | .hbm, ⟨96, _⟩ => ⟨S50000x18, .f32⟩
  | .hbm, ⟨97, _⟩ => ⟨S50000x10, .f32⟩
  | .hbm, ⟨98, _⟩ => ⟨S50000x1, .f32⟩
  | .hbm, ⟨99, _⟩ => ⟨S10x8x128, .f32⟩
  | .hbm, ⟨100, _⟩ => ⟨S50000, .f32⟩
  | .hbm, ⟨101, _⟩ => ⟨S_, .f32⟩
  | .hbm, ⟨102, _⟩ => ⟨S50000, .f32⟩
  | .hbm, ⟨103, _⟩ => ⟨S50000, .i1⟩
  | .hbm, ⟨104, _⟩ => ⟨S10x1x1, .f32⟩
  | .hbm, ⟨105, _⟩ => ⟨S10, .f32⟩
  | .hbm, ⟨106, _⟩ => ⟨S_, .f32⟩
  | .hbm, ⟨107, _⟩ => ⟨S_, .f32⟩
  | .hbm, ⟨108, _⟩ => ⟨S10x1x1, .f32⟩
  | .hbm, ⟨109, _⟩ => ⟨S10, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .i32⟩
  | .hbm, ⟨114, _⟩ => ⟨S10x1x1, .f32⟩
  | .hbm, ⟨115, _⟩ => ⟨S10, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .i32⟩
  | .hbm, ⟨120, _⟩ => ⟨S10x1x2, .f32⟩
  | .hbm, ⟨121, _⟩ => ⟨S10x2, .f32⟩
  | .hbm, ⟨122, _⟩ => ⟨S_, .f32⟩
  | .hbm, ⟨123, _⟩ => ⟨S2, .f32⟩
  | .hbm, ⟨124, _⟩ => ⟨S_, .f32⟩
  | .hbm, ⟨125, _⟩ => ⟨S2, .f32⟩
  | .hbm, ⟨126, _⟩ => ⟨S2, .f32⟩
  | .local _ .vmem, ⟨0, _⟩ => ⟨S10x32000, .f32⟩
  | .local _ .vmem, ⟨1, _⟩ => ⟨S10x32000, .f32⟩
  | .local _ .vmem, ⟨2, _⟩ => ⟨S2x32000, .f32⟩
  | .local _ .vmem, ⟨3, _⟩ => ⟨S2x32000, .f32⟩
  | .local _ .vmem, ⟨4, _⟩ => ⟨S1x32000, .f32⟩
  | .local _ .vmem, ⟨5, _⟩ => ⟨S1x32000, .f32⟩
  | .local _ .vmem, ⟨6, _⟩ => ⟨S4x16, .f32⟩
  | .local _ .vmem, ⟨7, _⟩ => ⟨S10x16, .f32⟩
  | .local _ .vmem, ⟨8, _⟩ => ⟨S16, .f32⟩
  | .local _ .vmem, ⟨9, _⟩ => ⟨S32000x18, .f32⟩
  | .local _ .vmem, ⟨10, _⟩ => ⟨S32000x18, .f32⟩
  | .local _ .vmem, ⟨11, _⟩ => ⟨S1x8x128, .f32⟩
  | .local _ .vmem, ⟨12, _⟩ => ⟨S1x8x128, .f32⟩
  | .local _ .vmem, ⟨13, _⟩ => ⟨S5000x10, .f32⟩
  | .local _ .vmem, ⟨14, _⟩ => ⟨S5000x10, .f32⟩
  | .local _ .vmem, ⟨15, _⟩ => ⟨S5000x18, .f32⟩
  | .local _ .vmem, ⟨16, _⟩ => ⟨S5000x18, .f32⟩
  | .local _ .vmem, ⟨17, _⟩ => ⟨S5000x2, .f32⟩
  | .local _ .vmem, ⟨18, _⟩ => ⟨S5000x2, .f32⟩
  | .local _ .vmem, ⟨19, _⟩ => ⟨S16x4, .f32⟩
  | .local _ .vmem, ⟨20, _⟩ => ⟨S4, .f32⟩
  | .local _ .vmem, ⟨21, _⟩ => ⟨S5000x10, .f32⟩
  | .local _ .vmem, ⟨22, _⟩ => ⟨S5000x10, .f32⟩
  | .local _ .vmem, ⟨23, _⟩ => ⟨S5000x1, .f32⟩
  | .local _ .vmem, ⟨24, _⟩ => ⟨S5000x1, .f32⟩
  | .local _ .vmem, ⟨25, _⟩ => ⟨S1x8x128, .f32⟩
  | .local _ .vmem, ⟨26, _⟩ => ⟨S1x8x128, .f32⟩
  | _, _ => ⟨S50000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v4 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v5 : Ref sig .tc := ⟨.hbm, 80, rfl⟩
abbrev main_v6_0 : Ref sig .tc := ⟨.hbm, 81, rfl⟩
abbrev main_v6_1 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_cst_0 : Ref sig .tc := ⟨.hbm, 91, rfl⟩
abbrev main_v14 : Ref sig .tc := ⟨.hbm, 92, rfl⟩
abbrev main_cst_1 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18_0 : Ref sig .tc := ⟨.hbm, 97, rfl⟩
abbrev main_v18_1 : Ref sig .tc := ⟨.hbm, 98, rfl⟩
abbrev main_v18_2 : Ref sig .tc := ⟨.hbm, 99, rfl⟩
abbrev main_v19 : Ref sig .tc := ⟨.hbm, 100, rfl⟩
abbrev main_cst_2 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_cst_4 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_5 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_cst_6 : Ref sig .tc := ⟨.hbm, 122, rfl⟩
abbrev main_v37 : Ref sig .tc := ⟨.hbm, 123, rfl⟩
abbrev main_cst_7 : Ref sig .tc := ⟨.hbm, 124, rfl⟩
abbrev main_v38 : Ref sig .tc := ⟨.hbm, 125, rfl⟩
abbrev main_v39 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32000x18 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x18 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S50000x10_S10x50000_1_0 : S50000x10.Transposes [1, 0] S10x50000
  slices_S10x50000_S2x50000_0_0 : S10x50000.Slices ![0, 0] S2x50000
  slices_S10x50000_S1x50000_4_0 : S10x50000.Slices ![4, 0] S1x50000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S10x3200000_1 : S3200000.BroadcastsInDim S10x3200000 (![1] : Fin 1 → Fin S10x3200000.rank)
  bcast_S_S10x3200000 : S_.BroadcastsInDim S10x3200000 (![] : Fin 0 → Fin S10x3200000.rank)
  bcast_S3200000_S2x3200000_1 : S3200000.BroadcastsInDim S2x3200000 (![1] : Fin 1 → Fin S2x3200000.rank)
  bcast_S_S2x3200000 : S_.BroadcastsInDim S2x3200000 (![] : Fin 0 → Fin S2x3200000.rank)
  bcast_S3200000_S1x3200000_1 : S3200000.BroadcastsInDim S1x3200000 (![1] : Fin 1 → Fin S1x3200000.rank)
  bcast_S_S1x3200000 : S_.BroadcastsInDim S1x3200000 (![] : Fin 0 → Fin S1x3200000.rank)
  inb_S10x32000_S10x32000_0_0 : ∀ a, (![0, 0] : Fin 2 → Nat) a + S10x32000.size a ≤ S10x32000.size a
  h_S10x32000 : 0 < S10x32000.numel
  shapeCasts_S10x32000_S10x32000 : S10x32000.ShapeCasts S10x32000
  inb_S2x32000_S2x32000_0_0 : ∀ a, (![0, 0] : Fin 2 → Nat) a + S2x32000.size a ≤ S2x32000.size a
  h_S2x32000 : 0 < S2x32000.numel
  shapeCasts_S2x32000_S2x32000 : S2x32000.ShapeCasts S2x32000
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  slices_S10x32000_o0_0_S2x32000 : S10x32000.Slices ![0, 0] S2x32000
  reduces_S2x32000_S32000 : S2x32000.Reduces [0] S32000
  shapeCasts_S32000_S1x32000 : S32000.ShapeCasts S1x32000
  slices_S10x32000_o4_0_S1x32000 : S10x32000.Slices ![4, 0] S1x32000
  concatenates_S1x32000_S2x32000_S1x32000_S4x32000_d0 : Shape.Concatenates [S1x32000, S2x32000, S1x32000] S4x32000 0
  inb_S4x16_S4x16_0_0 : ∀ a, (![0, 0] : Fin 2 → Nat) a + S4x16.size a ≤ S4x16.size a
  h_S4x16 : 0 < S4x16.numel
  inb_S10x16_S10x16_0_0 : ∀ a, (![0, 0] : Fin 2 → Nat) a + S10x16.size a ≤ S10x16.size a
  h_S10x16 : 0 < S10x16.numel
  inb_S16_S16_0 : ∀ a, (![0] : Fin 1 → Nat) a + S16.size a ≤ S16.size a
  h_S16 : 0 < S16.numel
  shapeCasts_S16_S1x16 : S16.ShapeCasts S1x16
  broadcasts_S1x16_S32000x16 : S1x16.Broadcasts S32000x16
  natLt_1_32 : 1 < 32
  transposes_S1x32000_p1_0_S32000x1 : S1x32000.Transposes [1, 0] S32000x1
  inb_S32000x18_S32000x16_0_0 : ∀ a, (![0, 0] : Fin 2 → Nat) a + S32000x16.size a ≤ S32000x18.size a
  h_S32000x16 : 0 < S32000x16.numel
  inb_S32000x18_S32000x1_0_16 : ∀ a, (![0, 16] : Fin 2 → Nat) a + S32000x1.size a ≤ S32000x18.size a
  h_S32000x1 : 0 < S32000x1.numel
  inb_S32000x18_S32000x1_0_17 : ∀ a, (![0, 17] : Fin 2 → Nat) a + S32000x1.size a ≤ S32000x18.size a
  reduces_S1x32000_S1 : S1x32000.Reduces [1] S1
  shapeCasts_S1_S1x1 : S1.ShapeCasts S1x1
  concatenates_S1x1_S1x1_S1x2_d1 : Shape.Concatenates [S1x1, S1x1] S1x2 1
  concatenates_S1x2_S1x126_S1x128_d1 : Shape.Concatenates [S1x2, S1x126] S1x128 1
  concatenates_S1x128_S7x128_S8x128_d0 : Shape.Concatenates [S1x128, S7x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S100x8x128_S100x1x1_0_0_0 : S100x8x128.Slices ![0, 0, 0] S100x1x1
  shapeCasts_S100x1x1_S100 : S100x1x1.ShapeCasts S100
  slices_S100x8x128_S100x1x1_0_0_1 : S100x8x128.Slices ![0, 0, 1] S100x1x1
  reducesTo_S100_S_d0 : S100.ReducesTo [0] S_
  bcast_S_S50000x18 : S_.BroadcastsInDim S50000x18 (![] : Fin 0 → Fin S50000x18.rank)
  inb_S5000x10_S5000x10_0_0 : ∀ a, (![0, 0] : Fin 2 → Nat) a + S5000x10.size a ≤ S5000x10.size a
  h_S5000x10 : 0 < S5000x10.numel
  slices_S5000x10_o0_0_S5000x2 : S5000x10.Slices ![0, 0] S5000x2
  slices_S5000x10_o0_2_S5000x2 : S5000x10.Slices ![0, 2] S5000x2
  slices_S5000x10_o0_4_S5000x1 : S5000x10.Slices ![0, 4] S5000x1
  inb_S5000x18_S5000x18_0_0 : ∀ a, (![0, 0] : Fin 2 → Nat) a + S5000x18.size a ≤ S5000x18.size a
  h_S5000x18 : 0 < S5000x18.numel
  shapeCasts_S5000x18_S5000x18 : S5000x18.ShapeCasts S5000x18
  slices_S5000x18_o0_0_S5000x16 : S5000x18.Slices ![0, 0] S5000x16
  iota_S5000x10_d1_w32 : S5000x10.Iotas .tc 32 [1]
  reduces_S5000x10_S5000 : S5000x10.Reduces [1] S5000
  shapeCasts_S5000_S5000x1 : S5000.ShapeCasts S5000x1
  iota_S5000x18_d1_w32 : S5000x18.Iotas .tc 32 [1]
  reduces_S5000x18_S5000 : S5000x18.Reduces [1] S5000
  inb_S16x4_S16x4_0_0 : ∀ a, (![0, 0] : Fin 2 → Nat) a + S16x4.size a ≤ S16x4.size a
  h_S16x4 : 0 < S16x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  broadcasts_S5000x1_S5000x4 : S5000x1.Broadcasts S5000x4
  slices_S5000x4_o0_0_S5000x2 : S5000x4.Slices ![0, 0] S5000x2
  inb_S5000x2_S5000x2_0_0 : ∀ a, (![0, 0] : Fin 2 → Nat) a + S5000x2.size a ≤ S5000x2.size a
  h_S5000x2 : 0 < S5000x2.numel
  broadcasts_S5000x1_S5000x2 : S5000x1.Broadcasts S5000x2
  slices_S5000x4_o0_2_S5000x2 : S5000x4.Slices ![0, 2] S5000x2
  slices_S5000x10_o0_7_S5000x3 : S5000x10.Slices ![0, 7] S5000x3
  concatenates_S5000x2_S5000x2_S5000x1_S5000x2_S5000x3_S5000x10_d1 : Shape.Concatenates [S5000x2, S5000x2, S5000x1, S5000x2, S5000x3] S5000x10 1
  reduces_S5000x2_S5000 : S5000x2.Reduces [1] S5000
  inb_S5000x1_S5000x1_0_0 : ∀ a, (![0, 0] : Fin 2 → Nat) a + S5000x1.size a ≤ S5000x1.size a
  h_S5000x1 : 0 < S5000x1.numel
  concatenates_S5000x1_S5000x1_S5000x1_S5000x2_S5000x5_d1 : Shape.Concatenates [S5000x1, S5000x1, S5000x1, S5000x2] S5000x5 1
  reduces_S5000x5_S5 : S5000x5.Reduces [0] S5
  shapeCasts_S5_S1x5 : S5.ShapeCasts S1x5
  concatenates_S1x5_S1x123_S1x128_d1 : Shape.Concatenates [S1x5, S1x123] S1x128 1
  shapeCasts_S50000x1_S50000 : S50000x1.ShapeCasts S50000
  bcast_S_S50000 : S_.BroadcastsInDim S50000 (![] : Fin 0 → Fin S50000.rank)
  slices_S10x8x128_S10x1x1_0_0_0 : S10x8x128.Slices ![0, 0, 0] S10x1x1
  shapeCasts_S10x1x1_S10 : S10x1x1.ShapeCasts S10
  reducesTo_S10_S_d0 : S10.ReducesTo [0] S_
  slices_S10x8x128_S10x1x1_0_0_1 : S10x8x128.Slices ![0, 0, 1] S10x1x1
  slices_S10x8x128_S10x1x1_0_0_2 : S10x8x128.Slices ![0, 0, 2] S10x1x1
  slices_S10x8x128_S10x1x2_0_0_3 : S10x8x128.Slices ![0, 0, 3] S10x1x2
  shapeCasts_S10x1x2_S10x2 : S10x1x2.ShapeCasts S10x2
  reducesTo_S10x2_S2_d0 : S10x2.ReducesTo [0] S2
  bcast_S_S2 : S_.BroadcastsInDim S2 (![] : Fin 0 → Fin S2.rank)
  gather_S10x50000_S3200000x1_S10x3200000_0_1_n_n_1_1_101_wf : GatherDims.WF S10x50000 S3200000x1 S10x3200000 [0] [1] [] [1] [] 1 ![10, 1]
  gather_S2x50000_S3200000x1_S2x3200000_0_1_n_n_1_1_21_wf : GatherDims.WF S2x50000 S3200000x1 S2x3200000 [0] [1] [] [1] [] 1 ![2, 1]
  gather_S1x50000_S3200000x1_S1x3200000_0_1_n_n_1_1_11_wf : GatherDims.WF S1x50000 S3200000x1 S1x3200000 [0] [1] [] [1] [] 1 ![1, 1]
  dot_S4x32000_S4x16_S32000x16_0_0_1_1_n_n_wf : DotDims.WF S4x32000 S4x16 S32000x16 [0] [0] [1] [1] [] []
  dot_S10x32000_S10x16_S32000x16_0_0_1_1_n_n_wf : DotDims.WF S10x32000 S10x16 S32000x16 [0] [0] [1] [1] [] []
  scatter_S50000x18_S3200000x1_S3200000x18_1_0_0_1_wf : ScatterDims.WF S50000x18 S3200000x1 S3200000x18 [1] [0] [0] 1
  dot_S5000x16_S16x4_S5000x4_1_0_0_1_n_n_wf : DotDims.WF S5000x16 S16x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x32000.size a ≤ S10x3200000.size a
  hwx0_0 : ∀ i : grid0.Coords, EltTy.bits .f32 = 32 ∨ (Rect.block (s := S10x3200000) S10x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32000.size a ≤ S2x3200000.size a
  hwx0_1 : ∀ i : grid0.Coords, EltTy.bits .f32 = 32 ∨ (Rect.block (s := S2x3200000) S2x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32000.size a ≤ S1x3200000.size a
  hwx0_2 : ∀ i : grid0.Coords, EltTy.bits .f32 = 32 ∨ (Rect.block (s := S1x3200000) S1x32000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x16.size a ≤ S10x16.size a
  hwx0_4 : ∀ i : grid0.Coords, EltTy.bits .f32 = 32 ∨ (Rect.block (s := S10x16) S10x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32000x18.size a ≤ S3200000x18.size a
  hwx0_6 : ∀ i : grid0.Coords, EltTy.bits .f32 = 32 ∨ (Rect.block (s := S3200000x18) S32000x18.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S100x8x128.size a
  hwx0_7 : ∀ i : grid0.Coords, EltTy.bits .f32 = 32 ∨ (Rect.block (s := S100x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S50000x10.size a
  hwx1_0 : ∀ i : grid1.Coords, EltTy.bits .f32 = 32 ∨ (Rect.block (s := S50000x10) S5000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x18.size a ≤ S50000x18.size a
  hwx1_1 : ∀ i : grid1.Coords, EltTy.bits .f32 = 32 ∨ (Rect.block (s := S50000x18) S5000x18.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S50000x2.size a
  hwx1_2 : ∀ i : grid1.Coords, EltTy.bits .f32 = 32 ∨ (Rect.block (s := S50000x2) S5000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x4.size a ≤ S16x4.size a
  hwx1_3 : ∀ i : grid1.Coords, EltTy.bits .f32 = 32 ∨ (Rect.block (s := S16x4) S16x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4.size a ≤ S4.size a
  hwx1_4 : ∀ i : grid1.Coords, EltTy.bits .f32 = 32 ∨ (Rect.block (s := S4) S4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S50000x10.size a
  hwx1_5 : ∀ i : grid1.Coords, EltTy.bits .f32 = 32 ∨ (Rect.block (s := S50000x10) S5000x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x128.size a ≤ S10x8x128.size a
  hwx1_7 : ∀ i : grid1.Coords, EltTy.bits .f32 = 32 ∨ (Rect.block (s := S10x8x128) S1x8x128.size (cc1_transform_7 i) (hinb1_7 i)).WholeWords (EltTy.packing .f32)

variable [Facts₀]

def gather_S10x50000_S3200000x1_S10x3200000_0_1_n_n_1_1_101 : GatherDims S10x50000 S3200000x1 S10x3200000 where
  offsetDims := [0]
  collapsedSliceDims := [1]
  operandBatchingDims := []
  startIndicesBatchingDims := []
  startIndexMap := [1]
  indexVectorDim := 1
  sliceSizes := ![10, 1]
  wf := gather_S10x50000_S3200000x1_S10x3200000_0_1_n_n_1_1_101_wf
def gather_S2x50000_S3200000x1_S2x3200000_0_1_n_n_1_1_21 : GatherDims S2x50000 S3200000x1 S2x3200000 where
  offsetDims := [0]
  collapsedSliceDims := [1]
  operandBatchingDims := []
  startIndicesBatchingDims := []
  startIndexMap := [1]
  indexVectorDim := 1
  sliceSizes := ![2, 1]
  wf := gather_S2x50000_S3200000x1_S2x3200000_0_1_n_n_1_1_21_wf
def gather_S1x50000_S3200000x1_S1x3200000_0_1_n_n_1_1_11 : GatherDims S1x50000 S3200000x1 S1x3200000 where
  offsetDims := [0]
  collapsedSliceDims := [1]
  operandBatchingDims := []
  startIndicesBatchingDims := []
  startIndexMap := [1]
  indexVectorDim := 1
  sliceSizes := ![1, 1]
  wf := gather_S1x50000_S3200000x1_S1x3200000_0_1_n_n_1_1_11_wf
def dot_S4x32000_S4x16_S32000x16_0_0_1_1_n_n : DotDims S4x32000 S4x16 S32000x16 where
  lhsContracting := [0]
  rhsContracting := [0]
  lhsNonContracting := [1]
  rhsNonContracting := [1]
  lhsBatch := []
  rhsBatch := []
  wf := dot_S4x32000_S4x16_S32000x16_0_0_1_1_n_n_wf
def dot_S10x32000_S10x16_S32000x16_0_0_1_1_n_n : DotDims S10x32000 S10x16 S32000x16 where
  lhsContracting := [0]
  rhsContracting := [0]
  lhsNonContracting := [1]
  rhsNonContracting := [1]
  lhsBatch := []
  rhsBatch := []
  wf := dot_S10x32000_S10x16_S32000x16_0_0_1_1_n_n_wf
def scatter_S50000x18_S3200000x1_S3200000x18_1_0_0_1 : ScatterDims S50000x18 S3200000x1 S3200000x18 where
  updateWindowDims := [1]
  insertedWindowDims := [0]
  scatterDimsToOperandDims := [0]
  indexVectorDim := 1
  wf := scatter_S50000x18_S3200000x1_S3200000x18_1_0_0_1_wf
def dot_S5000x16_S16x4_S5000x4_1_0_0_1_n_n : DotDims S5000x16 S16x4 S5000x4 where
  lhsContracting := [1]
  rhsContracting := [0]
  lhsNonContracting := [0]
  rhsNonContracting := [1]
  lhsBatch := []
  rhsBatch := []
  wf := dot_S5000x16_S16x4_S5000x4_1_0_0_1_n_n_wf

abbrev win0_0 : Pipeline.Window sig grid0 :=
  Pipeline.Window.ofSpec (Memref.whole main_v3) S10x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S10x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S32000x18.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x18.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18_0) S5000x10.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_1) S5000x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_2) S1x8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x10 : Shape := ⟨2, ![50000, 10]⟩
abbrev S3200000 : Shape := ⟨1, ![3200000]⟩
abbrev S50000x2 : Shape := ⟨2, ![50000, 2]⟩
abbrev S4x16 : Shape := ⟨2, ![4, 16]⟩
abbrev S10x16 : Shape := ⟨2, ![10, 16]⟩
abbrev S16 : Shape := ⟨1, ![16]⟩
abbrev S16x4 : Shape := ⟨2, ![16, 4]⟩
abbrev S4 : Shape := ⟨1, ![4]⟩
abbrev S50000x1 : Shape := ⟨2, ![50000, 1]⟩
abbrev S50000 : Shape := ⟨1, ![50000]⟩
abbrev S_ : Shape := ⟨0, ![]⟩
abbrev S3200000x1 : Shape := ⟨2, ![3200000, 1]⟩
abbrev S3200000x2 : Shape := ⟨2, ![3200000, 2]⟩
abbrev S3200000x4 : Shape := ⟨2, ![3200000, 4]⟩
abbrev S3200000x16 : Shape := ⟨2, ![3200000, 16]⟩
abbrev S3200000x10 : Shape := ⟨2, ![3200000, 10]⟩
abbrev S1x16 : Shape := ⟨2, ![1, 16]⟩
abbrev S50000x16 : Shape := ⟨2, ![50000, 16]⟩
abbrev S50000x4 : Shape := ⟨2, ![50000, 4]⟩
abbrev S1x4 : Shape := ⟨2, ![1, 4]⟩
abbrev S50000x3 : Shape := ⟨2, ![50000, 3]⟩
abbrev S2 : Shape := ⟨1, ![2]⟩

abbrev nBuf : Space → Nat
  | .hbm => 207
  | .vmem => 0
  | .smem => 0
  | _ => 0

abbrev hbmTy0_0 (i : Nat) : BufTy := match i % 128 with
  | 0 => ⟨S50000x10, .f32⟩
  | 1 => ⟨S3200000, .i32⟩
  | 2 => ⟨S3200000, .i32⟩
  | 3 => ⟨S50000x2, .f32⟩
  | 4 => ⟨S4x16, .f32⟩
  | 5 => ⟨S10x16, .f32⟩
  | 6 => ⟨S16, .f32⟩
  | 7 => ⟨S16x4, .f32⟩
  | 8 => ⟨S4, .f32⟩
  | 9 => ⟨S50000x2, .f32⟩
  | 10 => ⟨S50000x2, .f32⟩
  | 11 => ⟨S50000x1, .f32⟩
  | 12 => ⟨S50000, .f32⟩
  | 13 => ⟨S_, .f32⟩
  | 14 => ⟨S50000, .f32⟩
  | 15 => ⟨S50000, .i1⟩
  | 16 => ⟨S50000, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x2, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000x2, .f32⟩
  | 35 => ⟨S3200000x2, .f32⟩
  | 36 => ⟨S3200000x2, .f32⟩
  | 37 => ⟨S_, .f32⟩
  | 38 => ⟨S3200000, .f32⟩
  | 39 => ⟨S_, .f32⟩
  | 40 => ⟨S3200000, .f32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000x1, .f32⟩
  | 53 => ⟨S3200000x1, .f32⟩
  | 54 => ⟨S3200000x4, .f32⟩
  | 55 => ⟨S3200000x16, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x10, .f32⟩
  | 65 => ⟨S3200000x16, .f32⟩
  | 66 => ⟨S3200000x16, .f32⟩
  | 67 => ⟨S1x16, .f32⟩
  | 68 => ⟨S3200000x16, .f32⟩
  | 69 => ⟨S3200000x16, .f32⟩
  | 70 => ⟨S_, .f32⟩
  | 71 => ⟨S3200000x16, .f32⟩
  | 72 => ⟨S3200000x16, .f32⟩
  | 73 => ⟨S_, .f32⟩
  | 74 => ⟨S50000x16, .f32⟩
  | 75 => ⟨S3200000x1, .i32⟩
  | 76 => ⟨S50000x16, .f32⟩
  | 77 => ⟨S50000x4, .f32⟩
  | 78 => ⟨S1x4, .f32⟩
  | 79 => ⟨S50000x4, .f32⟩
  | 80 => ⟨S50000x4, .f32⟩
  | 81 => ⟨S50000x4, .f32⟩
  | 82 => ⟨S50000x1, .f32⟩
  | 83 => ⟨S50000x4, .f32⟩
  | 84 => ⟨S50000x4, .f32⟩
  | 85 => ⟨S50000x2, .f32⟩
  | 86 => ⟨S_, .f32⟩
  | 87 => ⟨S50000x2, .f32⟩
  | 88 => ⟨S50000x2, .f32⟩
  | 89 => ⟨S50000x2, .f32⟩
  | 90 => ⟨S_, .f32⟩
  | 91 => ⟨S_, .f32⟩
  | 92 => ⟨S_, .f32⟩
  | 93 => ⟨S50000x2, .f32⟩
  | 94 => ⟨S50000x2, .f32⟩
  | 95 => ⟨S_, .f32⟩
  | 96 => ⟨S50000x2, .f32⟩
  | 97 => ⟨S50000x2, .f32⟩
  | 98 => ⟨S50000x2, .f32⟩
  | 99 => ⟨S_, .f32⟩
  | 100 => ⟨S50000x2, .f32⟩
  | 101 => ⟨S50000x2, .f32⟩
  | 102 => ⟨S_, .f32⟩
  | 103 => ⟨S50000x2, .f32⟩
  | 104 => ⟨S50000x2, .f32⟩
  | 105 => ⟨S_, .f32⟩
  | 106 => ⟨S50000x2, .f32⟩
  | 107 => ⟨S50000x2, .f32⟩
  | 108 => ⟨S50000x1, .f32⟩
  | 109 => ⟨S50000x2, .f32⟩
  | 110 => ⟨S50000x2, .f32⟩
  | 111 => ⟨S50000x2, .f32⟩
  | 112 => ⟨S50000x1, .f32⟩
  | 113 => ⟨S50000x2, .f32⟩
  | 114 => ⟨S50000x3, .f32⟩
  | 115 => ⟨S50000x10, .f32⟩
  | 116 => ⟨S50000x2, .f32⟩
  | 117 => ⟨S_, .f32⟩
  | 118 => ⟨S50000x2, .f32⟩
  | 119 => ⟨S50000x2, .i1⟩
  | 120 => ⟨S50000x2, .f32⟩
  | 121 => ⟨S50000x2, .f32⟩
  | 122 => ⟨S_, .f32⟩
  | 123 => ⟨S50000x2, .f32⟩
  | 124 => ⟨S50000x2, .f32⟩
  | 125 => ⟨S50000x2, .f32⟩
  | 126 => ⟨S50000x2, .f32⟩
  | 127 => ⟨S_, .f32⟩
  | _ => ⟨S50000x10, .f32⟩

abbrev hbmTy0_1 (i : Nat) : BufTy := match i % 128 with
  | 0 => ⟨S_, .f32⟩
  | 1 => ⟨S_, .f32⟩
  | 2 => ⟨S3200000, .f32⟩
  | 3 => ⟨S3200000, .i1⟩
  | 4 => ⟨S3200000, .i32⟩
  | 5 => ⟨S_, .i32⟩
  | 6 => ⟨S_, .i32⟩
  | 7 => ⟨S3200000, .f32⟩
  | 8 => ⟨S3200000, .f32⟩
  | 9 => ⟨S_, .f32⟩
  | 10 => ⟨S_, .f32⟩
  | 11 => ⟨S_, .f32⟩
  | 12 => ⟨S3200000, .f32⟩
  | 13 => ⟨S_, .f32⟩
  | 14 => ⟨S50000, .f32⟩
  | 15 => ⟨S3200000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .i1⟩
  | 23 => ⟨S50000, .i1⟩
  | 24 => ⟨S_, .f32⟩
  | 25 => ⟨S3200000, .f32⟩
  | 26 => ⟨S3200000, .i1⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S_, .f32⟩
  | 37 => ⟨S3200000, .f32⟩
  | 38 => ⟨S3200000, .i1⟩
  | 39 => ⟨S3200000, .i1⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S_, .f32⟩
  | 50 => ⟨S3200000, .f32⟩
  | 51 => ⟨S3200000, .i1⟩
  | 52 => ⟨S3200000, .i1⟩
  | 53 => ⟨S3200000, .f32⟩
  | 54 => ⟨S_, .f32⟩
  | 55 => ⟨S50000, .f32⟩
  | 56 => ⟨S3200000x1, .i32⟩
  | 57 => ⟨S50000, .f32⟩
  | 58 => ⟨S_, .f32⟩
  | 59 => ⟨S50000, .f32⟩
  | 60 => ⟨S50000, .i1⟩
  | 61 => ⟨S_, .f32⟩
  | 62 => ⟨S50000, .f32⟩
  | 63 => ⟨S50000, .i1⟩
  | 64 => ⟨S50000, .i1⟩
  | 65 => ⟨S50000, .i1⟩
  | 66 => ⟨S50000, .i1⟩
  | 67 => ⟨S50000x2, .f32⟩
  | 68 => ⟨S_, .f32⟩
  | 69 => ⟨S2, .f32⟩
  | 70 => ⟨S_, .f32⟩
  | 71 => ⟨S2, .f32⟩
  | 72 => ⟨S2, .f32⟩
  | 73 => ⟨S50000, .i32⟩
  | 74 => ⟨S_, .i32⟩
  | 75 => ⟨S_, .i32⟩
  | 76 => ⟨S50000, .i32⟩
  | 77 => ⟨S_, .i32⟩
  | 78 => ⟨S_, .i32⟩
  | _ => ⟨S50000x10, .f32⟩

abbrev hbmTy (i : Nat) : BufTy := match i / 128 with
  | 0 => hbmTy0_0 i
  | 1 => hbmTy0_1 i
  | _ => ⟨S50000x10, .f32⟩

abbrev bufTy : (tb : Table) → Fin (tcTables nBuf tb) → BufTy
  | .hbm, ⟨i, _⟩ => hbmTy i
  | _, _ => ⟨S50000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_cst_23 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_24 : Ref sig .tc := ⟨.hbm, 145, rfl⟩
abbrev main_v103 : Ref sig .tc := ⟨.hbm, 146, rfl⟩
abbrev main_v104 : Ref sig .tc := ⟨.hbm, 147, rfl⟩
abbrev main_cst_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_26 : Ref sig .tc := ⟨.hbm, 152, rfl⟩
abbrev main_v108 : Ref sig .tc := ⟨.hbm, 153, rfl⟩
abbrev main_v109 : Ref sig .tc := ⟨.hbm, 154, rfl⟩
abbrev main_c_27 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_29 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_30 : Ref sig .tc := ⟨.hbm, 168, rfl⟩
abbrev main_v120 : Ref sig .tc := ⟨.hbm, 169, rfl⟩
abbrev main_v121 : Ref sig .tc := ⟨.hbm, 170, rfl⟩
abbrev main_c_31 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_32 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_33 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_34 : Ref sig .tc := ⟨.hbm, 186, rfl⟩
abbrev main_v134 : Ref sig .tc := ⟨.hbm, 187, rfl⟩
abbrev main_v135 : Ref sig .tc := ⟨.hbm, 188, rfl⟩
abbrev main_cst_35 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_36 : Ref sig .tc := ⟨.hbm, 196, rfl⟩
abbrev main_v142 : Ref sig .tc := ⟨.hbm, 197, rfl⟩
abbrev main_cst_37 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_38 : Ref sig .tc := ⟨.hbm, 202, rfl⟩
abbrev main_v146 : Ref sig .tc := ⟨.hbm, 203, rfl⟩
abbrev main_v147 : Ref sig .tc := ⟨.hbm, 204, rfl⟩
abbrev main_c_39 : Ref sig .tc := ⟨.hbm, 205, rfl⟩
abbrev main_v148 : Ref sig .tc := ⟨.hbm, 206, rfl⟩

abbrev nD : Nat := 1
abbrev τ : Topo := Topo.v7x

variable {F : FTy → Type} [FloatOps F]

class Facts₀ : Prop where
  slices_S50000x10_S50000x2_0_0 : S50000x10.Slices ![0, 0] S50000x2
  slices_S50000x10_S50000x2_0_2 : S50000x10.Slices ![0, 2] S50000x2
  slices_S50000x10_S50000x1_0_4 : S50000x10.Slices ![0, 4] S50000x1
  shapeCasts_S50000x1_S50000 : S50000x1.ShapeCasts S50000
  bcast_S_S50000 : S_.BroadcastsInDim S50000 (![] : Fin 0 → Fin S50000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x2_S3200000_d1 : S3200000x2.ReducesTo [1] S3200000
  h_S_ : 0 < S_.numel
  concatenates_S3200000x1_S3200000x2_S3200000x1_S3200000x4_d1 : Shape.Concatenates [S3200000x1, S3200000x2, S3200000x1] S3200000x4 1
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  bcast_S_S50000x16 : S_.BroadcastsInDim S50000x16 (![] : Fin 0 → Fin S50000x16.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  slices_S50000x4_S50000x2_0_0 : S50000x4.Slices ![0, 0] S50000x2
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  slices_S50000x4_S50000x2_0_2 : S50000x4.Slices ![0, 2] S50000x2
  slices_S50000x10_S50000x3_0_7 : S50000x10.Slices ![0, 7] S50000x3
  concatenates_S50000x2_S50000x2_S50000x1_S50000x2_S50000x3_S50000x10_d1 : Shape.Concatenates [S50000x2, S50000x2, S50000x1, S50000x2, S50000x3] S50000x10 1
  reducesTo_S50000x2_S_d0_1 : S50000x2.ReducesTo [0, 1] S_
  natLt_1_32 : 1 < 32
  reducesTo_S3200000_S_d0 : S3200000.ReducesTo [0] S_
  reducesTo_S50000x2_S2_d0 : S50000x2.ReducesTo [0] S2
  bcast_S_S2 : S_.BroadcastsInDim S2 (![] : Fin 0 → Fin S2.rank)
  reducesTo_S50000_S_d0 : S50000.ReducesTo [0] S_
  gather_S50000x2_S3200000x1_S3200000x2_1_0_n_n_0_1_12_wf : GatherDims.WF S50000x2 S3200000x1 S3200000x2 [1] [0] [] [0] [] 1 ![1, 2]
  gather_S50000_S3200000x1_S3200000_n_0_n_n_0_1_1_wf : GatherDims.WF S50000 S3200000x1 S3200000 [] [0] [] [0] [] 1 ![1]
  dot_S3200000x4_S4x16_S3200000x16_1_0_0_1_n_n_wf : DotDims.WF S3200000x4 S4x16 S3200000x16 [1] [0] [0] [1] [] []
  gather_S50000x10_S3200000x1_S3200000x10_1_0_n_n_0_1_110_wf : GatherDims.WF S50000x10 S3200000x1 S3200000x10 [1] [0] [] [0] [] 1 ![1, 10]
  dot_S3200000x10_S10x16_S3200000x16_1_0_0_1_n_n_wf : DotDims.WF S3200000x10 S10x16 S3200000x16 [1] [0] [0] [1] [] []
  scatter_S50000x16_S3200000x1_S3200000x16_1_0_0_1_wf : ScatterDims.WF S50000x16 S3200000x1 S3200000x16 [1] [0] [0] 1
  dot_S50000x16_S16x4_S50000x4_1_0_0_1_n_n_wf : DotDims.WF S50000x16 S16x4 S50000x4 [1] [0] [0] [1] [] []
  scatter_S50000_S3200000x1_S3200000_n_0_0_1_wf : ScatterDims.WF S50000 S3200000x1 S3200000 [] [0] [0] 1

variable [Facts₀]

def gather_S50000x2_S3200000x1_S3200000x2_1_0_n_n_0_1_12 : GatherDims S50000x2 S3200000x1 S3200000x2 where
  offsetDims := [1]
  collapsedSliceDims := [0]
  operandBatchingDims := []
  startIndicesBatchingDims := []
  startIndexMap := [0]
  indexVectorDim := 1
  sliceSizes := ![1, 2]
  wf := gather_S50000x2_S3200000x1_S3200000x2_1_0_n_n_0_1_12_wf
def gather_S50000_S3200000x1_S3200000_n_0_n_n_0_1_1 : GatherDims S50000 S3200000x1 S3200000 where
  offsetDims := []
  collapsedSliceDims := [0]
  operandBatchingDims := []
  startIndicesBatchingDims := []
  startIndexMap := [0]
  indexVectorDim := 1
  sliceSizes := ![1]
  wf := gather_S50000_S3200000x1_S3200000_n_0_n_n_0_1_1_wf
def dot_S3200000x4_S4x16_S3200000x16_1_0_0_1_n_n : DotDims S3200000x4 S4x16 S3200000x16 where
  lhsContracting := [1]
  rhsContracting := [0]
  lhsNonContracting := [0]
  rhsNonContracting := [1]
  lhsBatch := []
  rhsBatch := []
  wf := dot_S3200000x4_S4x16_S3200000x16_1_0_0_1_n_n_wf
def gather_S50000x10_S3200000x1_S3200000x10_1_0_n_n_0_1_110 : GatherDims S50000x10 S3200000x1 S3200000x10 where
  offsetDims := [1]
  collapsedSliceDims := [0]
  operandBatchingDims := []
  startIndicesBatchingDims := []
  startIndexMap := [0]
  indexVectorDim := 1
  sliceSizes := ![1, 10]
  wf := gather_S50000x10_S3200000x1_S3200000x10_1_0_n_n_0_1_110_wf
def dot_S3200000x10_S10x16_S3200000x16_1_0_0_1_n_n : DotDims S3200000x10 S10x16 S3200000x16 where
  lhsContracting := [1]
  rhsContracting := [0]
  lhsNonContracting := [0]
  rhsNonContracting := [1]
  lhsBatch := []
  rhsBatch := []
  wf := dot_S3200000x10_S10x16_S3200000x16_1_0_0_1_n_n_wf
def scatter_S50000x16_S3200000x1_S3200000x16_1_0_0_1 : ScatterDims S50000x16 S3200000x1 S3200000x16 where
  updateWindowDims := [1]
  insertedWindowDims := [0]
  scatterDimsToOperandDims := [0]
  indexVectorDim := 1
  wf := scatter_S50000x16_S3200000x1_S3200000x16_1_0_0_1_wf
def dot_S50000x16_S16x4_S50000x4_1_0_0_1_n_n : DotDims S50000x16 S16x4 S50000x4 where
  lhsContracting := [1]
  rhsContracting := [0]
  lhsNonContracting := [0]
  rhsNonContracting := [1]
  lhsBatch := []
  rhsBatch := []
  wf := dot_S50000x16_S16x4_S50000x4_1_0_0_1_n_n_wf
def scatter_S50000_S3200000x1_S3200000_n_0_0_1 : ScatterDims S50000 S3200000x1 S3200000 where
  updateWindowDims := []
  insertedWindowDims := [0]
  scatterDimsToOperandDims := [0]
  indexVectorDim := 1
  wf := scatter_S50000_S3200000x1_S3200000_n_0_0_1_wf

class Facts : Prop extends Facts₀ where

variable [Facts]
-- ==== Proof.Spec.lean ====
/-
  What one step of the graph cellular automaton computes, as plain functions on the extended reals.

  A graph has 50000 nodes, each with ten channels (position 0-1, velocity 2-3, a living-cell flag 4, hidden state
  5-9), and 3200000 directed edges e : s e → d e.

  ONE EDGE, from the source's ten channels, the destination's position and the destination's flag: the offset of the
  source from the destination, its length (a small constant under the root), a sixteen-channel message (a rectified
  affine map of the edge's four attributes and the source's channels), a "consumption" bit and a "food source" bit;
  and the edge's ROW of eighteen numbers: the message, the constant one, the consumption bit as 0 or 1.

  ONE NODE, from its own ten channels, the eighteen column sums of the rows of the edges that END at it, and its two
  noise values: a four-channel readout of the summed messages, switched off at food nodes; the clipped new velocity,
  the new position, a noisy velocity; the dead and consumed tests (a living cell with fewer than three incoming edges;
  a food node with at least three consumption edges).

  The eight results: the new node table, the keep bit per node, the mean absolute new velocity per axis, the border
  cost, the counts of consumed nodes, dead nodes and food-source edges, and the summed length of the food-source edges.

  Float literals stay the words the programs carry: the same word stands on both sides and is never evaluated.
-/
import Idealize.ShloMosaic.PureOps.Ideal
import Idealize.ShloMosaic.PureOps.Ideal.Laws
import Idealize.ShloMosaic.Lib.ValueIdx
import Mathlib.Data.BitVec

noncomputable section

open scoped BigOperators

namespace Cert.Spec

open Idealize.ShloMosaic Idealize.ShloMosaic.ValueIdx

/-- A 32-bit float word as the extended real it denotes. -/
abbrev lit (b : BitVec 32) : EReal := Ideal.ofBits .f32 b

/-- A truth bit as the real number 0 or 1. -/
abbrev bitR (b : BitVec 1) : EReal := ((b.toNat : ℝ) : EReal)

/-- A count of set bits, as a 32-bit word. -/
def countBV {n : ℕ} (p : Fin n → BitVec 1) : BitVec 32 := ∑ i : Fin n, (p i).setWidth 32

/-- Edge number q of block t of 32000 edges. -/
def eIx (t : Fin 100) (q : Fin 32000) : Fin 3200000 := ⟨32000 * t.val + q.val, by omega⟩

/-- Node number q of block t of 5000 nodes. -/
def nIx (t : Fin 10) (q : Fin 5000) : Fin 50000 := ⟨5000 * t.val + q.val, by omega⟩

/-! ## One edge -/

section Edge

variable (xr : Fin 10 → EReal) (pr : Fin 2 → EReal) (cdv : EReal)
  (We : FVec Ideal ⟨2, ![4, 16]⟩ .f32) (Ws : FVec Ideal ⟨2, ![10, 16]⟩ .f32) (b1 : FVec Ideal ⟨1, ![16]⟩ .f32)

/-- Source position minus destination position, coordinate a. -/
def eDlt (a : Fin 2) : EReal := xr (Fin.castLE (by decide) a) - pr a

/-- The edge's length: the root of the squared offset plus 1e-12. -/
def eDist : EReal := Ideal.sqrt ((∑ a : Fin 2, eDlt xr pr a * eDlt xr pr a) + lit 0x2B8CBCCC#32)

/-- The edge's four attributes: length, the two offsets, the source's flag. -/
def eAttr (k : Fin 4) : EReal :=
  match k with
  | ⟨0, _⟩ => eDist xr pr
  | ⟨1, _⟩ => eDlt xr pr 0
  | ⟨2, _⟩ => eDlt xr pr 1
  | ⟨_ + 3, _⟩ => xr 4

/-- Channel j of the edge's message. -/
def eMsg (j : Fin 16) : EReal :=
  max ((∑ k : Fin 4, eAttr xr pr k * We (ix2 k j)) + (∑ k : Fin 10, xr k * Ws (ix2 k j)) + b1 (ix1 j)) (lit 0x00000000#32)

/-- The consumption bit: a short edge from a living cell to a food node. -/
def eCons : BitVec 1 :=
  (Ideal.cmp .olt (eDist xr pr) (lit 0x3D4CCCCD#32) &&& Ideal.cmp .oeq (xr 4) (lit 0x3F800000#32))
    &&& Ideal.cmp .oeq cdv (lit 0x00000000#32)

/-- The food-source bit: the edge leaves a food node. -/
def eFood : BitVec 1 := Ideal.cmp .oeq (xr 4) (lit 0x00000000#32)

/-- The edge's row of eighteen: sixteen message channels, the word 1.0, the consumption bit as 0 or 1. -/
def eRow (col : Fin 18) : EReal :=
  if h : col.val < 16 then eMsg xr pr We Ws b1 ⟨col.val, h⟩
  else if col.val = 16 then lit 0x3F800000#32
  else bitR (eCons xr pr cdv)

end Edge

/-! ## One node -/

section Node

variable (xn : Fin 10 → EReal) (cs : Fin 18 → EReal) (nzr : Fin 2 → EReal)
  (Wo : FVec Ideal ⟨2, ![16, 4]⟩ .f32) (b2 : FVec Ideal ⟨1, ![4]⟩ .f32)

/-- 1 at a living cell, 0 elsewhere. -/
def nMask : EReal := bitR (Ideal.cmp .oeq (xn 4) (lit 0x3F800000#32))

/-- Channel q of the readout: tanh of an affine map of the summed messages, masked. -/
def nHid (q : Fin 4) : EReal :=
  Ideal.tanh ((∑ j : Fin 16, cs (Fin.castLE (by decide) j) * Wo (ix2 j q)) + b2 (ix1 q)) * nMask xn

/-- The new velocity: the old one plus 0.005 times the readout, clipped to [-0.02, 0.02]. -/
def nVel (a : Fin 2) : EReal :=
  min (lit 0x3CA3D70A#32) (max (lit 0xBCA3D70A#32)
    (xn ((Fin.natAdd 2 a).castLE (by decide)) + nHid xn cs Wo b2 (Fin.castLE (by decide) a) * lit 0x3BA3D70A#32))

/-- The new position. -/
def nPos (a : Fin 2) : EReal := xn (Fin.castLE (by decide) a) + nVel xn cs Wo b2 a

/-- The new velocity with masked noise. -/
def nNoisy (a : Fin 2) : EReal :=
  nVel xn cs Wo b2 a + (nzr a * lit 0x40000000#32 - lit 0x3F800000#32) * lit 0x3B83126F#32 * nMask xn

/-- The dead bit: a living cell with fewer than three incoming edges. -/
def nDead : BitVec 1 :=
  Ideal.cmp .oeq (xn 4) (lit 0x3F800000#32) &&& Ideal.cmp .olt (cs 16) (lit 0x40400000#32)

/-- The consumed bit: a food node with at least three consumption edges. -/
def nConsumed : BitVec 1 :=
  Ideal.cmp .oeq (xn 4) (lit 0x00000000#32) &&& Ideal.cmp .oge (cs 17) (lit 0x40400000#32)

/-- The keep bit: neither dead nor consumed. -/
def nKeep : BitVec 1 := ~~~(nDead xn cs ||| nConsumed xn cs)

/-- The absolute value as the programs spell it. -/
abbrev absE (v : EReal) : EReal := max v (-v)

/-- One border term: log(|p| + 1e-6) where |p| > 1, else 0. -/
def nBorder (a : Fin 2) : EReal :=
  Ideal.log (absE (nPos xn cs Wo b2 a) + lit 0x358637BD#32)
    * bitR (Ideal.cmp .ogt (absE (nPos xn cs Wo b2 a)) (lit 0x3F800000#32))

/-- The node's new row of ten: position, noisy velocity, the flag, two readout channels, three hidden channels kept. -/
def nNew (col : Fin 10) : EReal :=
  match col with
  | ⟨0, _⟩ => nPos xn cs Wo b2 0
  | ⟨1, _⟩ => nPos xn cs Wo b2 1
  | ⟨2, _⟩ => nNoisy xn cs nzr Wo b2 0
  | ⟨3, _⟩ => nNoisy xn cs nzr Wo b2 1
  | ⟨4, _⟩ => xn 4
  | ⟨5, _⟩ => nHid xn cs Wo b2 2
  | ⟨6, _⟩ => nHid xn cs Wo b2 3
  | ⟨k + 7, h⟩ => xn ⟨k + 7, h⟩

end Node

/-! ## The graph -/

/-- The arguments: the node table, the edges' decoded end points, the noise, and the five weight arrays. -/
structure In where
  x : FVec Ideal ⟨2, ![50000, 10]⟩ .f32
  s : Fin 3200000 → Fin 50000
  d : Fin 3200000 → Fin 50000
  nz : FVec Ideal ⟨2, ![50000, 2]⟩ .f32
  We : FVec Ideal ⟨2, ![4, 16]⟩ .f32
  Ws : FVec Ideal ⟨2, ![10, 16]⟩ .f32
  b1 : FVec Ideal ⟨1, ![16]⟩ .f32
  Wo : FVec Ideal ⟨2, ![16, 4]⟩ .f32
  b2 : FVec Ideal ⟨1, ![4]⟩ .f32

variable (I : In)

/-- Node n's ten channels. -/
def xrow (n : Fin 50000) : Fin 10 → EReal := fun k => I.x (ix2 n k)

/-- Node n's two noise values. -/
def nzrow (n : Fin 50000) : Fin 2 → EReal := fun a => I.nz (ix2 n a)

/-- The position of edge e's destination. -/
def prow (e : Fin 3200000) : Fin 2 → EReal := fun a => I.x (ix2 (I.d e) (Fin.castLE (by decide) a))

/-- Column col of edge e's row. -/
def erow (e : Fin 3200000) (col : Fin 18) : EReal :=
  eRow (xrow I (I.s e)) (prow I e) (I.x (ix2 (I.d e) 4)) I.We I.Ws I.b1 col

/-- The edges that end at node n. -/
def into (n : Fin 50000) : Finset (Fin 3200000) := Finset.univ.filter fun e => I.d e = n

/-- Node n's eighteen column sums over the edges ending at it. -/
def csrow (n : Fin 50000) : Fin 18 → EReal := fun col => ∑ e ∈ into I n, erow I e col

/-- The new velocity of node n. -/
def vel (n : Fin 50000) (a : Fin 2) : EReal := nVel (xrow I n) (csrow I n) I.Wo I.b2 a

/-- The length of edge e. -/
def dist (e : Fin 3200000) : EReal := eDist (xrow I (I.s e)) (prow I e)

/-- The food-source bit of edge e. -/
def food (e : Fin 3200000) : BitVec 1 := eFood (xrow I (I.s e))

/-! ## The eight results -/

/-- Result 0, the new node table. -/
def newX : FVec Ideal ⟨2, ![50000, 10]⟩ .f32 := fun i =>
  nNew (xrow I (i 0)) (csrow I (i 0)) (nzrow I (i 0)) I.Wo I.b2 (i 1)

/-- Result 1, the keep bit per node. -/
def keep : IVec ⟨1, ![50000]⟩ 1 := fun i => nKeep (xrow I (i 0)) (csrow I (i 0))

/-- Result 2, the mean absolute new velocity per axis. -/
def velBonus : FVec Ideal ⟨1, ![2]⟩ .f32 := fun i =>
  Ideal.div (∑ n : Fin 50000, absE (vel I n (i 0))) (lit 0x47435000#32)

/-- Result 3, the border cost. -/
def borderCost : FVec Ideal ⟨0, ![]⟩ .f32 := fun _ =>
  ∑ n : Fin 50000, ∑ a : Fin 2, nBorder (xrow I n) (csrow I n) I.Wo I.b2 a

/-- Result 4, the number of consumed nodes. -/
def foodReward : IVec ⟨0, ![]⟩ 32 := fun _ => countBV fun n => nConsumed (xrow I n) (csrow I n)

/-- Result 5, the number of dead nodes. -/
def deadCost : IVec ⟨0, ![]⟩ 32 := fun _ => countBV fun n => nDead (xrow I n) (csrow I n)

/-- Result 6, the number of food-source edges. -/
def visibleFood : IVec ⟨0, ![]⟩ 32 := fun _ => countBV (food I)

/-- Result 7, the summed length of the food-source edges. -/
def foodDist : FVec Ideal ⟨0, ![]⟩ .f32 := fun _ => ∑ e : Fin 3200000, dist I e * bitR (food I e)

end Cert.Spec

end
-- ==== Proof.Decode.lean ====
/-
  The edge end points as node numbers.  An index array is a vector of 3200000 signed 32-bit words; when every word,
  read signed, lies in [0, 50000), word e IS a node number, and the graph's arguments are the nine arrays with the two
  index arrays read that way.
-/
import proofs.«426050_j60911226191976_3_alg».proof.Proof.Spec

noncomputable section

namespace Cert.Spec

open Idealize.ShloMosaic Idealize.ShloMosaic.ValueIdx

/-- Every word of the index array, read signed, is a node number. -/
def InR (v : IVec ⟨1, ![3200000]⟩ 32) : Prop :=
  ∀ e : Fin 3200000, 0 ≤ (v (ix1 e)).toInt ∧ (v (ix1 e)).toInt < 50000

/-- Word e of an in-range index array as a node number. -/
def dec (v : IVec ⟨1, ![3200000]⟩ 32) (h : InR v) (e : Fin 3200000) : Fin 50000 :=
  ⟨(v (ix1 e)).toInt.toNat, by have := h e; omega⟩

theorem dec_val (v : IVec ⟨1, ![3200000]⟩ 32) (h : InR v) (e : Fin 3200000) :
    ((dec v h e).val : ℤ) = (v (ix1 e)).toInt := by
  have := h e
  show ((v (ix1 e)).toInt.toNat : ℤ) = _
  omega

/-- The graph's arguments from the nine argument arrays, the two index arrays in range. -/
def inOf (x : FVec Ideal ⟨2, ![50000, 10]⟩ .f32) (src dst : IVec ⟨1, ![3200000]⟩ 32) (hs : InR src) (hd : InR dst)
    (nz : FVec Ideal ⟨2, ![50000, 2]⟩ .f32) (We : FVec Ideal ⟨2, ![4, 16]⟩ .f32) (Ws : FVec Ideal ⟨2, ![10, 16]⟩ .f32)
    (b1 : FVec Ideal ⟨1, ![16]⟩ .f32) (Wo : FVec Ideal ⟨2, ![16, 4]⟩ .f32) (b2 : FVec Ideal ⟨1, ![4]⟩ .f32) : In :=
  ⟨x, dec src hs, dec dst hd, nz, We, Ws, b1, Wo, b2⟩

end Cert.Spec

end
-- ==== Proof.Bridge.lean ====
/-
  Six facts of plain arithmetic that join the two programs' ways of adding things up.  A sum over all edges is the
  sum over the hundred blocks of the sums over a block's 32000 edges, likewise for nodes in ten blocks of 5000, and so
  in particular for a count of set bits among the edges.  A truth bit read as a number is 0 or 1, so a sum of fewer
  than 2^31 of them is a natural number: rounding it to an integer and converting it to a 32-bit word gives the word
  that counts the set bits.  A bit read as a number exceeds one half exactly when the bit is set.  And a bit widened to
  32 bits and read as a signed integer is the same number 0 or 1.
-/
import proofs.«426050_j60911226191976_3_alg».proof.Proof.Spec
import Mathlib.Algebra.BigOperators.Fin
import Mathlib.Data.Fintype.BigOperators
import Mathlib.Logic.Equiv.Fin.Basic

noncomputable section

open scoped BigOperators

namespace Cert.Spec

open Idealize.ShloMosaic

/-- A sum over the edges, block by block: the pair (block t, place q) is edge 32000 t + q, and every edge is
    exactly one such pair. -/
theorem sum_edges_blocks (f : Fin 3200000 → EReal) : ∑ e, f e = ∑ t : Fin 100, ∑ q : Fin 32000, f (eIx t q) := by
  rw [← Fintype.sum_prod_type' (f := fun t q => f (eIx t q))]
  refine (Fintype.sum_equiv (finProdFinEquiv (m := 100) (n := 32000)) _ _ (fun x => ?_)).symm
  congr 1
  ext
  simp [eIx, finProdFinEquiv]
  omega

/-- A sum over the nodes, block by block: the pair (block t, place q) is node 5000 t + q. -/
theorem sum_nodes_blocks (f : Fin 50000 → EReal) : ∑ n, f n = ∑ t : Fin 10, ∑ q : Fin 5000, f (nIx t q) := by
  rw [← Fintype.sum_prod_type' (f := fun t q => f (nIx t q))]
  refine (Fintype.sum_equiv (finProdFinEquiv (m := 10) (n := 5000)) _ _ (fun x => ?_)).symm
  congr 1
  ext
  simp [nIx, finProdFinEquiv]
  omega

/-- The count of set bits among the edges, block by block. -/
theorem countBV_edges_blocks (p : Fin 3200000 → BitVec 1) :
    (∑ e, bitR (p e)) = ∑ t : Fin 100, ∑ q : Fin 32000, bitR (p (eIx t q)) := sum_edges_blocks _

/-- A bit widened to 32 bits is the 32-bit word of the bit's value. -/
private theorem bit_setWidth (b : BitVec 1) : b.setWidth 32 = ((b.toNat : ℕ) : BitVec 32) := by
  revert b; decide

/-- A finite sum of real numbers, taken in the extended reals, is the real sum. -/
private theorem ecoe_sum {n : ℕ} (g : Fin n → ℝ) : (∑ i, ((g i : ℝ) : EReal)) = ((∑ i, g i : ℝ) : EReal) := by
  induction (Finset.univ : Finset (Fin n)) using Finset.induction_on with
  | empty => simp
  | insert a s ha ih => rw [Finset.sum_insert ha, Finset.sum_insert ha, ih, EReal.coe_add]

/-- A natural number is its own nearest integer: its fractional part is 0, below one half. -/
private theorem roundHalfEven_nat (k : ℕ) : Ideal.roundHalfEven (k : ℝ) = (k : ℤ) := by
  unfold Ideal.roundHalfEven
  simp

/-- A natural number below 2^31 lies inside the signed 32-bit range, so clamping leaves it alone. -/
private theorem clamp_nat (k : ℕ) (hk : k < 2 ^ 31) :
    max (-((2 ^ (32 - 1) : ℕ) : ℤ)) (min (((2 ^ (32 - 1) : ℕ) : ℤ) - 1)
      (if (0 : ℝ) ≤ ((k : ℤ) : ℝ) then ⌊((k : ℤ) : ℝ)⌋ else ⌈((k : ℤ) : ℝ)⌉)) = (k : ℤ) := by
  rw [if_pos (by positivity), Int.floor_intCast]
  norm_num
  omega

/-- Fewer than 2^31 bits summed as numbers, rounded to an integer and converted to a word, count the set bits.
    The sum of the bits as numbers is the natural number k = the number of set bits, at most n; rounding and
    clamping leave k alone; and the word of a sum of naturals is the sum of their words. -/
theorem count_eq {n : ℕ} (p : Fin n → BitVec 1) (hn : n < 2 ^ 31) :
    Ideal.fptosi 32 (Ideal.liftRound Ideal.roundHalfEven (∑ i, bitR (p i))) = countBV p := by
  have hle : (∑ i, (p i).toNat) ≤ n := by
    calc (∑ i, (p i).toNat) ≤ ∑ _i : Fin n, 1 := Finset.sum_le_sum (fun i _ => by have := (p i).isLt; omega)
      _ = n := by simp
  have h1 : (∑ i, bitR (p i)) = (((∑ i, (p i).toNat : ℕ) : ℝ) : EReal) := by
    rw [Nat.cast_sum, ← ecoe_sum]
  rw [h1, Ideal.liftRound_coe, roundHalfEven_nat, Ideal.fptosi, Ideal.toIntClamped_coe,
    clamp_nat _ (lt_of_le_of_lt hle hn), BitVec.ofInt_natCast, ← BitVec.natCast_eq_ofNat, Nat.cast_sum]
  simp only [countBV, bit_setWidth]

/-- The float word 0x3F000000 is one half: sign 0, exponent field 126, fraction 0, so 2^23 · 2^(126 - 127 - 23). -/
private theorem lit_half : lit 0x3F000000#32 = ((1 / 2 : ℝ) : EReal) := by
  simp [lit, Ideal.ofBits, Ideal.ieee]
  rw [← EReal.coe_mul]
  norm_num

/-- A bit read as a number exceeds one half exactly when it is set: 0 does not, 1 does. -/
theorem cmp_ogt_half (b : BitVec 1) : Ideal.cmp .ogt (bitR b) (lit 0x3F000000#32) = b := by
  have hb : b = 0#1 ∨ b = 1#1 := by
    revert b; decide
  have h0 : ¬ (((1 / 2 : ℝ) : EReal) < ((((0#1 : BitVec 1).toNat : ℕ) : ℝ) : EReal)) := by
    rw [EReal.coe_lt_coe_iff]; norm_num
  have h1 : (((1 / 2 : ℝ) : EReal) < ((((1#1 : BitVec 1).toNat : ℕ) : ℝ) : EReal)) := by
    rw [EReal.coe_lt_coe_iff]; norm_num
  rw [lit_half]
  rcases hb with rfl | rfl
  · show BitVec.ofBool (decide _) = _
    rw [decide_eq_false h0]; rfl
  · show BitVec.ofBool (decide _) = _
    rw [decide_eq_true h1]; rfl

/-- A bit widened to 32 bits and read signed is the bit as a number. -/
theorem sitofp_extui (b : BitVec 1) : (((b.setWidth 32).toInt : ℝ) : EReal) = bitR b := by
  have hb : b = 0#1 ∨ b = 1#1 := by
    revert b; decide
  rcases hb with rfl | rfl
  · simp [bitR]
  · simp [bitR]

end Cert.Spec

end
-- ==== Proof.EdgeBody.lean ====
/-
  The edge kernel's values, one edge at a time.  A block holds 32000 edges as the COLUMNS of its tables: column q of
  the [10, 32000] source block is edge q's source row, column q of the [2, 32000] block its destination position, entry
  q of the [1, 32000] block its destination flag.  Read at edge q, the kernel's message tile is the edge's message, its
  bit column the edge's consumption bit as a number, its constant column the word one; and the two statistics the
  kernel leaves at the head of its [1, 8, 128] tile are the block's count of food-source edges and their summed length.
-/
import proofs.«426050_j60911226191976_3_alg».proof.Proof.Gen.KernelIdeal.Frame
import proofs.«426050_j60911226191976_3_alg».proof.Proof.Spec
import proofs.«426050_j60911226191976_3_alg».proof.Proof.Bridge
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.EdgeB

open Cert.KernelIdeal Cert.KernelIdeal.Gen Idealize.ShloMosaic Idealize.ShloMosaic.ValueIdx

variable (x0 : Vec Ideal S10x32000 .f32) (x1 : Vec Ideal S2x32000 .f32) (x2 : Vec Ideal S1x32000 .f32)
  (w3 : Vec Ideal S4x16 .f32) (w4 : Vec Ideal S10x16 .f32) (w5 : Vec Ideal S16 .f32)

/-- Column q of the source block: edge q's source row. -/
abbrev sr (q : Fin 32000) : Fin 10 → EReal := fun k => x0 (ix2 k q)

/-- Column q of the destination-position block: edge q's destination position. -/
abbrev dr (q : Fin 32000) : Fin 2 → EReal := fun a => x1 (ix2 a q)

/-- The source block passes through an identity cast. -/
theorem pay3_eq : k0_pay3 (F := Ideal) x0 = x0 := by
  unfold k0_pay3
  exact shapeCast_self _ _

/-- The offset rows: rows 0 and 1 of the source block less the destination positions. -/
theorem pay4_apply (a : Fin 2) (q : Fin 32000) :
    k0_pay4 (F := Ideal) x0 x1 (ix2 a q) = Spec.eDlt (sr x0 q) (dr x1 q) a := by
  unfold k0_pay4
  rw [pay3_eq]
  show FloatOps.subf _ _ = _
  rw [Ideal.subf_def, shapeCast_self]
  refine congrArg (· - x1 (ix2 a q)) ?_
  exact slice2_axis0_apply 0 x0 _ a q (Fin.castLE (by decide) a) (Nat.zero_add _).symm

/-- The flag row: row 4 of the source block. -/
theorem pay6_apply (u : Fin 1) (q : Fin 32000) : k0_pay6 (F := Ideal) x0 (ix2 u q) = x0 (ix2 4 q) := by
  unfold k0_pay6
  rw [pay3_eq]
  exact slice2_axis0_apply 4 x0 _ u q 4 (by have := u.isLt; show (4 : ℕ) = 4 + u.val; omega)

/-- A sum over the two rows of a [2, 32000] table, column by column. -/
theorem sum_rows2 (v : FVec Ideal S2x32000 .f32) (hacc : (0x00000000#32 : BitVec 32) = 0x00000000#32) (q : Fin 32000) :
    multiReduction (F := Ideal) .add [0] S32000 v 0x00000000#32 reduces_S2x32000_S32000 (.inl rfl) hacc (ix1 q)
      = ∑ a : Fin 2, v (ix2 a q) := by
  refine (Ideal.multiReduction_add_single v 0x00000000#32 reduces_S2x32000_S32000 (.inl rfl) hacc (ix1 q)).trans ?_
  refine Finset.sum_congr rfl fun a _ => congrArg v ?_
  funext c
  match c with
  | ⟨0, _⟩ => rfl
  | ⟨1, _⟩ => rfl

/-- The length row: the root of the squared offsets' sum plus the small constant. -/
theorem pay5_apply (u : Fin 1) (q : Fin 32000) :
    k0_pay5 (F := Ideal) x0 x1 (ix2 u q) = Spec.eDist (sr x0 q) (dr x1 q) := by
  unfold k0_pay5
  show FloatOps.sqrt (FloatOps.addf _ _) = _
  rw [Ideal.sqrt_def, Ideal.addf_def, shapeCast_a_1a_apply, sum_rows2]
  unfold Spec.eDist
  refine congrArg Ideal.sqrt (congrArg₂ (· + ·) (Finset.sum_congr rfl fun a _ => ?_) rfl)
  show FloatOps.mulf _ _ = _
  rw [Ideal.mulf_def, pay4_apply]

/-- A truth bit widened and converted to a float is the bit as a number, entry by entry. -/
theorem bit_apply {s : Shape} (v : IVec s 1) (h : 1 < 32) (i : s.Idx) :
    (sitofp .f32 (extui 32 v h) : FVec Ideal s .f32) i = Spec.bitR (v i) := Spec.sitofp_extui (v i)

/-- A conjunction of bit vectors, entry by entry. -/
theorem andi_apply {s : Shape} {w : Nat} (a b : IVec s w) (i : s.Idx) : andi a b i = a i &&& b i := rfl

/-- A comparison of ideal values, entry by entry. -/
theorem cmp_apply {s : Shape} (p : CmpFPredicate) (a b : FVec Ideal s .f32) (i : s.Idx) :
    cmpf p a b i = Ideal.cmp p (a i) (b i) := rfl

/-- A splat of a float word reads the word's value everywhere. -/
theorem splat_apply {s : Shape} (b : BitVec 32) (i : s.Idx) :
    broadcast s (Scalar.ofBits (F := Ideal) .f32 b) i = Spec.lit b := rfl

/-- The bit column at edge q is the edge's consumption bit as a number. -/
theorem pay8_apply (q : Fin 32000) :
    k0_pay8 (F := Ideal) x0 x1 x2 (ix2 q 0) = Spec.bitR (Spec.eCons (sr x0 q) (dr x1 q) (x2 (ix2 0 q))) := by
  unfold k0_pay8
  rw [transpose_ix2_apply, bit_apply]
  refine congrArg Spec.bitR ?_
  rw [andi_apply, andi_apply, cmp_apply, cmp_apply, cmp_apply, splat_apply, splat_apply, splat_apply,
    pay5_apply, pay6_apply, shapeCast_self]
  rfl

/-- The constant column is the word one. -/
theorem pay1_apply (q : Fin 32000) : k0_pay1 (F := Ideal) (ix2 q 0) = Spec.lit 0x3F800000#32 := rfl

/-! ## The two contractions

  Both contract the FIRST axis of both operands: the left operand is read at (k, q), the right at (k, j). -/

theorem lhs4_0 (i : S32000x16.Idx) (k : dot_S4x32000_S4x16_S32000x16_0_0_1_1_n_n.contr.Idx) :
    (dot_S4x32000_S4x16_S32000x16_0_0_1_1_n_n.lhsIdx i k 0).val = (k ⟨0, by decide⟩).val :=
  dot_S4x32000_S4x16_S32000x16_0_0_1_1_n_n.lhsIdx_val_of_single rfl i k
theorem lhs4_1 (i : S32000x16.Idx) (k : dot_S4x32000_S4x16_S32000x16_0_0_1_1_n_n.contr.Idx) :
    (dot_S4x32000_S4x16_S32000x16_0_0_1_1_n_n.lhsIdx i k 1).val = (i 0).val := by
  unfold DotDims.lhsIdx
  rw [dif_neg (show ¬(1 : Fin S4x32000.rank) ∈ dot_S4x32000_S4x16_S32000x16_0_0_1_1_n_n.lhsBatch by decide), dif_pos (show (1 : Fin S4x32000.rank) ∈ dot_S4x32000_S4x16_S32000x16_0_0_1_1_n_n.lhsNonContracting by decide)]
  rfl
theorem rhs4_0 (i : S32000x16.Idx) (k : dot_S4x32000_S4x16_S32000x16_0_0_1_1_n_n.contr.Idx) :
    (dot_S4x32000_S4x16_S32000x16_0_0_1_1_n_n.rhsIdx i k 0).val = (k ⟨0, by decide⟩).val :=
  dot_S4x32000_S4x16_S32000x16_0_0_1_1_n_n.rhsIdx_val_of_single rfl i k
theorem rhs4_1 (i : S32000x16.Idx) (k : dot_S4x32000_S4x16_S32000x16_0_0_1_1_n_n.contr.Idx) :
    (dot_S4x32000_S4x16_S32000x16_0_0_1_1_n_n.rhsIdx i k 1).val = (i 1).val := by
  unfold DotDims.rhsIdx
  rw [dif_neg (show ¬(1 : Fin S4x16.rank) ∈ dot_S4x32000_S4x16_S32000x16_0_0_1_1_n_n.rhsBatch by decide), dif_pos (show (1 : Fin S4x16.rank) ∈ dot_S4x32000_S4x16_S32000x16_0_0_1_1_n_n.rhsNonContracting by decide)]
  rfl

/-- The attribute contraction at (q, j): the sum over the four attribute rows. -/
theorem mm4_apply (L : FVec Ideal S4x32000 .f32) (W : FVec Ideal S4x16 .f32) (q : Fin 32000) (j : Fin 16) :
    matmul dot_S4x32000_S4x16_S32000x16_0_0_1_1_n_n none L W (constant S32000x16 .f32 0x00000000#32) (ix2 q j)
      = ∑ k : Fin 4, L (ix2 k q) * W (ix2 k j) := by
  refine (Ideal.matmul_constant_zero_apply dot_S4x32000_S4x16_S32000x16_0_0_1_1_n_n none L W (ix2 q j)).trans ?_
  rw [← Equiv.sum_comp (contrEquiv1 dot_S4x32000_S4x16_S32000x16_0_0_1_1_n_n 4 rfl rfl).symm]
  refine Finset.sum_congr rfl fun k _ => ?_
  have hk := contrEquiv1_symm_val dot_S4x32000_S4x16_S32000x16_0_0_1_1_n_n 4 rfl rfl k
  have el : dot_S4x32000_S4x16_S32000x16_0_0_1_1_n_n.lhsIdx (ix2 q j) ((contrEquiv1 dot_S4x32000_S4x16_S32000x16_0_0_1_1_n_n 4 rfl rfl).symm k) = ix2 k q := funext fun a => Fin.ext (by
    match a with
    | ⟨0, _⟩ => exact (lhs4_0 _ _).trans hk
    | ⟨1, _⟩ => exact lhs4_1 _ _)
  have er : dot_S4x32000_S4x16_S32000x16_0_0_1_1_n_n.rhsIdx (ix2 q j) ((contrEquiv1 dot_S4x32000_S4x16_S32000x16_0_0_1_1_n_n 4 rfl rfl).symm k) = ix2 k j := funext fun a => Fin.ext (by
    match a with
    | ⟨0, _⟩ => exact (rhs4_0 _ _).trans hk
    | ⟨1, _⟩ => exact rhs4_1 _ _)
  rw [el, er]

theorem lhs10_0 (i : S32000x16.Idx) (k : dot_S10x32000_S10x16_S32000x16_0_0_1_1_n_n.contr.Idx) :
    (dot_S10x32000_S10x16_S32000x16_0_0_1_1_n_n.lhsIdx i k 0).val = (k ⟨0, by decide⟩).val :=
  dot_S10x32000_S10x16_S32000x16_0_0_1_1_n_n.lhsIdx_val_of_single rfl i k
theorem lhs10_1 (i : S32000x16.Idx) (k : dot_S10x32000_S10x16_S32000x16_0_0_1_1_n_n.contr.Idx) :
    (dot_S10x32000_S10x16_S32000x16_0_0_1_1_n_n.lhsIdx i k 1).val = (i 0).val := by
  unfold DotDims.lhsIdx
  rw [dif_neg (show ¬(1 : Fin S10x32000.rank) ∈ dot_S10x32000_S10x16_S32000x16_0_0_1_1_n_n.lhsBatch by decide), dif_pos (show (1 : Fin S10x32000.rank) ∈ dot_S10x32000_S10x16_S32000x16_0_0_1_1_n_n.lhsNonContracting by decide)]
  rfl
theorem rhs10_0 (i : S32000x16.Idx) (k : dot_S10x32000_S10x16_S32000x16_0_0_1_1_n_n.contr.Idx) :
    (dot_S10x32000_S10x16_S32000x16_0_0_1_1_n_n.rhsIdx i k 0).val = (k ⟨0, by decide⟩).val :=
  dot_S10x32000_S10x16_S32000x16_0_0_1_1_n_n.rhsIdx_val_of_single rfl i k
theorem rhs10_1 (i : S32000x16.Idx) (k : dot_S10x32000_S10x16_S32000x16_0_0_1_1_n_n.contr.Idx) :
    (dot_S10x32000_S10x16_S32000x16_0_0_1_1_n_n.rhsIdx i k 1).val = (i 1).val := by
  unfold DotDims.rhsIdx
  rw [dif_neg (show ¬(1 : Fin S10x16.rank) ∈ dot_S10x32000_S10x16_S32000x16_0_0_1_1_n_n.rhsBatch by decide), dif_pos (show (1 : Fin S10x16.rank) ∈ dot_S10x32000_S10x16_S32000x16_0_0_1_1_n_n.rhsNonContracting by decide)]
  rfl

/-- The source-row contraction at (q, j): the sum over the ten channels. -/
theorem mm10_apply (L : FVec Ideal S10x32000 .f32) (W : FVec Ideal S10x16 .f32) (q : Fin 32000) (j : Fin 16) :
    matmul dot_S10x32000_S10x16_S32000x16_0_0_1_1_n_n none L W (constant S32000x16 .f32 0x00000000#32) (ix2 q j)
      = ∑ k : Fin 10, L (ix2 k q) * W (ix2 k j) := by
  refine (Ideal.matmul_constant_zero_apply dot_S10x32000_S10x16_S32000x16_0_0_1_1_n_n none L W (ix2 q j)).trans ?_
  rw [← Equiv.sum_comp (contrEquiv1 dot_S10x32000_S10x16_S32000x16_0_0_1_1_n_n 10 rfl rfl).symm]
  refine Finset.sum_congr rfl fun k _ => ?_
  have hk := contrEquiv1_symm_val dot_S10x32000_S10x16_S32000x16_0_0_1_1_n_n 10 rfl rfl k
  have el : dot_S10x32000_S10x16_S32000x16_0_0_1_1_n_n.lhsIdx (ix2 q j) ((contrEquiv1 dot_S10x32000_S10x16_S32000x16_0_0_1_1_n_n 10 rfl rfl).symm k) = ix2 k q := funext fun a => Fin.ext (by
    match a with
    | ⟨0, _⟩ => exact (lhs10_0 _ _).trans hk
    | ⟨1, _⟩ => exact lhs10_1 _ _)
  have er : dot_S10x32000_S10x16_S32000x16_0_0_1_1_n_n.rhsIdx (ix2 q j) ((contrEquiv1 dot_S10x32000_S10x16_S32000x16_0_0_1_1_n_n 10 rfl rfl).symm k) = ix2 k j := funext fun a => Fin.ext (by
    match a with
    | ⟨0, _⟩ => exact (rhs10_0 _ _).trans hk
    | ⟨1, _⟩ => exact rhs10_1 _ _)
  rw [el, er]

/-! ## The attribute table: length row, two offset rows, flag row, stacked -/

theorem cat4_0 (A : FVec Ideal S1x32000 .f32) (B : FVec Ideal S2x32000 .f32) (C : FVec Ideal S1x32000 .f32) (q : Fin 32000) :
    concatenate S4x32000 0 [⟨S1x32000, A⟩, ⟨S2x32000, B⟩, ⟨S1x32000, C⟩] concatenates_S1x32000_S2x32000_S1x32000_S4x32000_d0 (ix2 0 q)
      = A (ix2 0 q) :=
  concatenate_apply_piece (t := S4x32000) 0 [⟨S1x32000, A⟩, ⟨S2x32000, B⟩, ⟨S1x32000, C⟩] concatenates_S1x32000_S2x32000_S1x32000_S4x32000_d0 (ix2 0 q) 0 (by simp) S1x32000 A rfl rfl 0 rfl (ix2 0 q)
    (fun b hb => by match b with | ⟨0, _⟩ => exact absurd rfl hb | ⟨1, _⟩ => rfl) rfl

theorem cat4_1 (A : FVec Ideal S1x32000 .f32) (B : FVec Ideal S2x32000 .f32) (C : FVec Ideal S1x32000 .f32) (q : Fin 32000) :
    concatenate S4x32000 0 [⟨S1x32000, A⟩, ⟨S2x32000, B⟩, ⟨S1x32000, C⟩] concatenates_S1x32000_S2x32000_S1x32000_S4x32000_d0 (ix2 1 q)
      = B (ix2 0 q) :=
  concatenate_apply_piece (t := S4x32000) 0 [⟨S1x32000, A⟩, ⟨S2x32000, B⟩, ⟨S1x32000, C⟩] concatenates_S1x32000_S2x32000_S1x32000_S4x32000_d0 (ix2 1 q) 1 (by simp) S2x32000 B rfl rfl 1 rfl (ix2 0 q)
    (fun b hb => by match b with | ⟨0, _⟩ => exact absurd rfl hb | ⟨1, _⟩ => rfl) rfl

theorem cat4_2 (A : FVec Ideal S1x32000 .f32) (B : FVec Ideal S2x32000 .f32) (C : FVec Ideal S1x32000 .f32) (q : Fin 32000) :
    concatenate S4x32000 0 [⟨S1x32000, A⟩, ⟨S2x32000, B⟩, ⟨S1x32000, C⟩] concatenates_S1x32000_S2x32000_S1x32000_S4x32000_d0 (ix2 2 q)
      = B (ix2 1 q) :=
  concatenate_apply_piece (t := S4x32000) 0 [⟨S1x32000, A⟩, ⟨S2x32000, B⟩, ⟨S1x32000, C⟩] concatenates_S1x32000_S2x32000_S1x32000_S4x32000_d0 (ix2 2 q) 1 (by simp) S2x32000 B rfl rfl 1 rfl (ix2 1 q)
    (fun b hb => by match b with | ⟨0, _⟩ => exact absurd rfl hb | ⟨1, _⟩ => rfl) rfl

theorem cat4_3 (A : FVec Ideal S1x32000 .f32) (B : FVec Ideal S2x32000 .f32) (C : FVec Ideal S1x32000 .f32) (q : Fin 32000) :
    concatenate S4x32000 0 [⟨S1x32000, A⟩, ⟨S2x32000, B⟩, ⟨S1x32000, C⟩] concatenates_S1x32000_S2x32000_S1x32000_S4x32000_d0 (ix2 3 q)
      = C (ix2 0 q) :=
  concatenate_apply_piece (t := S4x32000) 0 [⟨S1x32000, A⟩, ⟨S2x32000, B⟩, ⟨S1x32000, C⟩] concatenates_S1x32000_S2x32000_S1x32000_S4x32000_d0 (ix2 3 q) 2 (by simp) S1x32000 C rfl rfl 3 rfl (ix2 0 q)
    (fun b hb => by match b with | ⟨0, _⟩ => exact absurd rfl hb | ⟨1, _⟩ => rfl) rfl

/-- Row k of the attribute table at edge q is the edge's attribute k. -/
theorem attr_apply (k : Fin 4) (q : Fin 32000) :
    concatenate S4x32000 0 [⟨S1x32000, k0_pay5 (F := Ideal) x0 x1⟩, ⟨S2x32000, k0_pay4 (F := Ideal) x0 x1⟩, ⟨S1x32000, k0_pay6 (F := Ideal) x0⟩]
        concatenates_S1x32000_S2x32000_S1x32000_S4x32000_d0 (ix2 k q)
      = Spec.eAttr (sr x0 q) (dr x1 q) k := by
  match k with
  | ⟨0, _⟩ => exact (cat4_0 _ _ _ q).trans (pay5_apply x0 x1 0 q)
  | ⟨1, _⟩ => exact (cat4_1 _ _ _ q).trans (pay4_apply x0 x1 0 q)
  | ⟨2, _⟩ => exact (cat4_2 _ _ _ q).trans (pay4_apply x0 x1 1 q)
  | ⟨3, _⟩ => exact (cat4_3 _ _ _ q).trans (pay6_apply x0 0 q)
  | ⟨n + 4, h⟩ => exact absurd h (by omega)

/-- The message tile at edge q, channel j, is the edge's message. -/
theorem pay7_apply (q : Fin 32000) (j : Fin 16) :
    k0_pay7 (F := Ideal) x0 x1 w3 w4 w5 (ix2 q j) = Spec.eMsg (sr x0 q) (dr x1 q) w3 w4 w5 j := by
  unfold k0_pay7
  rw [maximumf_apply, addf_apply, addf_apply, mm4_apply, mm10_apply, broadcastTo_1b_ab_apply, shapeCast_a_1a_apply,
    splat_apply, pay3_eq]
  unfold Spec.eMsg
  refine congrArg₂ max (congrArg₂ (· + ·) (congrArg₂ (· + ·) (Finset.sum_congr rfl fun k _ => ?_) rfl) rfl) rfl
  rw [attr_apply]

/-! ## The statistics tile: two sums at its head, zeros elsewhere -/

/-- A sum along the one row of a [1, 32000] table. -/
theorem sum_cols (v : FVec Ideal S1x32000 .f32) (hacc : (0x00000000#32 : BitVec 32) = 0x00000000#32) :
    multiReduction (F := Ideal) .add [1] S1 v 0x00000000#32 reduces_S1x32000_S1 (.inl rfl) hacc (ix1 0)
      = ∑ q : Fin 32000, v (ix2 0 q) := by
  refine (Ideal.multiReduction_add_single v 0x00000000#32 reduces_S1x32000_S1 (.inl rfl) hacc (ix1 0)).trans ?_
  refine Finset.sum_congr rfl fun q _ => congrArg v ?_
  funext c
  match c with
  | ⟨0, _⟩ => rfl
  | ⟨1, _⟩ => rfl

/-- The [1, 2] pair at its first place is the first number … -/
theorem pair_0 (A B : FVec Ideal S1x1 .f32) :
    concatenate S1x2 1 [⟨S1x1, A⟩, ⟨S1x1, B⟩] concatenates_S1x1_S1x1_S1x2_d1 (ix2 0 0) = A (ix2 0 0) :=
  concatenate_pair_apply_left (t := S1x2) 1 A B concatenates_S1x1_S1x1_S1x2_d1 (ix2 0 0) rfl (ix2 0 0)
    (fun b => by match b with | ⟨0, _⟩ => rfl | ⟨1, _⟩ => rfl)

/-- … and at its second place the second. -/
theorem pair_1 (A B : FVec Ideal S1x1 .f32) :
    concatenate S1x2 1 [⟨S1x1, A⟩, ⟨S1x1, B⟩] concatenates_S1x1_S1x1_S1x2_d1 (ix2 0 1) = B (ix2 0 0) :=
  concatenate_pair_apply_right (t := S1x2) 1 A B concatenates_S1x1_S1x1_S1x2_d1 (ix2 0 1) rfl rfl (ix2 0 0)
    (fun b hb => by match b with | ⟨0, _⟩ => rfl | ⟨1, _⟩ => exact absurd rfl hb) rfl

/-- The pair padded with zeros to a [1, 128] row keeps its two places. -/
theorem row_head (P : FVec Ideal S1x2 .f32) (Z : FVec Ideal S1x126 .f32) (c : Fin 2) :
    concatenate S1x128 1 [⟨S1x2, P⟩, ⟨S1x126, Z⟩] concatenates_S1x2_S1x126_S1x128_d1 (ix2 0 (Fin.castLE (by decide) c))
      = P (ix2 0 c) :=
  concatenate_pair_apply_left (t := S1x128) 1 P Z concatenates_S1x2_S1x126_S1x128_d1 (ix2 0 (Fin.castLE (by decide) c)) rfl (ix2 0 c)
    (fun b => by match b with | ⟨0, _⟩ => rfl | ⟨1, _⟩ => rfl)

/-- The row padded with zero rows to an [8, 128] tile keeps its first row. -/
theorem tile_head (R : FVec Ideal S1x128 .f32) (Z : FVec Ideal S7x128 .f32) (c : Fin 128) :
    concatenate S8x128 0 [⟨S1x128, R⟩, ⟨S7x128, Z⟩] concatenates_S1x128_S7x128_S8x128_d0 (ix2 0 c) = R (ix2 0 c) :=
  concatenate_pair_apply_left (t := S8x128) 0 R Z concatenates_S1x128_S7x128_S8x128_d0 (ix2 0 c) rfl (ix2 0 c)
    (fun b => by match b with | ⟨0, _⟩ => rfl | ⟨1, _⟩ => rfl)

/-- The statistics tile's first entry: the block's count of food-source edges. -/
theorem pay2_food :
    k0_pay2 (F := Ideal) (k0_pay5 x0 x1) (k0_pay6 x0) (ix3 0 0 0) = ∑ q : Fin 32000, Spec.bitR (Spec.eFood (sr x0 q)) := by
  unfold k0_pay2
  rw [shapeCast_ab_1ab_apply, tile_head]
  refine (row_head _ _ 0).trans ?_
  rw [pair_0, shapeCast_a_1a_apply, sum_cols]
  refine Finset.sum_congr rfl fun q _ => ?_
  rw [bit_apply, cmp_apply, splat_apply, pay6_apply]
  rfl

/-- The statistics tile's second entry: the summed length of the block's food-source edges. -/
theorem pay2_dist :
    k0_pay2 (F := Ideal) (k0_pay5 x0 x1) (k0_pay6 x0) (ix3 0 0 1)
      = ∑ q : Fin 32000, Spec.eDist (sr x0 q) (dr x1 q) * Spec.bitR (Spec.eFood (sr x0 q)) := by
  unfold k0_pay2
  rw [shapeCast_ab_1ab_apply, tile_head]
  refine (row_head _ _ 1).trans ?_
  rw [pair_1, shapeCast_a_1a_apply, sum_cols]
  refine Finset.sum_congr rfl fun q _ => ?_
  rw [mulf_apply, bit_apply, cmp_apply, splat_apply, pay6_apply, pay5_apply]
  rfl

end Cert.KernelIdeal.EdgeB

end
-- ==== Proof.EdgeVal.lean ====
/-
  The edge kernel's two output arrays, whatever the six arrays it is entered with.  Edge e lies in block e / 32000 at
  row e % 32000; its row of eighteen depends only on column e of the three gathered arrays and on the weights, so the
  blocks are restrictions of one whole-array function.  Block t of the statistics array holds, at (0, 0) and (0, 1),
  the block's number of food-source edges and their summed length.

  The road.  At a point t the body writes the block of eighteen columns by three stores (sixteen message columns, the
  column of ones, the consumption column) and the statistics tile by one; read back at an entry, the three stores give
  the payload of the one whose rectangle holds the entry.  The input blocks at t are columns 32000 t … of the three
  gathered arrays and the whole weight arrays, so entry (q, col) of what t writes back is entry (32000 t + q, col) of
  one function of the arrays, and tile t of the statistics likewise.  Every row lies in the block of the point its
  number divided by 32000 names, so the arrays end holding those two functions.
-/
import proofs.«426050_j60911226191976_3_alg».proof.Proof.Gen.KernelIdeal.Frame
import proofs.«426050_j60911226191976_3_alg».proof.Proof.Spec
import proofs.«426050_j60911226191976_3_alg».proof.Proof.EdgeBody
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.EdgeV

open Cert.KernelIdeal Cert.KernelIdeal.Gen Idealize.ShloMosaic Idealize.ShloMosaic.TcCoe Idealize.ShloMosaic.ValueIdx Idealize.SL.Sem
open Idealize.ShloMosaic.Tactic

/-! ## The body's stores, for any float values -/

section Stores

variable {F : FTy → Type} [FloatOps F]

/-- Zero offsets, however many axes. -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The three rectangles the body stores through, in the block of eighteen columns. -/
abbrev R17 : Rect S32000x18 := Rect.unit (s := S32000x18) ![0, 17] S32000x1.size inb_S32000x18_S32000x1_0_17
abbrev R16 : Rect S32000x18 := Rect.unit (s := S32000x18) ![0, 16] S32000x1.size inb_S32000x18_S32000x1_0_16
abbrev R0 : Rect S32000x18 := Rect.unit (s := S32000x18) ![0, 0] S32000x16.size inb_S32000x18_S32000x16_0_0

/-- The three stores, last first: the consumption column, the column of ones, the sixteen message columns. -/
abbrev pcs6 (p8 p1 : FVec F S32000x1 .f32) (p7 : FVec F S32000x16 .f32) : List (View.Piece (Elt F) S32000x18 .f32) :=
  [⟨R17, p8⟩, ⟨R16, p1⟩, ⟨R0, p7⟩]

theorem emb17 (q : Fin 32000) : (ix2 q (17 : Fin 18) : S32000x18.Idx) = R17.emb (ix2 q (0 : Fin 1)) :=
  funext fun a => Fin.ext (by
    match a with
    | ⟨0, _⟩ => show q.val = 0 + 1 * q.val; omega
    | ⟨1, _⟩ => rfl)

theorem emb16 (q : Fin 32000) : (ix2 q (16 : Fin 18) : S32000x18.Idx) = R16.emb (ix2 q (0 : Fin 1)) :=
  funext fun a => Fin.ext (by
    match a with
    | ⟨0, _⟩ => show q.val = 0 + 1 * q.val; omega
    | ⟨1, _⟩ => rfl)

theorem emb0 (q : Fin 32000) (j : Fin 16) : (ix2 q (Fin.castLE (by decide) j : Fin 18) : S32000x18.Idx) = R0.emb (ix2 q j) :=
  funext fun a => Fin.ext (by
    match a with
    | ⟨0, _⟩ => show q.val = 0 + 1 * q.val; omega
    | ⟨1, _⟩ => show j.val = 0 + 1 * j.val; omega)

theorem not17 (q : Fin 32000) (col : Fin 18) (h : col.val < 17) : (ix2 q col : S32000x18.Idx) ∉ R17.set := fun hm => by
  have h1 : 17 ≤ col.val ∧ col.val < 17 + 1 := (Rect.mem_set_unit.mp hm) 1
  omega

theorem not16 (q : Fin 32000) (col : Fin 18) (h : col.val < 16) : (ix2 q col : S32000x18.Idx) ∉ R16.set := fun hm => by
  have h1 : 16 ≤ col.val ∧ col.val < 16 + 1 := (Rect.mem_set_unit.mp hm) 1
  omega

/-- The three stores read back at column seventeen: the last store's payload. -/
theorem canon6_cons (p8 p1 : FVec F S32000x1 .f32) (p7 : FVec F S32000x16 .f32) (q : Fin 32000) :
    View.canon (pcs6 p8 p1 p7) (ix2 q (17 : Fin 18)) = p8 (ix2 q (0 : Fin 1)) := by
  rw [emb17 q]
  exact View.canon_cons_emb (Val := Elt F) (s := S32000x18) (e := .f32) R17 p8 [⟨R16, p1⟩, ⟨R0, p7⟩] (ix2 q (0 : Fin 1))

/-- At column sixteen: the second store's payload. -/
theorem canon6_one (p8 p1 : FVec F S32000x1 .f32) (p7 : FVec F S32000x16 .f32) (q : Fin 32000) :
    View.canon (pcs6 p8 p1 p7) (ix2 q (16 : Fin 18)) = p1 (ix2 q (0 : Fin 1)) := by
  refine (View.canon_cons_of_not_mem (Val := Elt F) (s := S32000x18) (e := .f32) ⟨R17, p8⟩ [⟨R16, p1⟩, ⟨R0, p7⟩] (not17 q 16 (by decide))).trans ?_
  rw [emb16 q]
  exact View.canon_cons_emb (Val := Elt F) (s := S32000x18) (e := .f32) R16 p1 [⟨R0, p7⟩] (ix2 q (0 : Fin 1))

/-- At a message column: the first store's payload. -/
theorem canon6_msg (p8 p1 : FVec F S32000x1 .f32) (p7 : FVec F S32000x16 .f32) (q : Fin 32000) (j : Fin 16) :
    View.canon (pcs6 p8 p1 p7) (ix2 q (Fin.castLE (by decide) j : Fin 18)) = p7 (ix2 q j) := by
  have hj : j.val < 16 := j.isLt
  refine (View.canon_cons_of_not_mem (Val := Elt F) (s := S32000x18) (e := .f32) ⟨R17, p8⟩ [⟨R16, p1⟩, ⟨R0, p7⟩] (not17 q _ (by show j.val < 17; omega))).trans ?_
  refine (View.canon_cons_of_not_mem (Val := Elt F) (s := S32000x18) (e := .f32) ⟨R16, p1⟩ [⟨R0, p7⟩] (not16 q _ (by show j.val < 16; omega))).trans ?_
  rw [emb0 q j]
  exact View.canon_cons_emb (Val := Elt F) (s := S32000x18) (e := .f32) R0 p7 [] (ix2 q j)

/-- What the body leaves in the block of eighteen columns: its three stores over the payloads of the input blocks. -/
theorem out6_pieces (c : Dev nD) (i : grid0.Coords) (arg1 : Memref sig .tc .vmem S10x32000 .f32) (harg1 : arg1.IsWhole) (arg2 : Memref sig .tc .vmem S2x32000 .f32) (harg2 : arg2.IsWhole) (arg3 : Memref sig .tc .vmem S1x32000 .f32) (harg3 : arg3.IsWhole) (arg4 : Memref sig .tc .vmem S4x16 .f32) (harg4 : arg4.IsWhole) (arg5 : Memref sig .tc .vmem S10x16 .f32) (harg5 : arg5.IsWhole) (arg6 : Memref sig .tc .vmem S16 .f32) (harg6 : arg6.IsWhole) (arg7 : Memref sig .tc .vmem S32000x18 .f32) (harg7 : arg7.IsWhole) (arg8 : Memref sig .tc .vmem S1x8x128 .f32) (harg8 : arg8.IsWhole)
    (x0 : Vec F S10x32000 .f32) (x1 : Vec F S2x32000 .f32) (x2 : Vec F S1x32000 .f32) (x3 : Vec F S4x16 .f32) (x4 : Vec F S10x16 .f32) (x5 : Vec F S16 .f32) :
    out0_A_6 c i arg1 harg1 arg2 harg2 arg3 harg3 arg4 harg4 arg5 harg5 arg6 harg6 arg7 harg7 arg8 harg8 x0 x1 x2 x3 x4 x5 = View.canon (pcs6 (k0_pay8 x0 x1 x2) (k0_pay1 (F := F)) (k0_pay7 x0 x1 x3 x4 x5)) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread,
    harg6.read_unread, View.ld_unit_zero (S := S10x32000) hz2, View.ld_unit_zero (S := S2x32000) hz2,
    View.ld_unit_zero (S := S1x32000) hz2, View.ld_unit_zero (S := S4x16) hz2, View.ld_unit_zero (S := S10x16) hz2,
    View.ld_unit_zero (S := S16) hz1]

/-- What the body leaves in the statistics tile: one covering store, of the two lane sums over the block's lengths
    and source flags. -/
theorem out7_piece (c : Dev nD) (i : grid0.Coords) (arg1 : Memref sig .tc .vmem S10x32000 .f32) (harg1 : arg1.IsWhole) (arg2 : Memref sig .tc .vmem S2x32000 .f32) (harg2 : arg2.IsWhole) (arg3 : Memref sig .tc .vmem S1x32000 .f32) (harg3 : arg3.IsWhole) (arg4 : Memref sig .tc .vmem S4x16 .f32) (harg4 : arg4.IsWhole) (arg5 : Memref sig .tc .vmem S10x16 .f32) (harg5 : arg5.IsWhole) (arg6 : Memref sig .tc .vmem S16 .f32) (harg6 : arg6.IsWhole) (arg7 : Memref sig .tc .vmem S32000x18 .f32) (harg7 : arg7.IsWhole) (arg8 : Memref sig .tc .vmem S1x8x128 .f32) (harg8 : arg8.IsWhole)
    (x0 : Vec F S10x32000 .f32) (x1 : Vec F S2x32000 .f32) (x2 : Vec F S1x32000 .f32) (x3 : Vec F S4x16 .f32) (x4 : Vec F S10x16 .f32) (x5 : Vec F S16 .f32) :
    out0_A_7 c i arg1 harg1 arg2 harg2 arg3 harg3 arg4 harg4 arg5 harg5 arg6 harg6 arg7 harg7 arg8 harg8 x0 x1 x2 x3 x4 x5 = k0_pay2 (k0_pay5 x0 x1) (k0_pay6 x0) := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz3]
  simp only [View.readAt_eq_ld, harg1.read_unread, harg2.read_unread, View.ld_unit_zero (S := S10x32000) hz2,
    View.ld_unit_zero (S := S2x32000) hz2]

end Stores

/-! ## At the extended reals: blocks, the whole-array functions, the arrays -/

section AtIdeal

variable (V : (c : Dev nD) → (b : Ref sig .tc) → Buf (Elt Ideal) ((c : Thread nD τ).loc b))

/-- The six arrays the region is entered with, at their literal types. -/
abbrev a0 (c : Dev nD) : Vec Ideal S10x3200000 .f32 := V c (Pipeline.arrRef spec0 0)
abbrev a1 (c : Dev nD) : Vec Ideal S2x3200000 .f32 := V c (Pipeline.arrRef spec0 1)
abbrev a2 (c : Dev nD) : Vec Ideal S1x3200000 .f32 := V c (Pipeline.arrRef spec0 2)
abbrev a3 (c : Dev nD) : Vec Ideal S4x16 .f32 := V c (Pipeline.arrRef spec0 3)
abbrev a4 (c : Dev nD) : Vec Ideal S10x16 .f32 := V c (Pipeline.arrRef spec0 4)
abbrev a5 (c : Dev nD) : Vec Ideal S16 .f32 := V c (Pipeline.arrRef spec0 5)

/-- The two arrays the region leaves. -/
abbrev o6 (c : Dev nD) : Vec Ideal S3200000x18 .f32 := (dat0 V c).arrAt 6 cfg0.N
abbrev o7 (c : Dev nD) : Vec Ideal S100x8x128 .f32 := (dat0 V c).arrAt 7 cfg0.N

/-- The source row of edge e: column e of the first gathered array. -/
abbrev srow (c : Dev nD) (e : Fin 3200000) : Fin 10 → EReal := fun k => a0 V c (ix2 k e)
/-- The destination position of edge e: column e of the second gathered array. -/
abbrev drow (c : Dev nD) (e : Fin 3200000) : Fin 2 → EReal := fun a => a1 V c (ix2 a e)

/-- The six input blocks at a point, at their literal types. -/
abbrev b0 (c : Dev nD) (t : Fin cfg0.N) : Vec Ideal S10x32000 .f32 := iblk0 V c 0 t
abbrev b1 (c : Dev nD) (t : Fin cfg0.N) : Vec Ideal S2x32000 .f32 := iblk0 V c 1 t
abbrev b2 (c : Dev nD) (t : Fin cfg0.N) : Vec Ideal S1x32000 .f32 := iblk0 V c 2 t
abbrev b3 (c : Dev nD) (t : Fin cfg0.N) : Vec Ideal S4x16 .f32 := iblk0 V c 3 t
abbrev b4 (c : Dev nD) (t : Fin cfg0.N) : Vec Ideal S10x16 .f32 := iblk0 V c 4 t
abbrev b5 (c : Dev nD) (t : Fin cfg0.N) : Vec Ideal S16 .f32 := iblk0 V c 5 t

/-- Where each window's block sits at a point: the three gathered arrays move along their second axis, the weights
    stay, the two results move along their first. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- Column q of the source block at point t is column 32000 t + q of the first gathered array. -/
theorem b0_apply (c : Dev nD) (t : Fin cfg0.N) (k : Fin 10) (q : Fin 32000) (e : Fin 3200000) (he : e.val = 32000 * t.val + q.val) :
    b0 V c t (ix2 k q) = a0 V c (ix2 k e) := by
  obtain ⟨h0, h1, -⟩ := idx_facts t
  unfold b0 iblk0
  rw [View.read_apply]
  show V c (Pipeline.arrRef spec0 0) _ = V c (Pipeline.arrRef spec0 0) _
  congr 1
  funext a
  apply Fin.ext
  match a with
  | ⟨0, _⟩ => show win0_0.index t (0 : Fin 2) * 10 + 1 * k.val = k.val; rw [h0]; omega
  | ⟨1, _⟩ => show win0_0.index t (1 : Fin 2) * 32000 + 1 * q.val = e.val; rw [h1, he]; omega

theorem b1_apply (c : Dev nD) (t : Fin cfg0.N) (k : Fin 2) (q : Fin 32000) (e : Fin 3200000) (he : e.val = 32000 * t.val + q.val) :
    b1 V c t (ix2 k q) = a1 V c (ix2 k e) := by
  obtain ⟨-, -, h0, h1, -⟩ := idx_facts t
  unfold b1 iblk0
  rw [View.read_apply]
  show V c (Pipeline.arrRef spec0 1) _ = V c (Pipeline.arrRef spec0 1) _
  congr 1
  funext a
  apply Fin.ext
  match a with
  | ⟨0, _⟩ => show win0_1.index t (0 : Fin 2) * 2 + 1 * k.val = k.val; rw [h0]; omega
  | ⟨1, _⟩ => show win0_1.index t (1 : Fin 2) * 32000 + 1 * q.val = e.val; rw [h1, he]; omega

theorem b2_apply (c : Dev nD) (t : Fin cfg0.N) (q : Fin 32000) (e : Fin 3200000) (he : e.val = 32000 * t.val + q.val) :
    b2 V c t (ix2 (0 : Fin 1) q) = a2 V c (ix2 (0 : Fin 1) e) := by
  obtain ⟨-, -, -, -, h0, h1, -⟩ := idx_facts t
  unfold b2 iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [h0]
  | ⟨1, _⟩ => show win0_2.index t (1 : Fin 2) * 32000 + 1 * q.val = e.val; rw [h1, he]; omega

/-- The weight blocks are the weight arrays at every point. -/
theorem b3_eq (c : Dev nD) (t : Fin cfg0.N) : b3 V c t = a3 V c := by
  obtain ⟨-, -, -, -, -, -, h0, h1, -⟩ := idx_facts t
  funext y
  unfold b3 iblk0
  rw [View.read_apply]
  show V c (Pipeline.arrRef spec0 3) _ = V c (Pipeline.arrRef spec0 3) _
  congr 1
  funext a
  apply Fin.ext
  match a with
  | ⟨0, _⟩ => show win0_3.index t (0 : Fin 2) * 4 + 1 * (y 0).val = (y 0).val; rw [h0]; omega
  | ⟨1, _⟩ => show win0_3.index t (1 : Fin 2) * 16 + 1 * (y 1).val = (y 1).val; rw [h1]; omega

theorem b4_eq (c : Dev nD) (t : Fin cfg0.N) : b4 V c t = a4 V c := by
  obtain ⟨-, -, -, -, -, -, -, -, h0, h1, -⟩ := idx_facts t
  funext y
  unfold b4 iblk0
  rw [View.read_apply]
  show V c (Pipeline.arrRef spec0 4) _ = V c (Pipeline.arrRef spec0 4) _
  congr 1
  funext a
  apply Fin.ext
  match a with
  | ⟨0, _⟩ => show win0_4.index t (0 : Fin 2) * 10 + 1 * (y 0).val = (y 0).val; rw [h0]; omega
  | ⟨1, _⟩ => show win0_4.index t (1 : Fin 2) * 16 + 1 * (y 1).val = (y 1).val; rw [h1]; omega

theorem b5_eq (c : Dev nD) (t : Fin cfg0.N) : b5 V c t = a5 V c := by
  obtain ⟨-, -, -, -, -, -, -, -, -, -, h0, -⟩ := idx_facts t
  funext y
  unfold b5 iblk0
  rw [View.read_apply]
  show V c (Pipeline.arrRef spec0 5) _ = V c (Pipeline.arrRef spec0 5) _
  congr 1
  funext a
  apply Fin.ext
  match a with
  | ⟨0, _⟩ => show win0_5.index t (0 : Fin 1) * 16 + 1 * (y 0).val = (y 0).val; rw [h0]; omega

/-- Block t of the first two gathered arrays, as functions of the arrays alone. -/
def B0 (c : Dev nD) (t : Fin 100) : Vec Ideal S10x32000 .f32 := fun y => a0 V c (ix2 (y 0) (Spec.eIx t (y 1)))
def B1 (c : Dev nD) (t : Fin 100) : Vec Ideal S2x32000 .f32 := fun y => a1 V c (ix2 (y 0) (Spec.eIx t (y 1)))

theorem b0_eq (c : Dev nD) (t : Fin cfg0.N) (t' : Fin 100) (h : t'.val = t.val) : b0 V c t = B0 V c t' := by
  funext y
  obtain ⟨k, q, rfl⟩ : ∃ (k : Fin 10) (q : Fin 32000), y = ix2 k q := ⟨y 0, y 1, eq_ix2 y⟩
  exact b0_apply V c t k q (Spec.eIx t' q) (by show 32000 * t'.val + q.val = _; rw [h])

theorem b1_eq (c : Dev nD) (t : Fin cfg0.N) (t' : Fin 100) (h : t'.val = t.val) : b1 V c t = B1 V c t' := by
  funext y
  obtain ⟨k, q, rfl⟩ : ∃ (k : Fin 2) (q : Fin 32000), y = ix2 k q := ⟨y 0, y 1, eq_ix2 y⟩
  exact b1_apply V c t k q (Spec.eIx t' q) (by show 32000 * t'.val + q.val = _; rw [h])

/-- The combined array as one function of the six entry arrays: row e is edge e's row of eighteen. -/
def G6 (c : Dev nD) : Vec Ideal S3200000x18 .f32 := fun i =>
  Spec.eRow (srow V c (i 0)) (drow V c (i 0)) (a2 V c (ix2 (0 : Fin 1) (i 0))) (a3 V c) (a4 V c) (a5 V c) (i 1)

/-- The statistics array as one function of the entry arrays: tile t is the body's statistics tile of block t. -/
def G7 (c : Dev nD) : Vec Ideal S100x8x128 .f32 := fun i =>
  k0_pay2 (F := Ideal) (k0_pay5 (B0 V c (i 0)) (B1 V c (i 0))) (k0_pay6 (B0 V c (i 0))) (ix3 (0 : Fin 1) (i 1) (i 2))

/-- What the body leaves at point t, over the point's input blocks. -/
theorem outs6 (c : Dev nD) (t : Fin cfg0.N) :
    (outsAt0 V c t).1 = View.canon (pcs6 (k0_pay8 (b0 V c t) (b1 V c t) (b2 V c t)) (k0_pay1 (F := Ideal))
      (k0_pay7 (b0 V c t) (b1 V c t) (b3 V c t) (b4 V c t) (b5 V c t))) := by
  unfold outsAt0
  dsimp only
  exact out6_pieces (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t)

theorem outs7 (c : Dev nD) (t : Fin cfg0.N) :
    (outsAt0 V c t).2 = k0_pay2 (F := Ideal) (k0_pay5 (b0 V c t) (b1 V c t)) (k0_pay6 (b0 V c t)) := by
  unfold outsAt0
  dsimp only
  exact out7_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t)

/-- Entry y of the block the body leaves at point t is entry i of the whole-array function, where i is y moved
    32000 t rows down. -/
theorem row6 (c : Dev nD) (t : Fin cfg0.N) (y : S32000x18.Idx) (i : S3200000x18.Idx)
    (h0 : (i 0).val = 32000 * t.val + (y 0).val) (h1 : (i 1).val = (y 1).val) :
    (outsAt0 V c t).1 y = G6 V c i := by
  obtain ⟨q, col, rfl⟩ : ∃ (q : Fin 32000) (col : Fin 18), y = ix2 q col := ⟨y 0, y 1, eq_ix2 y⟩
  obtain ⟨e, col', rfl⟩ : ∃ (e : Fin 3200000) (col' : Fin 18), i = ix2 e col' := ⟨i 0, i 1, eq_ix2 i⟩
  obtain rfl : col' = col := Fin.ext h1
  have hs : EdgeB.sr (b0 V c t) q = srow V c e := funext fun k => b0_apply V c t k q e h0
  have hd : EdgeB.dr (b1 V c t) q = drow V c e := funext fun a => b1_apply V c t a q e h0
  have hc : b2 V c t (ix2 (0 : Fin 1) q) = a2 V c (ix2 (0 : Fin 1) e) := b2_apply V c t q e h0
  rw [outs6]
  show _ = Spec.eRow (srow V c e) (drow V c e) (a2 V c (ix2 (0 : Fin 1) e)) (a3 V c) (a4 V c) (a5 V c) col'
  unfold Spec.eRow
  by_cases hlt : col'.val < 16
  · rw [dif_pos hlt]
    have ecol : (Fin.castLE (by decide) (⟨col'.val, hlt⟩ : Fin 16) : Fin 18) = col' := Fin.ext rfl
    have h := canon6_msg (F := Ideal) (k0_pay8 (b0 V c t) (b1 V c t) (b2 V c t)) (k0_pay1 (F := Ideal))
      (k0_pay7 (b0 V c t) (b1 V c t) (b3 V c t) (b4 V c t) (b5 V c t)) q ⟨col'.val, hlt⟩
    rw [ecol] at h
    refine h.trans ((EdgeB.pay7_apply (b0 V c t) (b1 V c t) (b3 V c t) (b4 V c t) (b5 V c t) q ⟨col'.val, hlt⟩).trans ?_)
    rw [hs, hd, b3_eq, b4_eq, b5_eq]
  · rw [dif_neg hlt]
    by_cases h16 : col'.val = 16
    · rw [if_pos h16]
      obtain rfl : col' = (16 : Fin 18) := Fin.ext h16
      exact (canon6_one (F := Ideal) _ _ _ q).trans (EdgeB.pay1_apply q)
    · rw [if_neg h16]
      obtain rfl : col' = (17 : Fin 18) := Fin.ext (by have := col'.isLt; show col'.val = 17; omega)
      refine (canon6_cons (F := Ideal) _ _ _ q).trans ((EdgeB.pay8_apply (b0 V c t) (b1 V c t) (b2 V c t) q).trans ?_)
      rw [hs, hd, hc]

theorem row7 (c : Dev nD) (t : Fin cfg0.N) (y : S1x8x128.Idx) (i : S100x8x128.Idx)
    (h0 : (i 0).val = t.val) (h1 : (i 1).val = (y 1).val) (h2 : (i 2).val = (y 2).val) :
    (outsAt0 V c t).2 y = G7 V c i := by
  obtain ⟨z, r, l, rfl⟩ : ∃ (z : Fin 1) (r : Fin 8) (l : Fin 128), y = ix3 z r l := ⟨y 0, y 1, y 2, eq_ix3 y⟩
  obtain ⟨t', r', l', rfl⟩ : ∃ (t' : Fin 100) (r' : Fin 8) (l' : Fin 128), i = ix3 t' r' l' := ⟨i 0, i 1, i 2, eq_ix3 i⟩
  obtain rfl : z = 0 := Subsingleton.elim _ _
  obtain rfl : r' = r := Fin.ext h1
  obtain rfl : l' = l := Fin.ext h2
  rw [outs7, b0_eq V c t t' h0, b1_eq V c t t' h0]
  rfl

/-- What point t writes back to the combined array is block t of the whole-array function. -/
theorem flushed6_eq (c : Dev nD) (t : Fin cfg0.N) :
    (dat0 V c).flushed 6 t = ((cfg0.win 6).blk t).view.read (Elt Ideal) (G6 V c) := by
  obtain ⟨-, -, -, -, -, -, -, -, -, -, -, h0, h1, -⟩ := idx_facts t
  show (cfg0.win 6).cut (grid0.coords t) ((dat0 V c).after 6 t) = _
  rw [after0_6]
  funext y
  show (outsAt0 V c t).1 ((cfg0.win 6).xinj (grid0.coords t) y) = G6 V c (((cfg0.win 6).blk t).view.emb y)
  refine row6 V c t _ _ ?_ ?_
  · show win0_6.index t (0 : Fin 2) * 32000 + 1 * (y 0).val = 32000 * t.val + (y 0).val
    rw [h0]; omega
  · show win0_6.index t (1 : Fin 2) * 18 + 1 * (y 1).val = (y 1).val
    rw [h1]; omega

theorem flushed7_eq (c : Dev nD) (t : Fin cfg0.N) :
    (dat0 V c).flushed 7 t = ((cfg0.win 7).blk t).view.read (Elt Ideal) (G7 V c) := by
  obtain ⟨-, -, -, -, -, -, -, -, -, -, -, -, -, h0, h1, h2⟩ := idx_facts t
  show (cfg0.win 7).cut (grid0.coords t) ((dat0 V c).after 7 t) = _
  rw [after0_7]
  funext y
  show (outsAt0 V c t).2 ((cfg0.win 7).xinj (grid0.coords t) y) = G7 V c (((cfg0.win 7).blk t).view.emb y)
  refine row7 V c t _ _ ?_ ?_ ?_
  · show win0_7.index t (0 : Fin 3) * 1 + 1 * (y 0).val = t.val
    have hy : (y 0).val < 1 := (y 0).isLt
    rw [h0]; omega
  · show win0_7.index t (1 : Fin 3) * 8 + 1 * (y 1).val = (y 1).val
    rw [h1]; omega
  · show win0_7.index t (2 : Fin 3) * 128 + 1 * (y 2).val = (y 2).val
    rw [h2]; omega

/-- Every row of the combined array lies in the block of the point its number divided by 32000 names. -/
theorem cover6 (i : S3200000x18.Idx) :
    ∃ t : Fin cfg0.N, (cfg0.win 6).flush t = true ∧ i ∈ ((cfg0.win 6).blk t).view.set := by
  have hN : cfg0.N = 100 := N_0
  have hi0 : (i 0).val < 3200000 := idx2_lt0 i
  have hi1 : (i 1).val < 18 := idx2_lt1 i
  obtain ⟨t, ht⟩ : ∃ t : Fin cfg0.N, t.val = (i 0).val / 32000 := ⟨⟨(i 0).val / 32000, by rw [hN]; omega⟩, rfl⟩
  obtain ⟨-, -, -, -, -, -, -, -, -, -, -, h0, h1, -⟩ := idx_facts t
  refine ⟨t, flush0_6 t, ?_⟩
  show i ∈ ((View.whole main_v6_0).slice (win0_6.rect t)).set
  rw [View.set_slice_whole, Rect.mem_set_unit]
  intro a
  match a with
  | ⟨0, _⟩ =>
    show win0_6.index t (0 : Fin 2) * 32000 ≤ (i 0).val ∧ (i 0).val < win0_6.index t (0 : Fin 2) * 32000 + 32000
    rw [h0, ht]; omega
  | ⟨1, _⟩ =>
    show win0_6.index t (1 : Fin 2) * 18 ≤ (i 1).val ∧ (i 1).val < win0_6.index t (1 : Fin 2) * 18 + 18
    rw [h1]; omega

theorem cover7 (i : S100x8x128.Idx) :
    ∃ t : Fin cfg0.N, (cfg0.win 7).flush t = true ∧ i ∈ ((cfg0.win 7).blk t).view.set := by
  have hN : cfg0.N = 100 := N_0
  have hi0 : (i 0).val < 100 := (i 0).isLt
  have hi1 : (i 1).val < 8 := (i 1).isLt
  have hi2 : (i 2).val < 128 := (i 2).isLt
  obtain ⟨t, ht⟩ : ∃ t : Fin cfg0.N, t.val = (i 0).val := ⟨⟨(i 0).val, by rw [hN]; exact hi0⟩, rfl⟩
  obtain ⟨-, -, -, -, -, -, -, -, -, -, -, -, -, h0, h1, h2⟩ := idx_facts t
  refine ⟨t, flush0_7 t, ?_⟩
  show i ∈ ((View.whole main_v6_1).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    rw [h0, ht]; omega
  | ⟨1, _⟩ =>
    show win0_7.index t (1 : Fin 3) * 8 ≤ (i 1).val ∧ (i 1).val < win0_7.index t (1 : Fin 3) * 8 + 8
    rw [h1]; omega
  | ⟨2, _⟩ =>
    show win0_7.index t (2 : Fin 3) * 128 ≤ (i 2).val ∧ (i 2).val < win0_7.index t (2 : Fin 3) * 128 + 128
    rw [h2]; omega

/-- So the two arrays the region leaves are the two whole-array functions. -/
theorem o6_eq (c : Dev nD) : o6 V c = G6 V c :=
  (dat0 V c).arrAt_eq_of_cover 6 (G6 V c) (fun t _ => flushed6_eq V c t) cover6

theorem o7_eq (c : Dev nD) : o7 V c = G7 V c :=
  (dat0 V c).arrAt_eq_of_cover 7 (G7 V c) (fun t _ => flushed7_eq V c t) cover7

/-- Entry (e, col) of the combined array is column col of edge e's row of eighteen. -/
theorem o6_apply (c : Dev nD) (e : Fin 3200000) (col : Fin 18) :
    o6 V c (ix2 e col) = Spec.eRow (srow V c e) (drow V c e) (a2 V c (ix2 0 e)) (a3 V c) (a4 V c) (a5 V c) col :=
  congrFun (o6_eq V c) (ix2 e col)

/-- Entry (t, 0, 0) of the statistics array: the number of food-source edges in block t. -/
theorem o7_food (c : Dev nD) (t : Fin 100) :
    o7 V c (ix3 t 0 0) = ∑ q : Fin 32000, Spec.bitR (Spec.eFood (srow V c (Spec.eIx t q))) :=
  (congrFun (o7_eq V c) (ix3 t 0 0)).trans (EdgeB.pay2_food (B0 V c t) (B1 V c t))

/-- Entry (t, 0, 1) of the statistics array: the summed length of the food-source edges in block t. -/
theorem o7_dist (c : Dev nD) (t : Fin 100) :
    o7 V c (ix3 t 0 1) = ∑ q : Fin 32000,
      Spec.eDist (srow V c (Spec.eIx t q)) (drow V c (Spec.eIx t q)) * Spec.bitR (Spec.eFood (srow V c (Spec.eIx t q))) :=
  (congrFun (o7_eq V c) (ix3 t 0 1)).trans (EdgeB.pay2_dist (B0 V c t) (B1 V c t))

end AtIdeal

end Cert.KernelIdeal.EdgeV

end
-- ==== Proof.NodeBody.lean ====
/-
  One block of the node kernel, read entry by entry.  A block is 5000 consecutive nodes: 5000 rows of the node table
  (ten channels), of the summed-rows table (eighteen columns) and of the noise (two columns), with the 16 × 4 readout
  weights and the four biases.  Row r of the block of new rows depends only on row r of the three tables: it is the
  node's new row of ten.  Row r of the keep block is the node's keep bit as 0 or 1.  The statistics tile holds at
  (0, 0, 0) … (0, 0, 4) the sums over the 5000 rows of the two border terms, the dead bit, the consumed bit and the two
  absolute new velocities.

  The body picks single columns in two ways: by a slice, and by summing along the row a selection "column index = k"
  against zeros, which leaves the entry in column k.  The readout is a product of columns 0 … 15 of the summed rows with
  the weights into zeros, plus the biases, through tanh, times the living-cell mask; the mask and the bits enter sums as
  the numbers 0 and 1.
-/
import proofs.«426050_j60911226191976_3_alg».proof.Proof.Gen.KernelIdeal.Frame
import proofs.«426050_j60911226191976_3_alg».proof.Proof.Spec
import Idealize.ShloMosaic.Lib.ValueIdx
import Idealize.ShloMosaic.Lib.Pipeline.Value
import proofs.«426050_j60911226191976_3_alg».proof.Proof.Bridge
import Idealize.ShloMosaic.PureOps.Ideal.Laws

set_option maxRecDepth 16384

noncomputable section

open scoped BigOperators

namespace Cert.KernelIdeal.NodeV

open Cert.KernelIdeal Cert.KernelIdeal.Gen Idealize.ShloMosaic Idealize.ShloMosaic.TcCoe Idealize.ShloMosaic.ValueIdx Idealize.SL.Sem

/-! ## Layout operations on literal two-axis shapes -/

section Helpers
variable {α : Type}

/-- A slice of columns o1, o1+1, … of a two-axis array, read at (r, a): the array at (r, o1 + a). -/
theorem slice2_apply {n0 n1 m1 : Nat} (o1 : Nat) (x : (⟨2, ![n0, n1]⟩ : Shape).Idx → α)
    (h : Shape.Slices (⟨2, ![n0, n1]⟩ : Shape) ![0, o1] (⟨2, ![n0, m1]⟩ : Shape)) (r : Fin n0) (a : Fin m1) (b : Fin n1)
    (hb : b.val = o1 + a.val) :
    extractStridedSlice (⟨2, ![n0, m1]⟩ : Shape) ![0, o1] x h (ix2 r a) = x (ix2 r b) :=
  extractStridedSlice_apply _ x h (ix2 r a) (ix2 r b) fun c => by
    match c with
    | ⟨0, _⟩ => show r.val = 0 + r.val; omega
    | ⟨1, _⟩ => show b.val = o1 + a.val; exact hb

/-- The sum along a row of a two-axis array, read at r. -/
theorem rowsum_apply {n0 n1 : Nat} (src : FVec Ideal (⟨2, ![n0, n1]⟩ : Shape) .f32)
    (h : Shape.Reduces (⟨2, ![n0, n1]⟩ : Shape) [1] (⟨1, ![n0]⟩ : Shape)) (hφ : FKind.Formats .f32)
    (hacc : (0x00000000#32 : BitVec 32) = FKind.add.neutral .f32 hφ) (r : Fin n0) :
    multiReduction .add [1] (⟨1, ![n0]⟩ : Shape) src 0x00000000#32 h hφ hacc (ix1 r) = ∑ k : Fin n1, src (ix2 r k) :=
  (Ideal.multiReduction_add_single src _ h hφ hacc (ix1 r)).trans
    (Finset.sum_congr rfl fun k _ => congrArg src (funext fun a => Fin.ext (by
      match a with
      | ⟨0, _⟩ => rfl
      | ⟨1, _⟩ => rfl)))

/-- A vector of n0 entries recast as one column, read at (r, 0). -/
theorem col_apply {n0 : Nat} (x : (⟨1, ![n0]⟩ : Shape).Idx → α)
    (h : Shape.ShapeCasts (⟨1, ![n0]⟩ : Shape) (⟨2, ![n0, 1]⟩ : Shape)) (r : Fin n0) (z : Fin 1) :
    shapeCast (⟨2, ![n0, 1]⟩ : Shape) x h (ix2 r z) = x (ix1 r) :=
  shapeCast_apply x h (ix2 r z) (ix1 r) (by
    rw [Shape.rowMajor_val_one, Shape.rowMajor_val_two]
    show r.val = r.val * 1 + z.val
    omega)

/-- A vector of n1 entries recast as one row, read at (0, q). -/
theorem row_apply {n1 : Nat} (x : (⟨1, ![n1]⟩ : Shape).Idx → α)
    (h : Shape.ShapeCasts (⟨1, ![n1]⟩ : Shape) (⟨2, ![1, n1]⟩ : Shape)) (z : Fin 1) (q : Fin n1) :
    shapeCast (⟨2, ![1, n1]⟩ : Shape) x h (ix2 z q) = x (ix1 q) :=
  shapeCast_apply x h (ix2 z q) (ix1 q) (by
    rw [Shape.rowMajor_val_one, Shape.rowMajor_val_two]
    show q.val = z.val * n1 + q.val
    have := z.isLt
    have hz : z.val = 0 := by omega
    rw [hz]; omega)

/-- One column repeated along the rows, read at (r, q): the column at (r, 0). -/
theorem bcol_apply {n0 n1 : Nat} (hn : n0 ≠ 1) (x : (⟨2, ![n0, 1]⟩ : Shape).Idx → α)
    (h : Shape.Broadcasts (⟨2, ![n0, 1]⟩ : Shape) (⟨2, ![n0, n1]⟩ : Shape)) (r : Fin n0) (q : Fin n1) (z : Fin 1) :
    broadcastTo (⟨2, ![n0, n1]⟩ : Shape) x h (ix2 r q) = x (ix2 r z) :=
  broadcastTo_apply x h (ix2 r q) (ix2 r z) fun a => by
    match a with
    | ⟨0, _⟩ => show r.val = if n0 = 1 then 0 else r.val; rw [if_neg hn]
    | ⟨1, _⟩ => show z.val = if (1 : Nat) = 1 then 0 else q.val; rw [if_pos rfl]; omega

/-- One row repeated down the columns, read at (r, q): the row at (0, q). -/
theorem brow_apply {n0 n1 : Nat} (hn : n1 ≠ 1) (x : (⟨2, ![1, n1]⟩ : Shape).Idx → α)
    (h : Shape.Broadcasts (⟨2, ![1, n1]⟩ : Shape) (⟨2, ![n0, n1]⟩ : Shape)) (r : Fin n0) (q : Fin n1) (z : Fin 1) :
    broadcastTo (⟨2, ![n0, n1]⟩ : Shape) x h (ix2 r q) = x (ix2 z q) :=
  broadcastTo_apply x h (ix2 r q) (ix2 z q) fun a => by
    match a with
    | ⟨0, _⟩ => show z.val = if (1 : Nat) = 1 then 0 else r.val; rw [if_pos rfl]; omega
    | ⟨1, _⟩ => show q.val = if n1 = 1 then 0 else q.val; rw [if_neg hn]

/-- A row sum that keeps one column: a selection by "column index = c" against zeros, summed, is the entry in column c. -/
theorem sum_select_single {n : Nat} (c : Fin n) (m : Fin n → BitVec 1) (hm : ∀ k, m k = if k = c then 1#1 else 0#1)
    (f : Fin n → EReal) :
    ∑ k : Fin n, Scalar.select (m k) (f k) (Ideal.ofBits .f32 0x00000000#32) = f c := by
  rw [Finset.sum_eq_single c]
  · rw [hm c, if_pos rfl]; exact select_one _ _
  · intro k _ hk
    rw [hm k, if_neg hk, select_zero]; exact Ideal.ofBits_zero_f32
  · intro h; exact absurd (Finset.mem_univ c) h

theorem iota10_eq4 : ∀ k : Fin 10, IntOp.cmpi .eq (BitVec.ofNat 32 (0 * 10 + k.val)) 4#32 = if k = 4 then 1#1 else 0#1 := by decide
theorem iota18_eq16 : ∀ k : Fin 18, IntOp.cmpi .eq (BitVec.ofNat 32 (0 * 18 + k.val)) 16#32 = if k = 16 then 1#1 else 0#1 := by decide
theorem iota18_eq17 : ∀ k : Fin 18, IntOp.cmpi .eq (BitVec.ofNat 32 (0 * 18 + k.val)) 17#32 = if k = 17 then 1#1 else 0#1 := by decide

end Helpers

section Helpers2
variable {α : Type}

/-- A concatenation of column groups, read at (r, col): the group that holds column col, at (r, col less the columns before it). -/
theorem concat2_apply {n0 N : Nat} (xs : List ((s : Shape) × (s.Idx → α)))
    (h : Shape.Concatenates (xs.map (·.1)) (⟨2, ![n0, N]⟩ : Shape) 1) (r : Fin n0) (col : Fin N)
    (k : Nat) (m : Nat) (x₁ : (⟨2, ![n0, m]⟩ : Shape).Idx → α)
    (hxk : xs[k]? = some ⟨(⟨2, ![n0, m]⟩ : Shape), x₁⟩) (pre : Nat)
    (hpre : (((xs.take k).map (·.1)).map fun s => if h : s.rank = (⟨2, ![n0, N]⟩ : Shape).rank then s.size ((1 : Fin (⟨2, ![n0, N]⟩ : Shape).rank).cast h.symm) else 0).sum = pre)
    (c : Fin m) (hc : pre + c.val = col.val) :
    concatenate (⟨2, ![n0, N]⟩ : Shape) 1 xs h (ix2 r col) = x₁ (ix2 r c) := by
  obtain ⟨hk, hxk'⟩ := List.getElem?_eq_some_iff.mp hxk
  exact concatenate_apply_piece 1 xs h (ix2 r col) k hk _ x₁ hxk' rfl pre hpre (ix2 r c)
    (fun b hb => by
      match b with
      | ⟨0, _⟩ => rfl
      | ⟨1, _⟩ => exact absurd rfl hb)
    hc

end Helpers2

/-! ## The readout's matrix product -/

theorem lhsK_0 (i : S5000x4.Idx) (q : dot_S5000x16_S16x4_S5000x4_1_0_0_1_n_n.contr.Idx) :
    (dot_S5000x16_S16x4_S5000x4_1_0_0_1_n_n.lhsIdx i q 0).val = (i 0).val := by
  unfold DotDims.lhsIdx
  rw [dif_neg (show ¬(0 : Fin S5000x16.rank) ∈ dot_S5000x16_S16x4_S5000x4_1_0_0_1_n_n.lhsBatch by decide), dif_pos (show (0 : Fin S5000x16.rank) ∈ dot_S5000x16_S16x4_S5000x4_1_0_0_1_n_n.lhsNonContracting by decide)]
  rfl
theorem lhsK_1 (i : S5000x4.Idx) (q : dot_S5000x16_S16x4_S5000x4_1_0_0_1_n_n.contr.Idx) :
    (dot_S5000x16_S16x4_S5000x4_1_0_0_1_n_n.lhsIdx i q 1).val = (q ⟨0, by decide⟩).val :=
  dot_S5000x16_S16x4_S5000x4_1_0_0_1_n_n.lhsIdx_val_of_single rfl i q
theorem rhsK_0 (i : S5000x4.Idx) (q : dot_S5000x16_S16x4_S5000x4_1_0_0_1_n_n.contr.Idx) :
    (dot_S5000x16_S16x4_S5000x4_1_0_0_1_n_n.rhsIdx i q 0).val = (q ⟨0, by decide⟩).val :=
  dot_S5000x16_S16x4_S5000x4_1_0_0_1_n_n.rhsIdx_val_of_single rfl i q
theorem rhsK_1 (i : S5000x4.Idx) (q : dot_S5000x16_S16x4_S5000x4_1_0_0_1_n_n.contr.Idx) :
    (dot_S5000x16_S16x4_S5000x4_1_0_0_1_n_n.rhsIdx i q 1).val = (i 1).val := by
  unfold DotDims.rhsIdx
  rw [dif_neg (show ¬(1 : Fin S16x4.rank) ∈ dot_S5000x16_S16x4_S5000x4_1_0_0_1_n_n.rhsBatch by decide), dif_pos (show (1 : Fin S16x4.rank) ∈ dot_S5000x16_S16x4_S5000x4_1_0_0_1_n_n.rhsNonContracting by decide)]
  rfl

/-- The product of a block of sixteen columns with the 16 × 4 weights, into zeros, read at (r, q). -/
theorem matmul16_apply (lhs : FVec Ideal S5000x16 .f32) (rhs : FVec Ideal S16x4 .f32) (r : Fin 5000) (q : Fin 4) :
    matmul dot_S5000x16_S16x4_S5000x4_1_0_0_1_n_n none lhs rhs (constant (F := Ideal) S5000x4 .f32 0x00000000#32) (ix2 r q)
      = ∑ k : Fin 16, lhs (ix2 r k) * rhs (ix2 k q) := by
  show FloatOps.matmul dot_S5000x16_S16x4_S5000x4_1_0_0_1_n_n none lhs rhs (constant (F := Ideal) S5000x4 .f32 0x00000000#32) (ix2 r q) = _
  rw [Ideal.matmul_constant_zero_apply, ← Equiv.sum_comp (ValueIdx.contrEquiv1 dot_S5000x16_S16x4_S5000x4_1_0_0_1_n_n 16 rfl rfl).symm]
  refine Finset.sum_congr rfl fun k _ => ?_
  have hk := ValueIdx.contrEquiv1_symm_val dot_S5000x16_S16x4_S5000x4_1_0_0_1_n_n 16 rfl rfl k
  have el : dot_S5000x16_S16x4_S5000x4_1_0_0_1_n_n.lhsIdx (ix2 r q) ((ValueIdx.contrEquiv1 dot_S5000x16_S16x4_S5000x4_1_0_0_1_n_n 16 rfl rfl).symm k) = ix2 r k := funext fun a => Fin.ext (by
    match a with
    | ⟨0, _⟩ => exact lhsK_0 _ _
    | ⟨1, _⟩ => exact (lhsK_1 _ _).trans hk)
  have er : dot_S5000x16_S16x4_S5000x4_1_0_0_1_n_n.rhsIdx (ix2 r q) ((ValueIdx.contrEquiv1 dot_S5000x16_S16x4_S5000x4_1_0_0_1_n_n 16 rfl rfl).symm k) = ix2 k q := funext fun a => Fin.ext (by
    match a with
    | ⟨0, _⟩ => exact (rhsK_0 _ _).trans hk
    | ⟨1, _⟩ => exact rhsK_1 _ _)
  rw [el, er]

section Helpers3
variable {α : Type}

/-- The sum down a column of a two-axis array, read at k. -/
theorem colsum_apply {n0 n1 : Nat} (src : FVec Ideal (⟨2, ![n0, n1]⟩ : Shape) .f32)
    (h : Shape.Reduces (⟨2, ![n0, n1]⟩ : Shape) [0] (⟨1, ![n1]⟩ : Shape)) (hφ : FKind.Formats .f32)
    (hacc : (0x00000000#32 : BitVec 32) = FKind.add.neutral .f32 hφ) (k : Fin n1) :
    multiReduction .add [0] (⟨1, ![n1]⟩ : Shape) src 0x00000000#32 h hφ hacc (ix1 k) = ∑ q : Fin n0, src (ix2 q k) :=
  (Ideal.multiReduction_add_single src _ h hφ hacc (ix1 k)).trans
    (Finset.sum_congr rfl fun q _ => congrArg src (funext fun a => Fin.ext (by
      match a with
      | ⟨0, _⟩ => rfl
      | ⟨1, _⟩ => rfl)))

/-- A two-axis array recast with a leading axis of extent one, read at (0, j, k). -/
theorem cast3_apply {n1 n2 : Nat} (x : (⟨2, ![n1, n2]⟩ : Shape).Idx → α)
    (h : Shape.ShapeCasts (⟨2, ![n1, n2]⟩ : Shape) (⟨3, ![1, n1, n2]⟩ : Shape)) (z : Fin 1) (j : Fin n1) (k : Fin n2) :
    shapeCast (⟨3, ![1, n1, n2]⟩ : Shape) x h (ix3 z j k) = x (ix2 j k) :=
  shapeCast_apply x h (ix3 z j k) (ix2 j k) (by
    rw [Shape.rowMajor_val_two, Shape.rowMajor_val_three]
    show j.val * n2 + k.val = (z.val * n1 + j.val) * n2 + k.val
    have hz : z.val = 0 := by have := z.isLt; omega
    rw [hz, Nat.zero_mul, Nat.zero_add])

/-- A concatenation of row groups, read at (row, k): the group that holds the row, at (row less the rows before it, k). -/
theorem concat_rows_apply {N n1 : Nat} (xs : List ((s : Shape) × (s.Idx → α)))
    (h : Shape.Concatenates (xs.map (·.1)) (⟨2, ![N, n1]⟩ : Shape) 0) (row : Fin N) (col : Fin n1)
    (k : Nat) (m : Nat) (x₁ : (⟨2, ![m, n1]⟩ : Shape).Idx → α)
    (hxk : xs[k]? = some ⟨(⟨2, ![m, n1]⟩ : Shape), x₁⟩) (pre : Nat)
    (hpre : (((xs.take k).map (·.1)).map fun s => if h : s.rank = (⟨2, ![N, n1]⟩ : Shape).rank then s.size ((0 : Fin (⟨2, ![N, n1]⟩ : Shape).rank).cast h.symm) else 0).sum = pre)
    (c : Fin m) (hc : pre + c.val = row.val) :
    concatenate (⟨2, ![N, n1]⟩ : Shape) 0 xs h (ix2 row col) = x₁ (ix2 c col) := by
  obtain ⟨hk, hxk'⟩ := List.getElem?_eq_some_iff.mp hxk
  exact concatenate_apply_piece 0 xs h (ix2 row col) k hk _ x₁ hxk' rfl pre hpre (ix2 c col)
    (fun b hb => by
      match b with
      | ⟨0, _⟩ => exact absurd rfl hb
      | ⟨1, _⟩ => rfl)
    hc

end Helpers3

section Body
variable (x0 : Vec Ideal S5000x10 .f32) (x1 : Vec Ideal S5000x18 .f32) (x2 : Vec Ideal S5000x2 .f32)
  (x3 : Vec Ideal S16x4 .f32) (x4 : Vec Ideal S4 .f32)

theorem pay4_apply (r : Fin 5000) (a : Fin 2) :
    k1_pay4 x0 (ix2 r a) = x0 (ix2 r (Fin.castLE (by decide) a)) := by
  unfold k1_pay4
  exact slice2_apply 0 x0 _ r a _ (by show a.val = 0 + a.val; omega)

theorem pay5_apply (r : Fin 5000) (a : Fin 2) :
    k1_pay5 x0 (ix2 r a) = x0 (ix2 r ((Fin.natAdd 2 a).castLE (by decide))) := by
  unfold k1_pay5
  exact slice2_apply 2 x0 _ r a _ (by show 2 + a.val = 2 + a.val; rfl)

theorem pay6_apply (r : Fin 5000) (z : Fin 1) : k1_pay6 x0 (ix2 r z) = x0 (ix2 r 4) := by
  unfold k1_pay6
  exact slice2_apply 4 x0 _ r z 4 (by show 4 = 4 + z.val; omega)

theorem pay7_eq : k1_pay7 x1 = x1 := by
  unfold k1_pay7
  exact shapeCast_self x1 _

theorem pay8_apply (r : Fin 5000) (z : Fin 1) : k1_pay8 x0 (ix2 r z) = x0 (ix2 r 4) := by
  unfold k1_pay8
  refine (col_apply _ _ r z).trans ?_
  refine (rowsum_apply _ _ _ _ r).trans ?_
  exact sum_select_single (n := 10) 4 _ (fun k => iota10_eq4 k) (fun k => x0 (ix2 r k))

theorem pay9_apply (r : Fin 5000) (z : Fin 1) : k1_pay9 x1 (ix2 r z) = x1 (ix2 r 16) := by
  unfold k1_pay9
  rw [pay7_eq]
  refine (col_apply _ _ r z).trans ?_
  refine (rowsum_apply _ _ _ _ r).trans ?_
  exact sum_select_single (n := 18) 16 _ (fun k => iota18_eq16 k) (fun k => x1 (ix2 r k))

theorem pay10_apply (r : Fin 5000) (z : Fin 1) : k1_pay10 x1 (ix2 r z) = x1 (ix2 r 17) := by
  unfold k1_pay10
  rw [pay7_eq]
  refine (col_apply _ _ r z).trans ?_
  refine (rowsum_apply _ _ _ _ r).trans ?_
  exact sum_select_single (n := 18) 17 _ (fun k => iota18_eq17 k) (fun k => x1 (ix2 r k))

theorem pay11_apply (r : Fin 5000) (z : Fin 1) : k1_pay11 x0 (ix2 r z) = Spec.nMask (fun k => x0 (ix2 r k)) := by
  unfold k1_pay11
  show ((((Ideal.cmp .oeq (k1_pay6 x0 (ix2 r z)) (Ideal.ofBits .f32 0x3F800000#32)).setWidth 32).toInt : ℝ) : EReal) = _
  rw [Spec.sitofp_extui, pay6_apply]
  rfl

/-- The readout at (r, q). -/
theorem pay12_apply (r : Fin 5000) (q : Fin 4) :
    k1_pay12 x0 x1 x3 x4 (ix2 r q) = Spec.nHid (fun k => x0 (ix2 r k)) (fun k => x1 (ix2 r k)) x3 x4 q := by
  unfold k1_pay12
  rw [pay7_eq]
  show Ideal.tanh (matmul dot_S5000x16_S16x4_S5000x4_1_0_0_1_n_n none (extractStridedSlice S5000x16 ![0, 0] x1 slices_S5000x18_o0_0_S5000x16) x3 (constant (F := Ideal) S5000x4 .f32 0x00000000#32) (ix2 r q)
      + broadcastTo S5000x4 (shapeCast S1x4 x4 shapeCasts_S4_S1x4) broadcasts_S1x4_S5000x4 (ix2 r q))
      * broadcastTo S5000x4 (k1_pay11 x0) broadcasts_S5000x1_S5000x4 (ix2 r q) = _
  rw [matmul16_apply, brow_apply (by decide) _ _ r q 0, row_apply, bcol_apply (by decide) _ _ r q 0, pay11_apply]
  have hs : ∀ k : Fin 16, extractStridedSlice S5000x16 ![0, 0] x1 slices_S5000x18_o0_0_S5000x16 (ix2 r k)
      = x1 (ix2 r (Fin.castLE (by decide) k)) :=
    fun k => slice2_apply 0 x1 _ r k _ (by show k.val = 0 + k.val; omega)
  simp only [hs]
  rfl

theorem pay13_apply (r : Fin 5000) (a : Fin 2) :
    k1_pay13 x0 x1 x3 x4 (ix2 r a)
      = Spec.nHid (fun k => x0 (ix2 r k)) (fun k => x1 (ix2 r k)) x3 x4 (Fin.castLE (by decide) a) := by
  unfold k1_pay13
  exact (slice2_apply 0 _ _ r a (Fin.castLE (by decide) a) (by show a.val = 0 + a.val; omega)).trans (pay12_apply x0 x1 x3 x4 r _)

/-- The clipped new velocity at (r, a). -/
theorem vel_apply (r : Fin 5000) (a : Fin 2) :
    k1_pay14 (k1_pay5 x0) (k1_pay13 x0 x1 x3 x4) (ix2 r a)
      = Spec.nVel (fun k => x0 (ix2 r k)) (fun k => x1 (ix2 r k)) x3 x4 a := by
  show min (Spec.lit 0x3CA3D70A#32) (max (Spec.lit 0xBCA3D70A#32)
    (k1_pay5 x0 (ix2 r a) + k1_pay13 x0 x1 x3 x4 (ix2 r a) * Spec.lit 0x3BA3D70A#32)) = _
  rw [pay5_apply, pay13_apply]
  rfl

/-- The new position at (r, a). -/
theorem pos_apply (r : Fin 5000) (a : Fin 2) :
    k1_pay15 (k1_pay4 x0) (k1_pay5 x0) (k1_pay13 x0 x1 x3 x4) (ix2 r a)
      = Spec.nPos (fun k => x0 (ix2 r k)) (fun k => x1 (ix2 r k)) x3 x4 a := by
  show k1_pay4 x0 (ix2 r a) + k1_pay14 (k1_pay5 x0) (k1_pay13 x0 x1 x3 x4) (ix2 r a) = _
  rw [pay4_apply, vel_apply]
  rfl

theorem xor_one_bit : ∀ b : BitVec 1, b ^^^ 1#1 = ~~~b := by decide

/-- The dead bit at row r. -/
theorem dead_apply (r : Fin 5000) (z : Fin 1) :
    k1_pay18 (k1_pay8 x0) (k1_pay9 x1) (ix2 r z) = Spec.nDead (fun k => x0 (ix2 r k)) (fun k => x1 (ix2 r k)) := by
  show Ideal.cmp .oeq (k1_pay8 x0 (ix2 r z)) (Spec.lit 0x3F800000#32) &&& Ideal.cmp .olt (k1_pay9 x1 (ix2 r z)) (Spec.lit 0x40400000#32) = _
  rw [pay8_apply, pay9_apply]
  rfl

/-- The consumed bit at row r. -/
theorem cons_apply (r : Fin 5000) (z : Fin 1) :
    k1_pay1 (k1_pay10 x1) (k1_pay19 (k1_pay8 x0)) (k1_pay20 (F := Ideal)) (ix2 r z)
      = Spec.nConsumed (fun k => x0 (ix2 r k)) (fun k => x1 (ix2 r k)) := by
  show Ideal.cmp .oeq (k1_pay8 x0 (ix2 r z)) (Spec.lit 0x00000000#32) &&& Ideal.cmp .oge (k1_pay10 x1 (ix2 r z)) (Spec.lit 0x40400000#32) = _
  rw [pay8_apply, pay10_apply]
  rfl

/-- The keep value at row r: the keep bit as 0 or 1. -/
theorem keep_apply (r : Fin 5000) (z : Fin 1) :
    k1_pay2 (k1_pay10 x1) (k1_pay18 (k1_pay8 x0) (k1_pay9 x1)) (k1_pay19 (k1_pay8 x0)) (k1_pay20 (F := Ideal)) (ix2 r z)
      = Spec.bitR (Spec.nKeep (fun k => x0 (ix2 r k)) (fun k => x1 (ix2 r k))) := by
  show (((((k1_pay18 (k1_pay8 x0) (k1_pay9 x1) (ix2 r z) ||| k1_pay1 (k1_pay10 x1) (k1_pay19 (k1_pay8 x0)) (k1_pay20 (F := Ideal)) (ix2 r z)) ^^^ 1#1).setWidth 32).toInt : ℝ) : EReal) = _
  rw [Spec.sitofp_extui, xor_one_bit, dead_apply, cons_apply]
  rfl

/-- The row's two border terms summed. -/
theorem border_apply (r : Fin 5000) (z : Fin 1) :
    k1_pay17 (k1_pay4 x0) (k1_pay5 x0) (k1_pay13 x0 x1 x3 x4) (ix2 r z)
      = ∑ a : Fin 2, Spec.nBorder (fun k => x0 (ix2 r k)) (fun k => x1 (ix2 r k)) x3 x4 a := by
  unfold k1_pay17
  refine (col_apply _ _ r z).trans ?_
  refine (rowsum_apply _ _ _ _ r).trans ?_
  refine Finset.sum_congr rfl fun a _ => ?_
  show Ideal.log (max (k1_pay15 (k1_pay4 x0) (k1_pay5 x0) (k1_pay13 x0 x1 x3 x4) (ix2 r a)) (-(k1_pay15 (k1_pay4 x0) (k1_pay5 x0) (k1_pay13 x0 x1 x3 x4) (ix2 r a))) + Spec.lit 0x358637BD#32)
    * ((((Ideal.cmp .ogt (max (k1_pay15 (k1_pay4 x0) (k1_pay5 x0) (k1_pay13 x0 x1 x3 x4) (ix2 r a)) (-(k1_pay15 (k1_pay4 x0) (k1_pay5 x0) (k1_pay13 x0 x1 x3 x4) (ix2 r a)))) (Spec.lit 0x3F800000#32)).setWidth 32).toInt : ℝ) : EReal) = _
  rw [Spec.sitofp_extui, pos_apply]
  rfl

/-- The new row of ten at (r, col). -/
theorem pay16_apply (r : Fin 5000) (col : Fin 10) :
    k1_pay16 x0 (k1_pay4 x0) (k1_pay5 x0) (k1_pay6 x0) (k1_pay11 x0) (k1_pay12 x0 x1 x3 x4) (k1_pay13 x0 x1 x3 x4) x2 (ix2 r col)
      = Spec.nNew (fun k => x0 (ix2 r k)) (fun k => x1 (ix2 r k)) (fun a => x2 (ix2 r a)) x3 x4 col := by
  have hnoisy : ∀ a : Fin 2,
      addf (k1_pay14 (k1_pay5 x0) (k1_pay13 x0 x1 x3 x4))
        (mulf (mulf (subf (mulf x2 (broadcast S5000x2 (Scalar.ofBits (F := Ideal) .f32 0x40000000#32))) (broadcast S5000x2 (Scalar.ofBits (F := Ideal) .f32 0x3F800000#32)))
          (broadcast S5000x2 (Scalar.ofBits (F := Ideal) .f32 0x3B83126F#32))) (broadcastTo S5000x2 (k1_pay11 x0) broadcasts_S5000x1_S5000x2)) (ix2 r a)
        = Spec.nNoisy (fun k => x0 (ix2 r k)) (fun k => x1 (ix2 r k)) (fun a => x2 (ix2 r a)) x3 x4 a := by
    intro a
    show k1_pay14 (k1_pay5 x0) (k1_pay13 x0 x1 x3 x4) (ix2 r a)
      + (x2 (ix2 r a) * Spec.lit 0x40000000#32 - Spec.lit 0x3F800000#32) * Spec.lit 0x3B83126F#32
        * broadcastTo S5000x2 (k1_pay11 x0) broadcasts_S5000x1_S5000x2 (ix2 r a) = _
    rw [vel_apply, bcol_apply (by decide) _ _ r a 0, pay11_apply]
    rfl
  have hhid : ∀ (a : Fin 2) (b : Fin 4), b.val = 2 + a.val →
      extractStridedSlice S5000x2 ![0, 2] (k1_pay12 x0 x1 x3 x4) slices_S5000x4_o0_2_S5000x2 (ix2 r a)
        = Spec.nHid (fun k => x0 (ix2 r k)) (fun k => x1 (ix2 r k)) x3 x4 b :=
    fun a b hb => (slice2_apply 2 _ _ r a b hb).trans (pay12_apply x0 x1 x3 x4 r b)
  have hold : ∀ (a : Fin 3) (b : Fin 10), b.val = 7 + a.val →
      extractStridedSlice S5000x3 ![0, 7] x0 slices_S5000x10_o0_7_S5000x3 (ix2 r a) = x0 (ix2 r b) :=
    fun a b hb => slice2_apply 7 _ _ r a b hb
  unfold k1_pay16
  match col with
  | ⟨0, _⟩ => exact (concat2_apply _ _ r _ 0 2 _ rfl 0 rfl (0 : Fin 2) rfl).trans (pos_apply x0 x1 x3 x4 r 0)
  | ⟨1, _⟩ => exact (concat2_apply _ _ r _ 0 2 _ rfl 0 rfl (1 : Fin 2) rfl).trans (pos_apply x0 x1 x3 x4 r 1)
  | ⟨2, _⟩ => exact (concat2_apply _ _ r _ 1 2 _ rfl 2 rfl (0 : Fin 2) rfl).trans (hnoisy 0)
  | ⟨3, _⟩ => exact (concat2_apply _ _ r _ 1 2 _ rfl 2 rfl (1 : Fin 2) rfl).trans (hnoisy 1)
  | ⟨4, _⟩ => exact (concat2_apply _ _ r _ 2 1 _ rfl 4 rfl (0 : Fin 1) rfl).trans (pay6_apply x0 r 0)
  | ⟨5, _⟩ => exact (concat2_apply _ _ r _ 3 2 _ rfl 5 rfl (0 : Fin 2) rfl).trans (hhid 0 2 rfl)
  | ⟨6, _⟩ => exact (concat2_apply _ _ r _ 3 2 _ rfl 5 rfl (1 : Fin 2) rfl).trans (hhid 1 3 rfl)
  | ⟨7, _⟩ => exact (concat2_apply _ _ r _ 4 3 _ rfl 7 rfl (0 : Fin 3) rfl).trans (hold 0 7 rfl)
  | ⟨8, _⟩ => exact (concat2_apply _ _ r _ 4 3 _ rfl 7 rfl (1 : Fin 3) rfl).trans (hold 1 8 rfl)
  | ⟨9, _⟩ => exact (concat2_apply _ _ r _ 4 3 _ rfl 7 rfl (2 : Fin 3) rfl).trans (hold 2 9 rfl)

/-! ## The statistics tile -/

/-- The five statistics columns of a block, row by row: the border terms, the dead bit, the consumed bit, the two absolute
    new velocities. -/
abbrev stat5 (v26 : FVec Ideal S5000x1 .f32) (v47 : FVec Ideal S5000x2 .f32) (v74 : FVec Ideal S5000x1 .f32)
    (v79 v81 : IVec S5000x1 1) (v82 : FVec Ideal S5000x1 .f32) : FVec Ideal S5000x5 .f32 :=
  concatenate S5000x5 1 [⟨S5000x1, v74⟩, ⟨S5000x1, sitofp (F := Ideal) .f32 (extui 32 v79 natLt_1_32)⟩,
    ⟨S5000x1, sitofp (F := Ideal) .f32 (extui 32 (k1_pay1 v26 v81 v82) natLt_1_32)⟩, ⟨S5000x2, absf v47⟩]
    concatenates_S5000x1_S5000x1_S5000x1_S5000x2_S5000x5_d1

/-- Entry (0, 0, k) of the tile, k < 5: column k of the five summed over the block's rows. -/
theorem pay3_apply (v26 : FVec Ideal S5000x1 .f32) (v47 : FVec Ideal S5000x2 .f32) (v74 : FVec Ideal S5000x1 .f32)
    (v79 v81 : IVec S5000x1 1) (v82 : FVec Ideal S5000x1 .f32) (z : Fin 1) (j : Fin 8) (hj : j.val = 0)
    (k' : Fin 128) (k : Fin 5) (hk : k'.val = k.val) :
    k1_pay3 v26 v47 v74 v79 v81 v82 (ix3 z j k') = ∑ q : Fin 5000, stat5 v26 v47 v74 v79 v81 v82 (ix2 q k) := by
  unfold k1_pay3
  refine (cast3_apply _ _ z j k').trans ?_
  refine (concat_rows_apply _ _ j k' 0 1 _ rfl 0 rfl (0 : Fin 1) (by show 0 + 0 = j.val; omega)).trans ?_
  refine (concat2_apply _ _ (0 : Fin 1) k' 0 5 _ rfl 0 rfl k (by omega)).trans ?_
  refine (row_apply _ _ 0 k).trans ?_
  exact colsum_apply _ _ _ _ k

theorem stat5_0 (v26 : FVec Ideal S5000x1 .f32) (v47 : FVec Ideal S5000x2 .f32) (v74 : FVec Ideal S5000x1 .f32)
    (v79 v81 : IVec S5000x1 1) (v82 : FVec Ideal S5000x1 .f32) (q : Fin 5000) :
    stat5 v26 v47 v74 v79 v81 v82 (ix2 q 0) = v74 (ix2 q 0) :=
  concat2_apply _ _ q _ 0 1 _ rfl 0 rfl (0 : Fin 1) rfl

theorem stat5_1 (v26 : FVec Ideal S5000x1 .f32) (v47 : FVec Ideal S5000x2 .f32) (v74 : FVec Ideal S5000x1 .f32)
    (v79 v81 : IVec S5000x1 1) (v82 : FVec Ideal S5000x1 .f32) (q : Fin 5000) :
    stat5 v26 v47 v74 v79 v81 v82 (ix2 q 1) = Spec.bitR (v79 (ix2 q 0)) :=
  (concat2_apply _ _ q _ 1 1 _ rfl 1 rfl (0 : Fin 1) rfl).trans (Spec.sitofp_extui _)

theorem stat5_2 (v26 : FVec Ideal S5000x1 .f32) (v47 : FVec Ideal S5000x2 .f32) (v74 : FVec Ideal S5000x1 .f32)
    (v79 v81 : IVec S5000x1 1) (v82 : FVec Ideal S5000x1 .f32) (q : Fin 5000) :
    stat5 v26 v47 v74 v79 v81 v82 (ix2 q 2) = Spec.bitR (k1_pay1 v26 v81 v82 (ix2 q 0)) :=
  (concat2_apply _ _ q _ 2 1 _ rfl 2 rfl (0 : Fin 1) rfl).trans (Spec.sitofp_extui _)

theorem stat5_34 (v26 : FVec Ideal S5000x1 .f32) (v47 : FVec Ideal S5000x2 .f32) (v74 : FVec Ideal S5000x1 .f32)
    (v79 v81 : IVec S5000x1 1) (v82 : FVec Ideal S5000x1 .f32) (q : Fin 5000) (a : Fin 2) (k : Fin 5) (hk : 3 + a.val = k.val) :
    stat5 v26 v47 v74 v79 v81 v82 (ix2 q k) = Spec.absE (v47 (ix2 q a)) :=
  (concat2_apply _ _ q k 3 2 _ rfl 3 rfl a hk).trans rfl

/-! ## What the body leaves in the three output blocks -/

theorem hz1 : (![0] : Fin 1 → Nat) = fun _ => 0 := funext fun a => by
  match a with
  | ⟨0, _⟩ => rfl
theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- The block of new rows at (r, col). -/
theorem out5_apply (r : Fin 5000) (col : Fin 10) :
    out1_5 x0 x1 x2 x3 x4 (ix2 r col)
      = Spec.nNew (fun k => x0 (ix2 r k)) (fun k => x1 (ix2 r k)) (fun a => x2 (ix2 r a)) x3 x4 col := by
  unfold out1_5
  rw [View.canon_unit_zero hz2]
  simp only [View.ld_unit_zero (S := S5000x10) hz2, View.ld_unit_zero (S := S5000x18) hz2, View.ld_unit_zero (S := S5000x2) hz2,
    View.ld_unit_zero (S := S16x4) hz2, View.ld_unit_zero (S := S4) hz1]
  exact pay16_apply x0 x1 x2 x3 x4 r col

/-- The block of keep values at (r, 0). -/
theorem out6_apply (r : Fin 5000) (z : Fin 1) :
    out1_6 x0 x1 x2 x3 x4 (ix2 r z) = Spec.bitR (Spec.nKeep (fun k => x0 (ix2 r k)) (fun k => x1 (ix2 r k))) := by
  unfold out1_6
  rw [View.canon_unit_zero hz2]
  simp only [View.ld_unit_zero (S := S5000x10) hz2, View.ld_unit_zero (S := S5000x18) hz2]
  exact keep_apply x0 x1 r z

/-- The statistics tile at (0, 0, k), k < 5, as a sum over the block's rows of column k of the five. -/
theorem out7_apply (z : Fin 1) (j : Fin 8) (hj : j.val = 0) (k' : Fin 128) (k : Fin 5) (hk : k'.val = k.val) :
    out1_7 x0 x1 x2 x3 x4 (ix3 z j k')
      = ∑ q : Fin 5000, stat5 (k1_pay10 x1) (k1_pay14 (k1_pay5 x0) (k1_pay13 x0 x1 x3 x4))
          (k1_pay17 (k1_pay4 x0) (k1_pay5 x0) (k1_pay13 x0 x1 x3 x4)) (k1_pay18 (k1_pay8 x0) (k1_pay9 x1))
          (k1_pay19 (k1_pay8 x0)) (k1_pay20 (F := Ideal)) (ix2 q k) := by
  unfold out1_7
  rw [View.canon_unit_zero hz3]
  simp only [View.ld_unit_zero (S := S5000x10) hz2, View.ld_unit_zero (S := S5000x18) hz2,
    View.ld_unit_zero (S := S16x4) hz2, View.ld_unit_zero (S := S4) hz1]
  exact pay3_apply _ _ _ _ _ _ z j hj k' k hk

theorem out7_border (z : Fin 1) :
    out1_7 x0 x1 x2 x3 x4 (ix3 z 0 0)
      = ∑ q : Fin 5000, ∑ a : Fin 2, Spec.nBorder (fun k => x0 (ix2 q k)) (fun k => x1 (ix2 q k)) x3 x4 a := by
  rw [out7_apply x0 x1 x2 x3 x4 z 0 rfl 0 0 rfl]
  refine Finset.sum_congr rfl fun q _ => ?_
  rw [stat5_0, border_apply]

theorem out7_dead (z : Fin 1) :
    out1_7 x0 x1 x2 x3 x4 (ix3 z 0 1)
      = ∑ q : Fin 5000, Spec.bitR (Spec.nDead (fun k => x0 (ix2 q k)) (fun k => x1 (ix2 q k))) := by
  rw [out7_apply x0 x1 x2 x3 x4 z 0 rfl 1 1 rfl]
  refine Finset.sum_congr rfl fun q _ => ?_
  rw [stat5_1, dead_apply]

theorem out7_consumed (z : Fin 1) :
    out1_7 x0 x1 x2 x3 x4 (ix3 z 0 2)
      = ∑ q : Fin 5000, Spec.bitR (Spec.nConsumed (fun k => x0 (ix2 q k)) (fun k => x1 (ix2 q k))) := by
  rw [out7_apply x0 x1 x2 x3 x4 z 0 rfl 2 2 rfl]
  refine Finset.sum_congr rfl fun q _ => ?_
  rw [stat5_2, cons_apply]

theorem out7_vel (z : Fin 1) (a : Fin 2) :
    out1_7 x0 x1 x2 x3 x4 (ix3 z 0 ((Fin.natAdd 3 a).castLE (by decide)))
      = ∑ q : Fin 5000, Spec.absE (Spec.nVel (fun k => x0 (ix2 q k)) (fun k => x1 (ix2 q k)) x3 x4 a) := by
  rw [out7_apply x0 x1 x2 x3 x4 z 0 rfl ((Fin.natAdd 3 a).castLE (by decide)) ((Fin.natAdd 3 a).castLE (by decide)) rfl]
  refine Finset.sum_congr rfl fun q _ => ?_
  rw [stat5_34 _ _ _ _ _ _ q a _ rfl, vel_apply]

end Body

end Cert.KernelIdeal.NodeV

end
-- ==== Proof.NodeVal.lean ====
/-
  The node kernel's three output arrays, whatever the five arrays it is entered with.  Node n lies in block n / 5000 at
  row n % 5000; its new row of ten and its keep value depend only on row n of the node table, of the summed-rows table
  and of the noise, so the blocks are restrictions of one whole-array function.  Block t of the statistics array holds
  at (0, 0) … (0, 4) the block's sums of the border terms, the dead bits, the consumed bits, and the absolute new
  velocities per axis.

  Grid point t reads rows 5000·t … 5000·t + 4999 of the three tables and the whole of the weights and biases, and
  writes back rows 5000·t … of the new table and of the keep array and tile t of the statistics array; the ten points'
  blocks tile each output array, so each array ends as one function of the entry contents.
-/
import proofs.«426050_j60911226191976_3_alg».proof.Proof.Gen.KernelIdeal.Frame
import proofs.«426050_j60911226191976_3_alg».proof.Proof.Spec
import Idealize.ShloMosaic.Lib.ValueIdx
import Idealize.ShloMosaic.Lib.Pipeline.Value
import proofs.«426050_j60911226191976_3_alg».proof.Proof.NodeBody
import Idealize.ShloMosaic.PureOps.Ideal.Laws

set_option maxRecDepth 16384

noncomputable section

open scoped BigOperators

namespace Cert.KernelIdeal.NodeV

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The five arrays the region is entered with, at their literal types. -/
abbrev b0 (c : Dev nD) : Vec Ideal S50000x10 .f32 := V c (Pipeline.arrRef spec1 0)
abbrev b1 (c : Dev nD) : Vec Ideal S50000x18 .f32 := V c (Pipeline.arrRef spec1 1)
abbrev b2 (c : Dev nD) : Vec Ideal S50000x2 .f32 := V c (Pipeline.arrRef spec1 2)
abbrev b3 (c : Dev nD) : Vec Ideal S16x4 .f32 := V c (Pipeline.arrRef spec1 3)
abbrev b4 (c : Dev nD) : Vec Ideal S4 .f32 := V c (Pipeline.arrRef spec1 4)

/-- The three arrays the region leaves. -/
abbrev o5 (c : Dev nD) : Vec Ideal S50000x10 .f32 := (dat1 V c).arrAt 5 cfg1.N
abbrev o6 (c : Dev nD) : Vec Ideal S50000x1 .f32 := (dat1 V c).arrAt 6 cfg1.N
abbrev o7 (c : Dev nD) : Vec Ideal S10x8x128 .f32 := (dat1 V c).arrAt 7 cfg1.N

/-- Row n of the node table, of the summed-rows table, and of the noise. -/
abbrev xr (c : Dev nD) (n : Fin 50000) : Fin 10 → EReal := fun k => b0 V c (ix2 n k)
abbrev cr (c : Dev nD) (n : Fin 50000) : Fin 18 → EReal := fun k => b1 V c (ix2 n k)
abbrev zr (c : Dev nD) (n : Fin 50000) : Fin 2 → EReal := fun a => b2 V c (ix2 n a)

/-! ## The blocks the ten grid points read -/

/-- A grid point as a block number. -/
abbrev tt (t : Fin cfg1.N) : Fin 10 := Fin.cast N_1 t

/-- The index maps, decided over the grid: the three tables, the new table and the keep array move one block of rows
    per point, the statistics array one tile per point, the weights and biases stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- Block t of the node table, of the summed-rows table and of the noise: rows 5000·t … of the array. -/
abbrev B0 (c : Dev nD) (t : Fin 10) : Vec Ideal S5000x10 .f32 := fun y => b0 V c (ix2 (Spec.nIx t (y 0)) (y 1))
abbrev B1 (c : Dev nD) (t : Fin 10) : Vec Ideal S5000x18 .f32 := fun y => b1 V c (ix2 (Spec.nIx t (y 0)) (y 1))
abbrev B2 (c : Dev nD) (t : Fin 10) : Vec Ideal S5000x2 .f32 := fun y => b2 V c (ix2 (Spec.nIx t (y 0)) (y 1))

theorem blk0_eq (c : Dev nD) (t : Fin cfg1.N) : iblk1 V c 0 t = B0 V c (tt t) := by
  obtain ⟨e0, e1, -⟩ := idx1 t
  funext y
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t (0 : Fin 2) * 5000 + 1 * (y 0).val = 5000 * t.val + (y 0).val; rw [e0]; omega
  | ⟨1, _⟩ => show win1_0.index t (1 : Fin 2) * 10 + 1 * (y 1).val = (y 1).val; rw [e1]; omega

theorem blk1_eq (c : Dev nD) (t : Fin cfg1.N) : iblk1 V c 1 t = B1 V c (tt t) := by
  obtain ⟨-, -, e0, e1, -⟩ := idx1 t
  funext y
  unfold iblk1
  rw [View.read_apply]
  show V c (Pipeline.arrRef spec1 1) _ = V c (Pipeline.arrRef spec1 1) _
  refine congrArg (V c (Pipeline.arrRef spec1 1)) ?_
  funext a
  apply Fin.ext
  match a with
  | ⟨0, _⟩ => show win1_1.index t (0 : Fin 2) * 5000 + 1 * (y 0).val = 5000 * t.val + (y 0).val; rw [e0]; omega
  | ⟨1, _⟩ => show win1_1.index t (1 : Fin 2) * 18 + 1 * (y 1).val = (y 1).val; rw [e1]; omega

theorem blk2_eq (c : Dev nD) (t : Fin cfg1.N) : iblk1 V c 2 t = B2 V c (tt t) := by
  obtain ⟨-, -, -, -, e0, e1, -⟩ := idx1 t
  funext y
  unfold iblk1
  rw [View.read_apply]
  show V c (Pipeline.arrRef spec1 2) _ = V c (Pipeline.arrRef spec1 2) _
  refine congrArg (V c (Pipeline.arrRef spec1 2)) ?_
  funext a
  apply Fin.ext
  match a with
  | ⟨0, _⟩ => show win1_2.index t (0 : Fin 2) * 5000 + 1 * (y 0).val = 5000 * t.val + (y 0).val; rw [e0]; omega
  | ⟨1, _⟩ => show win1_2.index t (1 : Fin 2) * 2 + 1 * (y 1).val = (y 1).val; rw [e1]; omega

/-- The weights' and the biases' one block is the whole array, at every point. -/
theorem blk3_eq (c : Dev nD) (t : Fin cfg1.N) : iblk1 V c 3 t = b3 V c := by
  obtain ⟨-, -, -, -, -, -, e0, e1, -⟩ := idx1 t
  funext y
  unfold iblk1
  rw [View.read_apply]
  show V c (Pipeline.arrRef spec1 3) _ = V c (Pipeline.arrRef spec1 3) y
  refine congrArg (V c (Pipeline.arrRef spec1 3)) ?_
  funext a
  apply Fin.ext
  match a with
  | ⟨0, _⟩ => show win1_3.index t (0 : Fin 2) * 16 + 1 * (y 0).val = (y 0).val; rw [e0]; omega
  | ⟨1, _⟩ => show win1_3.index t (1 : Fin 2) * 4 + 1 * (y 1).val = (y 1).val; rw [e1]; omega

theorem blk4_eq (c : Dev nD) (t : Fin cfg1.N) : iblk1 V c 4 t = b4 V c := by
  obtain ⟨-, -, -, -, -, -, -, -, e0, -⟩ := idx1 t
  funext y
  unfold iblk1
  rw [View.read_apply]
  show V c (Pipeline.arrRef spec1 4) _ = V c (Pipeline.arrRef spec1 4) y
  refine congrArg (V c (Pipeline.arrRef spec1 4)) ?_
  funext a
  apply Fin.ext
  match a with
  | ⟨0, _⟩ => show win1_4.index t (0 : Fin 1) * 4 + 1 * (y 0).val = (y 0).val; rw [e0]; omega

/-! ## The three arrays after the run -/

/-- The new node table, the keep array and the statistics array as functions of the entry contents. -/
abbrev G5 (c : Dev nD) : Vec Ideal S50000x10 .f32 := fun i =>
  Spec.nNew (xr V c (i 0)) (cr V c (i 0)) (zr V c (i 0)) (b3 V c) (b4 V c) (i 1)
abbrev G6 (c : Dev nD) : Vec Ideal S50000x1 .f32 := fun i => Spec.bitR (Spec.nKeep (xr V c (i 0)) (cr V c (i 0)))
def G7 (c : Dev nD) : Vec Ideal S10x8x128 .f32 := fun i =>
  out1_7 (B0 V c (i 0)) (B1 V c (i 0)) (B2 V c (i 0)) (b3 V c) (b4 V c) (ix3 0 (i 1) (i 2))

/-- Tile t of the statistics function is the body's tile of block t of the three tables. -/
theorem G7_apply (c : Dev nD) (t : Fin 10) (j : Fin 8) (k : Fin 128) :
    G7 V c (ix3 t j k) = out1_7 (B0 V c t) (B1 V c t) (B2 V c t) (b3 V c) (b4 V c) (ix3 0 j k) := rfl

attribute [irreducible] G7

/-- What point t writes back to the new table is rows 5000·t … of G5. -/
theorem flushed5_eq (c : Dev nD) (t : Fin cfg1.N) :
    (dat1 V c).flushed 5 t = ((cfg1.win 5).blk t).view.read (Elt Ideal) (G5 V c) := by
  obtain ⟨-, -, -, -, -, -, -, -, -, e0, e1, -⟩ := idx1 t
  show (cfg1.win 5).cut (grid1.coords t) ((dat1 V c).after 5 t) = _
  rw [after1_5, blk0_eq, blk1_eq, blk2_eq, blk3_eq, blk4_eq]
  funext y
  obtain ⟨r, col, rfl⟩ : ∃ (r : Fin 5000) (col : Fin 10), y = ix2 r col := ⟨y 0, y 1, eq_ix2 y⟩
  have he : ((cfg1.win 5).blk t).view.emb (ix2 r col) = ix2 (Spec.nIx (tt t) r) col := by
    funext a
    apply Fin.ext
    match a with
    | ⟨0, _⟩ => show win1_5.index t (0 : Fin 2) * 5000 + 1 * r.val = 5000 * t.val + r.val; rw [e0]; omega
    | ⟨1, _⟩ => show win1_5.index t (1 : Fin 2) * 10 + 1 * col.val = col.val; rw [e1]; omega
  show out1_5 (B0 V c (tt t)) (B1 V c (tt t)) (B2 V c (tt t)) (b3 V c) (b4 V c) (ix2 r col)
    = G5 V c (((cfg1.win 5).blk t).view.emb (ix2 r col))
  rw [he]
  exact out5_apply (B0 V c (tt t)) (B1 V c (tt t)) (B2 V c (tt t)) (b3 V c) (b4 V c) r col

/-- What point t writes back to the keep array is rows 5000·t … of G6. -/
theorem flushed6_eq (c : Dev nD) (t : Fin cfg1.N) :
    (dat1 V c).flushed 6 t = ((cfg1.win 6).blk t).view.read (Elt Ideal) (G6 V c) := by
  obtain ⟨-, -, -, -, -, -, -, -, -, -, -, e0, e1, -⟩ := idx1 t
  show (cfg1.win 6).cut (grid1.coords t) ((dat1 V c).after 6 t) = _
  rw [after1_6, blk0_eq, blk1_eq, blk2_eq, blk3_eq, blk4_eq]
  funext y
  obtain ⟨r, z, rfl⟩ : ∃ (r : Fin 5000) (z : Fin 1), y = ix2 r z := ⟨y 0, y 1, eq_ix2 y⟩
  have he : ((cfg1.win 6).blk t).view.emb (ix2 r z) = ix2 (Spec.nIx (tt t) r) z := by
    funext a
    apply Fin.ext
    match a with
    | ⟨0, _⟩ => show win1_6.index t (0 : Fin 2) * 5000 + 1 * r.val = 5000 * t.val + r.val; rw [e0]; omega
    | ⟨1, _⟩ => show win1_6.index t (1 : Fin 2) * 1 + 1 * z.val = z.val; rw [e1]; omega
  show out1_6 (B0 V c (tt t)) (B1 V c (tt t)) (B2 V c (tt t)) (b3 V c) (b4 V c) (ix2 r z)
    = G6 V c (((cfg1.win 6).blk t).view.emb (ix2 r z))
  rw [he]
  exact out6_apply (B0 V c (tt t)) (B1 V c (tt t)) (B2 V c (tt t)) (b3 V c) (b4 V c) r z

/-- What point t writes back to the statistics array is tile t of G7. -/
theorem flushed7_eq (c : Dev nD) (t : Fin cfg1.N) :
    (dat1 V c).flushed 7 t = ((cfg1.win 7).blk t).view.read (Elt Ideal) (G7 V c) := by
  obtain ⟨-, -, -, -, -, -, -, -, -, -, -, -, -, e0, e1, e2⟩ := idx1 t
  show (cfg1.win 7).cut (grid1.coords t) ((dat1 V c).after 7 t) = _
  rw [after1_7, blk0_eq, blk1_eq, blk2_eq, blk3_eq, blk4_eq]
  funext y
  obtain ⟨z, j, k, rfl⟩ : ∃ (z : Fin 1) (j : Fin 8) (k : Fin 128), y = ix3 z j k := ⟨y 0, y 1, y 2, eq_ix3 y⟩
  have he : ((cfg1.win 7).blk t).view.emb (ix3 z j k) = ix3 (tt t) j k := by
    funext a
    apply Fin.ext
    match a with
    | ⟨0, _⟩ => show win1_7.index t (0 : Fin 3) * 1 + 1 * z.val = t.val; rw [e0]; have := z.isLt; omega
    | ⟨1, _⟩ => show win1_7.index t (1 : Fin 3) * 8 + 1 * j.val = j.val; rw [e1]; omega
    | ⟨2, _⟩ => show win1_7.index t (2 : Fin 3) * 128 + 1 * k.val = k.val; rw [e2]; omega
  show out1_7 (B0 V c (tt t)) (B1 V c (tt t)) (B2 V c (tt t)) (b3 V c) (b4 V c) (ix3 z j k)
    = G7 V c (((cfg1.win 7).blk t).view.emb (ix3 z j k))
  rw [he, G7_apply]
  have hz : z = 0 := Fin.ext (by have := z.isLt; omega)
  rw [hz]

/-- Every row of the new table lies in the block of the point its row number divided by 5000 names. -/
theorem cover5 (i : S50000x10.Idx) :
    ∃ t : Fin cfg1.N, (cfg1.win 5).flush t = true ∧ i ∈ ((cfg1.win 5).blk t).view.set := by
  have hi0 : (i 0).val < 50000 := (i 0).isLt
  have hi1 : (i 1).val < 10 := (i 1).isLt
  have hN : cfg1.N = 10 := N_1
  have ht : (i 0).val / 5000 < cfg1.N := by rw [hN]; omega
  obtain ⟨-, -, -, -, -, -, -, -, -, e0, e1, -⟩ := idx1 ⟨(i 0).val / 5000, ht⟩
  refine ⟨⟨(i 0).val / 5000, ht⟩, flush1_5 _, ?_⟩
  show i ∈ ((View.whole main_v18_0).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 10 ≤ (i 1).val
      ∧ (i 1).val < win1_5.index ⟨(i 0).val / 5000, ht⟩ (1 : Fin 2) * 10 + 10
    rw [e1]; omega

theorem cover6 (i : S50000x1.Idx) :
    ∃ t : Fin cfg1.N, (cfg1.win 6).flush t = true ∧ i ∈ ((cfg1.win 6).blk t).view.set := by
  have hi0 : (i 0).val < 50000 := (i 0).isLt
  have hi1 : (i 1).val < 1 := (i 1).isLt
  have hN : cfg1.N = 10 := N_1
  have ht : (i 0).val / 5000 < cfg1.N := by rw [hN]; omega
  obtain ⟨-, -, -, -, -, -, -, -, -, -, -, e0, e1, -⟩ := idx1 ⟨(i 0).val / 5000, ht⟩
  refine ⟨⟨(i 0).val / 5000, ht⟩, flush1_6 _, ?_⟩
  show i ∈ ((View.whole main_v18_1).slice (win1_6.rect ⟨(i 0).val / 5000, ht⟩)).set
  rw [View.set_slice_whole, Rect.mem_set_unit]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 1 ≤ (i 1).val
      ∧ (i 1).val < win1_6.index ⟨(i 0).val / 5000, ht⟩ (1 : Fin 2) * 1 + 1
    rw [e1]; omega

theorem cover7 (i : S10x8x128.Idx) :
    ∃ t : Fin cfg1.N, (cfg1.win 7).flush t = true ∧ i ∈ ((cfg1.win 7).blk t).view.set := by
  have hi0 : (i 0).val < 10 := (i 0).isLt
  have hi1 : (i 1).val < 8 := (i 1).isLt
  have hi2 : (i 2).val < 128 := (i 2).isLt
  have hN : cfg1.N = 10 := N_1
  have ht : (i 0).val < cfg1.N := by rw [hN]; omega
  obtain ⟨-, -, -, -, -, -, -, -, -, -, -, -, -, e0, e1, e2⟩ := idx1 ⟨(i 0).val, ht⟩
  refine ⟨⟨(i 0).val, ht⟩, flush1_7 _, ?_⟩
  show i ∈ ((View.whole main_v18_2).slice (win1_7.rect ⟨(i 0).val, ht⟩)).set
  rw [View.set_slice_whole, Rect.mem_set_unit]
  intro a
  match a with
  | ⟨0, _⟩ =>
    show win1_7.index ⟨(i 0).val, ht⟩ (0 : Fin 3) * 1 ≤ (i 0).val ∧ (i 0).val < win1_7.index ⟨(i 0).val, ht⟩ (0 : Fin 3) * 1 + 1
    rw [e0]; show (i 0).val * 1 ≤ (i 0).val ∧ (i 0).val < (i 0).val * 1 + 1; omega
  | ⟨1, _⟩ =>
    show win1_7.index ⟨(i 0).val, ht⟩ (1 : Fin 3) * 8 ≤ (i 1).val ∧ (i 1).val < win1_7.index ⟨(i 0).val, ht⟩ (1 : Fin 3) * 8 + 8
    rw [e1]; omega
  | ⟨2, _⟩ =>
    show win1_7.index ⟨(i 0).val, ht⟩ (2 : Fin 3) * 128 ≤ (i 2).val ∧ (i 2).val < win1_7.index ⟨(i 0).val, ht⟩ (2 : Fin 3) * 128 + 128
    rw [e2]; omega

/-- The ten points' blocks tile each output array, so each ends as its function of the entry contents. -/
theorem final5 (c : Dev nD) : o5 V c = G5 V c :=
  (dat1 V c).arrAt_eq_of_cover 5 (G5 V c) (fun t _ => flushed5_eq V c t) cover5
theorem final6 (c : Dev nD) : o6 V c = G6 V c :=
  (dat1 V c).arrAt_eq_of_cover 6 (G6 V c) (fun t _ => flushed6_eq V c t) cover6
theorem final7 (c : Dev nD) : o7 V c = G7 V c :=
  (dat1 V c).arrAt_eq_of_cover 7 (G7 V c) (fun t _ => flushed7_eq V c t) cover7

/-- Entry (n, col) of the new node table. -/
theorem o5_apply (c : Dev nD) (n : Fin 50000) (col : Fin 10) :
    o5 V c (ix2 n col) = Spec.nNew (xr V c n) (cr V c n) (zr V c n) (b3 V c) (b4 V c) col := by
  rw [final5]

/-- Entry (n, 0) of the keep array: the keep bit as 0 or 1. -/
theorem o6_apply (c : Dev nD) (n : Fin 50000) :
    o6 V c (ix2 n 0) = Spec.bitR (Spec.nKeep (xr V c n) (cr V c n)) := by
  rw [final6]

/-- Entry (t, 0, 0) of the statistics array: block t's border terms summed. -/
theorem o7_border (c : Dev nD) (t : Fin 10) :
    o7 V c (ix3 t 0 0) = ∑ q : Fin 5000, ∑ a : Fin 2,
      Spec.nBorder (xr V c (Spec.nIx t q)) (cr V c (Spec.nIx t q)) (b3 V c) (b4 V c) a := by
  rw [final7, G7_apply]
  exact out7_border (B0 V c t) (B1 V c t) (B2 V c t) (b3 V c) (b4 V c) 0

/-- Entry (t, 0, 1): block t's dead bits summed. -/
theorem o7_dead (c : Dev nD) (t : Fin 10) :
    o7 V c (ix3 t 0 1) = ∑ q : Fin 5000, Spec.bitR (Spec.nDead (xr V c (Spec.nIx t q)) (cr V c (Spec.nIx t q))) := by
  rw [final7, G7_apply]
  exact out7_dead (B0 V c t) (B1 V c t) (B2 V c t) (b3 V c) (b4 V c) 0

/-- Entry (t, 0, 2): block t's consumed bits summed. -/
theorem o7_consumed (c : Dev nD) (t : Fin 10) :
    o7 V c (ix3 t 0 2) = ∑ q : Fin 5000, Spec.bitR (Spec.nConsumed (xr V c (Spec.nIx t q)) (cr V c (Spec.nIx t q))) := by
  rw [final7, G7_apply]
  exact out7_consumed (B0 V c t) (B1 V c t) (B2 V c t) (b3 V c) (b4 V c) 0

/-- Entries (t, 0, 3) and (t, 0, 4): block t's absolute new velocities summed, per axis. -/
theorem o7_vel (c : Dev nD) (t : Fin 10) (a : Fin 2) :
    o7 V c (ix3 t 0 ((Fin.natAdd 3 a).castLE (by decide))) = ∑ q : Fin 5000,
      Spec.absE (Spec.nVel (xr V c (Spec.nIx t q)) (cr V c (Spec.nIx t q)) (b3 V c) (b4 V c) a) := by
  rw [final7, G7_apply]
  exact out7_vel (B0 V c t) (B1 V c t) (B2 V c t) (b3 V c) (b4 V c) 0 a

end Cert.KernelIdeal.NodeV

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.LibGatherCols.lean ====
/-
  A host gather of whole columns of a matrix, read at one element, for any extents.

  The operand is a [D × N] matrix, the start indices an [n × 1] column of column numbers, the result the [D × n] matrix
  whose column p is the operand's column numbered by row p of the start indices.  A gather reads each number signed
  and clamps it into the operand, so a negative number reads column 0 and one past the end reads the last column.
-/
import Idealize.ShloMosaic.PureOps.Ideal
import Idealize.ShloMosaic.PureOps.Contract
import Idealize.ShloMosaic.Lib.ValueIdx
import Idealize.ShloMosaic.Lib.StableHlo.Predicate

noncomputable section

namespace Cert.LibSG

open Idealize.ShloMosaic Idealize.ShloMosaic.ValueIdx Idealize.ShloMosaic.StableHlo.Predicate

/-- Columns gathered from a [D × N] matrix at an [n × 1] column of column numbers: entry (f, p) of the result is the
    matrix's entry (f, row p's number read signed and clamped into [0, N − 1]).  The operand's axis 0 is kept whole (the
    result's one offset axis), its axis 1 is collapsed and is the one the start index names. -/
theorem gather_cols {α : Type} {N D n w : ℕ} (d : GatherDims ⟨2, ![D, N]⟩ ⟨2, ![n, 1]⟩ ⟨2, ![D, n]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![D, 1])
    (x : (⟨2, ![D, N]⟩ : Shape).Idx → α) (idx : IVec ⟨2, ![n, 1]⟩ w) (f : Fin D) (p : Fin n) (hN : 0 < N) :
    Host.gather d x idx (ix2 f p) = x (ix2 f (⟨min (idx (ixP p)).toInt.toNat (N - 1), by omega⟩ : Fin N)) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    -- the kept axis: no start, no batching; the offset coordinate is the result's coordinate on its offset axis
    show GatherDims.start _ _ idx 0 + GatherDims.batchCoord _ _ 0 + GatherDims.offCoord _ _ 0 = _
    rw [GatherDims.batchCoord_eq_zero _ _ _ List.not_mem_nil]
    unfold GatherDims.start
    rw [dif_neg (show (0 : Fin 2) ∉ [1] by decide)]
    simp only [Nat.zero_add]
    rfl
  | ⟨1, _⟩ =>
    -- the collapsed axis: the clamped start alone; the start index is read at row p of the column
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![D, N]⟩) (si := ⟨2, ![n, 1]⟩) (t := ⟨2, ![D, n]⟩) [0] [1] [] [] [1] 1 ![D, 1] wf).siIdx (ix2 f p) c = ixP p := by
      intro c
      funext b; refine Fin.ext ?_
      match b with
      | ⟨0, _⟩ => rfl
      | ⟨1, _⟩ => exact Nat.lt_one_iff.mp c.isLt
    rw [hsi]
    rfl

end Cert.LibSG

end
-- ==== Proof.Host0.lean ====
/-
  The three arrays the host gathers for the edge kernel, read at one element.  The node table is transposed, two row
  ranges are cut from it, and each of the three is gathered along its node axis at the edge end points (negative
  numbers wrapped, out-of-range numbers filled with a not-a-number word).  When every end point is a node number the
  wrap and the fill never apply, and column e of a gathered array is the row of the node that edge e points at.

  Each gather is one stretch of twenty-three host operations.  It is read in three pieces, each from arbitrary buffer
  contents: the first eight operations leave the wrapped end points as a column, the next ten the bounds mask of that
  column, the last five the selected gather.  Put together a stretch leaves one term, `takeCols`, of the array it
  gathers from and the end points; the term is then read at one element.
-/
import proofs.«426050_j60911226191976_3_alg».proof.Proof.Gen.KernelIdeal.Frame
import proofs.«426050_j60911226191976_3_alg».proof.Proof.Spec
import proofs.«426050_j60911226191976_3_alg».proof.Proof.Decode
import proofs.«426050_j60911226191976_3_alg».proof.Proof.EdgeVal
import proofs.«426050_j60911226191976_3_alg».proof.Proof.LibScatterGather
import proofs.«426050_j60911226191976_3_alg».proof.Proof.LibGatherCols
import Idealize.ShloMosaic.Lib.ReduceAll
import Idealize.ShloMosaic.Lib.ValueIdx
import Idealize.ShloMosaic.Lib.Pipeline.Value
import Idealize.ShloMosaic.Lib.StableHlo.Run
import Idealize.ShloMosaic.Lib.StableHlo.Predicate

set_option maxRecDepth 16384

noncomputable section

open scoped BigOperators

namespace Cert.KernelIdeal.Host0

open Cert.KernelIdeal Cert.KernelIdeal.Gen Idealize.ShloMosaic Idealize.ShloMosaic.TcCoe Idealize.ShloMosaic.ValueIdx Idealize.SL.Sem

/-! ## The take along the node axis, as one term and at one element -/

section Take

open Idealize.ShloMosaic.StableHlo.Predicate (ixP)

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduce by `and` from 1 of a mask that is 1 everywhere is 1 at every result index. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_ones x _ fun n _ => hx n

/-- "Less than zero", read signed, of a word that is not negative is 0. -/
theorem slt_zero (x : BitVec 32) (h : 0 ≤ x.toInt) : IntOp.cmpi .slt x 0#32 = 0#1 := by
  rcases BitVec.eq_zero_or_eq_one (IntOp.cmpi .slt x 0#32) with e | e
  · exact e
  · have h1 := IntOp.cmpi_slt.1 e
    have h0 : (0#32 : BitVec 32).toInt = 0 := by decide
    omega

variable {F : FTy → Type} [FloatOps F]

/-- The edge end points as the gather's start indices: a negative number wrapped by the node count, the vector laid
    out as an [edges × 1] column. -/
def wrapCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 50000#32))) v)

/-- The bounds mask of a column of start indices: 1 where the index, read signed, lies in [0, 49999]. -/
def inBounds (i : IVec S3200000x1 32) : IVec S3200000 1 :=
  Host.reduce IntOp.andi
    (andi (cmpi .sge i (broadcastInDim S3200000x1 ![] bcast_S_S3200000x1 (constantI S_ 32 0#32)))
      (cmpi .sle i (broadcastInDim S3200000x1 ![0, 1] bcast_S1x1_S3200000x1_0_1
        (broadcastInDim S1x1 ![1] bcast_S1_S1x1_1 (constantI S1 32 49999#32)))))
    (constantI S_ 1 1#1) reducesTo_S3200000x1_S3200000_d1 h_S_

/-- The last step of a take: the columns of a [D × nodes] array gathered at a column of start indices where a mask is
    set, a not-a-number word elsewhere. -/
def takeSel {D : ℕ} (d : GatherDims ⟨2, ![D, 50000]⟩ S3200000x1 ⟨2, ![D, 3200000]⟩)
    (hb : S3200000.BroadcastsInDim ⟨2, ![D, 3200000]⟩ ![1]) (hn : S_.BroadcastsInDim ⟨2, ![D, 3200000]⟩ ![])
    (mask : IVec S3200000 1) (x : FVec F ⟨2, ![D, 50000]⟩ .f32) (i : IVec S3200000x1 32) : FVec F ⟨2, ![D, 3200000]⟩ .f32 :=
  select (broadcastInDim ⟨2, ![D, 3200000]⟩ ![1] hb mask) (Host.gather d x i)
    (broadcastInDim ⟨2, ![D, 3200000]⟩ ![] hn (constant S_ .f32 0x7FC00000#32))

/-- The take of columns of a [D × nodes] array at the edge end points: the columns gathered at the wrapped end points
    where those are in bounds, a not-a-number word elsewhere. -/
def takeCols {D : ℕ} (d : GatherDims ⟨2, ![D, 50000]⟩ S3200000x1 ⟨2, ![D, 3200000]⟩)
    (hb : S3200000.BroadcastsInDim ⟨2, ![D, 3200000]⟩ ![1]) (hn : S_.BroadcastsInDim ⟨2, ![D, 3200000]⟩ ![])
    (x : FVec F ⟨2, ![D, 50000]⟩ .f32) (v : IVec S3200000 32) : FVec F ⟨2, ![D, 3200000]⟩ .f32 :=
  takeSel d hb hn (inBounds (wrapCol v)) x (wrapCol v)

/-- A word that, read signed, is a node number is not negative, so the wrap leaves it: row i of the column is word i. -/
theorem wrapCol_apply (v : IVec S3200000 32) (hv : Spec.InR v) (i : S3200000x1.Idx) (e : Fin 3200000)
    (he : e.val = (i 0).val) : wrapCol v i = v (ix1 e) := by
  unfold wrapCol
  refine (broadcastInDim_apply ![0] bcast_S3200000_S3200000x1_0 _ i (ix1 e)
    (fun a => match a with | ⟨0, _⟩ => by exact he)).trans ?_
  have h0 := (hv e).1
  show Scalar.select (IntOp.cmpi .slt (v (ix1 e)) 0#32) (IntOp.addi (v (ix1 e)) 50000#32) (v (ix1 e)) = _
  rw [slt_zero _ h0, select_zero]

/-- The bounds mask of a column whose every word, read signed, lies in [0, 49999] is 1 everywhere. -/
theorem inBounds_ones (c : IVec S3200000x1 32) (hc : ∀ i, 0 ≤ (c i).toInt ∧ (c i).toInt ≤ 49999) (j : S3200000.Idx) :
    inBounds c j = 1#1 := by
  unfold inBounds
  refine reduce_andi_ones _ _ _ _ j rfl fun i => ?_
  show IntOp.andi (IntOp.cmpi .sge (c i) 0#32) (IntOp.cmpi .sle (c i) 49999#32) = 1#1
  have h0 : (0#32 : BitVec 32).toInt = 0 := by decide
  have h1 : (49999#32 : BitVec 32).toInt = 49999 := by decide
  have := hc i
  exact IntOp.andi_eq_one.2 ⟨IntOp.cmpi_sge.2 (by omega), IntOp.cmpi_sle.2 (by omega)⟩

/-- When every end point is a node number the take is the plain gather: entry (k, e) is the array's entry (k, node of
    edge e).  The wrap is the identity, the mask is 1, and the gather's clamp of a node number is that number. -/
theorem takeCols_apply {D : ℕ} (d : GatherDims ⟨2, ![D, 50000]⟩ S3200000x1 ⟨2, ![D, 3200000]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![D, 1])
    (hb : S3200000.BroadcastsInDim ⟨2, ![D, 3200000]⟩ ![1]) (hn : S_.BroadcastsInDim ⟨2, ![D, 3200000]⟩ ![])
    (x : FVec F ⟨2, ![D, 50000]⟩ .f32) (v : IVec S3200000 32) (hv : Spec.InR v) (k : Fin D) (e : Fin 3200000) :
    takeCols d hb hn x v (ix2 k e) = x (ix2 k (Spec.dec v hv e)) := by
  have hc : ∀ i, 0 ≤ (wrapCol v i).toInt ∧ (wrapCol v i).toInt ≤ 49999 := fun i => by
    obtain ⟨e', he'⟩ : ∃ e' : Fin 3200000, e'.val = (i 0).val := ⟨⟨(i 0).val, (i 0).isLt⟩, rfl⟩
    rw [wrapCol_apply v hv i e' he']
    have := hv e'
    omega
  have hw : wrapCol v (ixP e) = v (ix1 e) := wrapCol_apply v hv (ixP e) e rfl
  have hm : broadcastInDim ⟨2, ![D, 3200000]⟩ ![1] hb (inBounds (wrapCol v)) (ix2 k e) = 1#1 := inBounds_ones _ hc _
  unfold takeCols takeSel
  show Scalar.select (broadcastInDim ⟨2, ![D, 3200000]⟩ ![1] hb (inBounds (wrapCol v)) (ix2 k e))
    (Host.gather d x (wrapCol v) (ix2 k e)) _ = _
  rw [hm, select_one, Cert.LibSG.gather_cols d hoff hcoll hob hsb hsim hivd hss x (wrapCol v) k e (by decide)]
  refine congrArg x (congrArg (ix2 k) (Fin.ext ?_))
  show min (wrapCol v (ixP e)).toInt.toNat (50000 - 1) = (v (ix1 e)).toInt.toNat
  rw [hw]
  have := hv e
  omega

end Take

/-! ## The fold walked: what each stretch of host operations leaves, from any buffer contents -/

section Walk

-- the closing comparisons below are between terms that agree operation by operation: the three big operations are
-- never opened (opened, a reduce enumerates every index of its operand)
attribute [local irreducible] Host.reduce Host.gather broadcastInDim

/-- A stretch cut at operation n: the contents after the whole are the contents after the rest, from the contents after
    the first n. -/
theorem after_split {Val : EltTy → Type} (l : List (HloOp τ sig Val)) (n : ℕ) (V : Valuation τ sig Val) :
    StableHlo.after l V = StableHlo.after (l.drop n) (StableHlo.after (l.take n) V) := by
  rw [← StableHlo.after_append, List.take_append_drop]

/-- Writes out a piece of a stretch (its first n operations, or what follows them) as the list it is. -/
macro "chunk_lit" : tactic =>
  `(tactic| simp only [hostOps0_1, hostOps0_2, hostOps0_3, List.take_succ_cons, List.take_zero, List.drop_succ_cons,
      List.drop_zero])

/-- A buffer that no operation of a stretch (or of a piece of one) writes keeps its contents through it: the operations
    are listed and each one's result buffer is told apart from the buffer in hand. -/
macro "not_written" : tactic =>
  `(tactic| (refine StableHlo.after_of_forall_not_mem _ _ (List.forall_iff_forall_mem.mp ?_)
             simp only [hostOps0, hostOps0_1, hostOps0_2, hostOps0_3, List.take_succ_cons, List.take_zero,
               List.drop_succ_cons, List.drop_zero, List.Forall, StableHlo.nullary_writes, StableHlo.unary_writes,
               StableHlo.binary_writes, StableHlo.ternary_writes, Finset.mem_singleton]
             repeat' apply And.intro
             all_goals exact StableHlo.devRef_ne_of_ne (by decide)))

variable {F : FTy → Type} [FloatOps F] (X : Valuation τ sig (Elt F))

/-! ### The first stretch: the node table transposed, the position rows and the flag row cut from the transpose -/

theorem after0_v0 : StableHlo.after (hostOps0 (F := F)) X (Proc.devRef .tc main_v0)
    = (transpose S10x50000 [1, 0] (X (Proc.devRef .tc main_arg0)) transposes_S50000x10_S10x50000_1_0 : FVec F S10x50000 .f32) := by
  after_results_simp
theorem after0_v1 : StableHlo.after (hostOps0 (F := F)) X (Proc.devRef .tc main_v1)
    = (extractStridedSlice S2x50000 ![0, 0]
        (transpose S10x50000 [1, 0] (X (Proc.devRef .tc main_arg0)) transposes_S50000x10_S10x50000_1_0 : FVec F S10x50000 .f32)
        slices_S10x50000_S2x50000_0_0 : FVec F S2x50000 .f32) := by
  after_results_simp
theorem after0_v2 : StableHlo.after (hostOps0 (F := F)) X (Proc.devRef .tc main_v2)
    = (extractStridedSlice S1x50000 ![4, 0]
        (transpose S10x50000 [1, 0] (X (Proc.devRef .tc main_arg0)) transposes_S50000x10_S10x50000_1_0 : FVec F S10x50000 .f32)
        slices_S10x50000_S1x50000_4_0 : FVec F S1x50000 .f32) := by
  after_results_simp

/-! ### What each stretch leaves alone, of the buffers read further on -/

theorem keep0_arg1 : StableHlo.after (hostOps0 (F := F)) X (Proc.devRef .tc main_arg1) = X (Proc.devRef .tc main_arg1) := by not_written
theorem keep0_arg2 : StableHlo.after (hostOps0 (F := F)) X (Proc.devRef .tc main_arg2) = X (Proc.devRef .tc main_arg2) := by not_written
theorem keep1_v1 : StableHlo.after (hostOps0_1 (F := F)) X (Proc.devRef .tc main_v1) = X (Proc.devRef .tc main_v1) := by not_written
theorem keep1_v2 : StableHlo.after (hostOps0_1 (F := F)) X (Proc.devRef .tc main_v2) = X (Proc.devRef .tc main_v2) := by not_written
theorem keep1_arg2 : StableHlo.after (hostOps0_1 (F := F)) X (Proc.devRef .tc main_arg2) = X (Proc.devRef .tc main_arg2) := by not_written
theorem keep2_v2 : StableHlo.after (hostOps0_2 (F := F)) X (Proc.devRef .tc main_v2) = X (Proc.devRef .tc main_v2) := by not_written
theorem keep2_arg2 : StableHlo.after (hostOps0_2 (F := F)) X (Proc.devRef .tc main_arg2) = X (Proc.devRef .tc main_arg2) := by not_written
theorem keep2_v3 : StableHlo.after (hostOps0_2 (F := F)) X (Proc.devRef .tc main_v3) = X (Proc.devRef .tc main_v3) := by not_written
theorem keep3_v3 : StableHlo.after (hostOps0_3 (F := F)) X (Proc.devRef .tc main_v3) = X (Proc.devRef .tc main_v3) := by not_written
theorem keep3_v4 : StableHlo.after (hostOps0_3 (F := F)) X (Proc.devRef .tc main_v4) = X (Proc.devRef .tc main_v4) := by not_written

/-! ### The take of the transposed table at the source end points: `hostOps0_1` -/

/-- Its first eight operations leave the wrapped end points as a column. -/
theorem body1_v5 : StableHlo.after ((hostOps0_1 (F := F)).take 8) X (Proc.devRef .tc main_call0_v5)
    = wrapCol (X (Proc.devRef .tc main_arg1)) := by
  chunk_lit
  after_results_simp
  rfl
theorem body1_A_opnd : StableHlo.after ((hostOps0_1 (F := F)).take 8) X (Proc.devRef .tc main_v0) = X (Proc.devRef .tc main_v0) := by
  not_written

/-- Its next ten operations leave the bounds mask of that column. -/
theorem body1_v12 : StableHlo.after (((hostOps0_1 (F := F)).drop 8).take 10) X (Proc.devRef .tc main_call0_v12)
    = inBounds (X (Proc.devRef .tc main_call0_v5)) := by
  chunk_lit
  after_results_simp
  rfl
theorem body1_B_v5 : StableHlo.after (((hostOps0_1 (F := F)).drop 8).take 10) X (Proc.devRef .tc main_call0_v5) = X (Proc.devRef .tc main_call0_v5) := by
  not_written
theorem body1_B_opnd : StableHlo.after (((hostOps0_1 (F := F)).drop 8).take 10) X (Proc.devRef .tc main_v0) = X (Proc.devRef .tc main_v0) := by
  not_written

/-- Its last five operations gather the array's columns at the column of indices and select by the mask. -/
theorem body1_res : StableHlo.after (((hostOps0_1 (F := F)).drop 8).drop 10) X (Proc.devRef .tc main_v3)
    = (takeSel gather_S10x50000_S3200000x1_S10x3200000_0_1_n_n_1_1_101 bcast_S3200000_S10x3200000_1 bcast_S_S10x3200000
        (X (Proc.devRef .tc main_call0_v12)) (X (Proc.devRef .tc main_v0)) (X (Proc.devRef .tc main_call0_v5)) : FVec F S10x3200000 .f32) := by
  chunk_lit
  after_results_simp
  rfl

/-- The whole stretch leaves the take of the array's columns at the end points. -/
theorem body1 : StableHlo.after (hostOps0_1 (F := F)) X (Proc.devRef .tc main_v3)
    = (takeCols gather_S10x50000_S3200000x1_S10x3200000_0_1_n_n_1_1_101 bcast_S3200000_S10x3200000_1 bcast_S_S10x3200000
        (X (Proc.devRef .tc main_v0)) (X (Proc.devRef .tc main_arg1)) : FVec F S10x3200000 .f32) := by
  rw [after_split hostOps0_1 8, after_split (hostOps0_1.drop 8) 10, body1_res, body1_v12, body1_B_v5, body1_B_opnd,
    body1_v5, body1_A_opnd]
  rfl

/-! ### The take of the position rows at the destination end points: `hostOps0_2` -/

/-- Its first eight operations leave the wrapped end points as a column. -/
theorem body2_v5 : StableHlo.after ((hostOps0_2 (F := F)).take 8) X (Proc.devRef .tc main_call1_v5)
    = wrapCol (X (Proc.devRef .tc main_arg2)) := by
  chunk_lit
  after_results_simp
  rfl
theorem body2_A_opnd : StableHlo.after ((hostOps0_2 (F := F)).take 8) X (Proc.devRef .tc main_v1) = X (Proc.devRef .tc main_v1) := by
  not_written

/-- Its next ten operations leave the bounds mask of that column. -/
theorem body2_v12 : StableHlo.after (((hostOps0_2 (F := F)).drop 8).take 10) X (Proc.devRef .tc main_call1_v12)
    = inBounds (X (Proc.devRef .tc main_call1_v5)) := by
  chunk_lit
  after_results_simp
  rfl
theorem body2_B_v5 : StableHlo.after (((hostOps0_2 (F := F)).drop 8).take 10) X (Proc.devRef .tc main_call1_v5) = X (Proc.devRef .tc main_call1_v5) := by
  not_written
theorem body2_B_opnd : StableHlo.after (((hostOps0_2 (F := F)).drop 8).take 10) X (Proc.devRef .tc main_v1) = X (Proc.devRef .tc main_v1) := by
  not_written

/-- Its last five operations gather the array's columns at the column of indices and select by the mask. -/
theorem body2_res : StableHlo.after (((hostOps0_2 (F := F)).drop 8).drop 10) X (Proc.devRef .tc main_v4)
    = (takeSel gather_S2x50000_S3200000x1_S2x3200000_0_1_n_n_1_1_21 bcast_S3200000_S2x3200000_1 bcast_S_S2x3200000
        (X (Proc.devRef .tc main_call1_v12)) (X (Proc.devRef .tc main_v1)) (X (Proc.devRef .tc main_call1_v5)) : FVec F S2x3200000 .f32) := by
  chunk_lit
  after_results_simp
  rfl

/-- The whole stretch leaves the take of the array's columns at the end points. -/
theorem body2 : StableHlo.after (hostOps0_2 (F := F)) X (Proc.devRef .tc main_v4)
    = (takeCols gather_S2x50000_S3200000x1_S2x3200000_0_1_n_n_1_1_21 bcast_S3200000_S2x3200000_1 bcast_S_S2x3200000
        (X (Proc.devRef .tc main_v1)) (X (Proc.devRef .tc main_arg2)) : FVec F S2x3200000 .f32) := by
  rw [after_split hostOps0_2 8, after_split (hostOps0_2.drop 8) 10, body2_res, body2_v12, body2_B_v5, body2_B_opnd,
    body2_v5, body2_A_opnd]
  rfl

/-! ### The take of the flag row at the destination end points: `hostOps0_3` -/

/-- Its first eight operations leave the wrapped end points as a column. -/
theorem body3_v5 : StableHlo.after ((hostOps0_3 (F := F)).take 8) X (Proc.devRef .tc main_call2_v5)
    = wrapCol (X (Proc.devRef .tc main_arg2)) := by
  chunk_lit
  after_results_simp
  rfl
theorem body3_A_opnd : StableHlo.after ((hostOps0_3 (F := F)).take 8) X (Proc.devRef .tc main_v2) = X (Proc.devRef .tc main_v2) := by
  not_written

/-- Its next ten operations leave the bounds mask of that column. -/
theorem body3_v12 : StableHlo.after (((hostOps0_3 (F := F)).drop 8).take 10) X (Proc.devRef .tc main_call2_v12)
    = inBounds (X (Proc.devRef .tc main_call2_v5)) := by
  chunk_lit
  after_results_simp
  rfl
theorem body3_B_v5 : StableHlo.after (((hostOps0_3 (F := F)).drop 8).take 10) X (Proc.devRef .tc main_call2_v5) = X (Proc.devRef .tc main_call2_v5) := by
  not_written
theorem body3_B_opnd : StableHlo.after (((hostOps0_3 (F := F)).drop 8).take 10) X (Proc.devRef .tc main_v2) = X (Proc.devRef .tc main_v2) := by
  not_written

/-- Its last five operations gather the array's columns at the column of indices and select by the mask. -/
theorem body3_res : StableHlo.after (((hostOps0_3 (F := F)).drop 8).drop 10) X (Proc.devRef .tc main_v5)
    = (takeSel gather_S1x50000_S3200000x1_S1x3200000_0_1_n_n_1_1_11 bcast_S3200000_S1x3200000_1 bcast_S_S1x3200000
        (X (Proc.devRef .tc main_call2_v12)) (X (Proc.devRef .tc main_v2)) (X (Proc.devRef .tc main_call2_v5)) : FVec F S1x3200000 .f32) := by
  chunk_lit
  after_results_simp
  rfl

/-- The whole stretch leaves the take of the array's columns at the end points. -/
theorem body3 : StableHlo.after (hostOps0_3 (F := F)) X (Proc.devRef .tc main_v5)
    = (takeCols gather_S1x50000_S3200000x1_S1x3200000_0_1_n_n_1_1_11 bcast_S3200000_S1x3200000_1 bcast_S_S1x3200000
        (X (Proc.devRef .tc main_v2)) (X (Proc.devRef .tc main_arg2)) : FVec F S1x3200000 .f32) := by
  rw [after_split hostOps0_3 8, after_split (hostOps0_3.drop 8) 10, body3_res, body3_v12, body3_B_v5, body3_B_opnd,
    body3_v5, body3_A_opnd]
  rfl

end Walk

/-! ## The three gathered arrays -/

variable (m : (ℓ : Loc nD τ sig) → Buf (Elt Ideal) ℓ) (ρ : Dev nD → PrngReg)

/-- The node table and the two index arrays as launched, at their literal types. -/
abbrev xA (c : Dev nD) : Vec Ideal S50000x10 .f32 := m ((c.tc : Thread nD τ).loc main_arg0)
abbrev srcA (c : Dev nD) : IVec S3200000 32 := m ((c.tc : Thread nD τ).loc main_arg1)
abbrev dstA (c : Dev nD) : IVec S3200000 32 := m ((c.tc : Thread nD τ).loc main_arg2)

/-- The transposed node table. -/
abbrev xT (c : Dev nD) : FVec Ideal S10x50000 .f32 :=
  transpose S10x50000 [1, 0] (xA m c) transposes_S50000x10_S10x50000_1_0

section Terms
-- the two sides of each equation below end up differing only in how the launch contents are spelt; the take itself
-- is never opened
attribute [local irreducible] takeCols

/-- The first gathered array is the take of the transposed table at the source end points. -/
theorem a0_term (c : Dev nD) : (EdgeV.a0 (V4 m ρ) c : FVec Ideal S10x3200000 .f32)
    = takeCols gather_S10x50000_S3200000x1_S10x3200000_0_1_n_n_1_1_101 bcast_S3200000_S10x3200000_1 bcast_S_S10x3200000
        (xT m c) (srcA m c) := by
  show StableHlo.after hostOps0_3 (StableHlo.after hostOps0_2 (StableHlo.after hostOps0_1 (StableHlo.after hostOps0 (W0 m ρ c))))
    (Proc.devRef .tc main_v3) = _
  rw [keep3_v3, keep2_v3, body1, after0_v0, keep0_arg1]

/-- The second is the take of the transpose's position rows at the destination end points. -/
theorem a1_term (c : Dev nD) : (EdgeV.a1 (V4 m ρ) c : FVec Ideal S2x3200000 .f32)
    = takeCols gather_S2x50000_S3200000x1_S2x3200000_0_1_n_n_1_1_21 bcast_S3200000_S2x3200000_1 bcast_S_S2x3200000
        (extractStridedSlice S2x50000 ![0, 0] (xT m c) slices_S10x50000_S2x50000_0_0) (dstA m c) := by
  show StableHlo.after hostOps0_3 (StableHlo.after hostOps0_2 (StableHlo.after hostOps0_1 (StableHlo.after hostOps0 (W0 m ρ c))))
    (Proc.devRef .tc main_v4) = _
  rw [keep3_v4, body2, keep1_v1, keep1_arg2, after0_v1, keep0_arg2]

/-- The third is the take of the transpose's flag row at the destination end points. -/
theorem a2_term (c : Dev nD) : (EdgeV.a2 (V4 m ρ) c : FVec Ideal S1x3200000 .f32)
    = takeCols gather_S1x50000_S3200000x1_S1x3200000_0_1_n_n_1_1_11 bcast_S3200000_S1x3200000_1 bcast_S_S1x3200000
        (extractStridedSlice S1x50000 ![4, 0] (xT m c) slices_S10x50000_S1x50000_4_0) (dstA m c) := by
  show StableHlo.after hostOps0_3 (StableHlo.after hostOps0_2 (StableHlo.after hostOps0_1 (StableHlo.after hostOps0 (W0 m ρ c))))
    (Proc.devRef .tc main_v5) = _
  rw [body3, keep2_v2, keep2_arg2, keep1_v2, keep1_arg2, after0_v2, keep0_arg2]

end Terms

/-- Entry (k, n) of the transposed table is entry (n, k) of the table. -/
theorem xT_apply (c : Dev nD) (k : Fin 10) (n : Fin 50000) : xT m c (ix2 k n) = xA m c (ix2 n k) :=
  transpose_apply [1, 0] (xA m c) transposes_S50000x10_S10x50000_1_0 (ix2 k n) (ix2 n k)
    (fun b => match b with | ⟨0, _⟩ => rfl | ⟨1, _⟩ => rfl)

/-- Column e of the gathered source rows is the source node's row. -/
theorem a0_apply (c : Dev nD) (hs : Spec.InR (srcA m c)) (k : Fin 10) (e : Fin 3200000) :
    EdgeV.a0 (V4 m ρ) c (ix2 k e) = xA m c (ix2 (Spec.dec (srcA m c) hs e) k) := by
  refine (congrFun (a0_term m ρ c) (ix2 k e)).trans ?_
  refine (takeCols_apply gather_S10x50000_S3200000x1_S10x3200000_0_1_n_n_1_1_101 rfl rfl rfl rfl rfl rfl rfl
    bcast_S3200000_S10x3200000_1 bcast_S_S10x3200000 (xT m c) (srcA m c) hs k e).trans ?_
  exact xT_apply m c k _

/-- Column e of the gathered destination positions is the destination node's position. -/
theorem a1_apply (c : Dev nD) (hd : Spec.InR (dstA m c)) (a : Fin 2) (e : Fin 3200000) :
    EdgeV.a1 (V4 m ρ) c (ix2 a e) = xA m c (ix2 (Spec.dec (dstA m c) hd e) (Fin.castLE (by decide) a)) := by
  refine (congrFun (a1_term m ρ c) (ix2 a e)).trans ?_
  refine (takeCols_apply gather_S2x50000_S3200000x1_S2x3200000_0_1_n_n_1_1_21 rfl rfl rfl rfl rfl rfl rfl
    bcast_S3200000_S2x3200000_1 bcast_S_S2x3200000 _ (dstA m c) hd a e).trans ?_
  refine (extractStridedSlice_apply ![0, 0] (xT m c) slices_S10x50000_S2x50000_0_0 (ix2 a (Spec.dec (dstA m c) hd e))
    (ix2 (Fin.castLE (by decide) a) (Spec.dec (dstA m c) hd e))
    (fun b => match b with
      | ⟨0, _⟩ => by show a.val = 0 + a.val; omega
      | ⟨1, _⟩ => by show (Spec.dec (dstA m c) hd e).val = 0 + (Spec.dec (dstA m c) hd e).val; omega)).trans ?_
  exact xT_apply m c _ _

/-- Column e of the gathered destination flags is the destination node's flag. -/
theorem a2_apply (c : Dev nD) (hd : Spec.InR (dstA m c)) (e : Fin 3200000) :
    EdgeV.a2 (V4 m ρ) c (ix2 0 e) = xA m c (ix2 (Spec.dec (dstA m c) hd e) 4) := by
  refine (congrFun (a2_term m ρ c) (ix2 0 e)).trans ?_
  refine (takeCols_apply gather_S1x50000_S3200000x1_S1x3200000_0_1_n_n_1_1_11 rfl rfl rfl rfl rfl rfl rfl
    bcast_S3200000_S1x3200000_1 bcast_S_S1x3200000 _ (dstA m c) hd 0 e).trans ?_
  refine (extractStridedSlice_apply ![4, 0] (xT m c) slices_S10x50000_S1x50000_4_0 (ix2 0 (Spec.dec (dstA m c) hd e))
    (ix2 4 (Spec.dec (dstA m c) hd e))
    (fun b => match b with
      | ⟨0, _⟩ => by show 4 = 4 + 0; rfl
      | ⟨1, _⟩ => by show (Spec.dec (dstA m c) hd e).val = 0 + (Spec.dec (dstA m c) hd e).val; omega)).trans ?_
  exact xT_apply m c _ _

end Cert.KernelIdeal.Host0

end
-- ==== Proof.Host12.lean ====
/-
  The host operations between the edge kernel and the node kernel, read at one element.  The node table, the noise and
  the readout weights pass from the launch to the node kernel untouched: no host operation and neither kernel writes
  them.  The statistics array's first two lanes are summed over the hundred blocks: the first sum, the number of
  food-source edges, is rounded to the nearest integer (ties to even) and converted to an integer word; the second, their
  summed length, is left as it is.  A host sum from the zero word is the exact sum of its operand's entries.
-/
import proofs.«426050_j60911226191976_3_alg».proof.Proof.Gen.KernelIdeal.Frame
import proofs.«426050_j60911226191976_3_alg».proof.Proof.Spec
import proofs.«426050_j60911226191976_3_alg».proof.Proof.Decode
import proofs.«426050_j60911226191976_3_alg».proof.Proof.EdgeVal
import proofs.«426050_j60911226191976_3_alg».proof.Proof.NodeVal
import proofs.«426050_j60911226191976_3_alg».proof.Proof.Host0
import proofs.«426050_j60911226191976_3_alg».proof.Proof.LibScatterGather
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Host12

open Cert.KernelIdeal Cert.KernelIdeal.Gen Idealize.ShloMosaic Idealize.ShloMosaic.TcCoe Idealize.ShloMosaic.ValueIdx Idealize.SL.Sem
open Cert.KernelIdeal.Host0 (xA srcA dstA)

variable (m : (ℓ : Loc nD τ sig) → Buf (Elt Ideal) ℓ) (ρ : Dev nD → PrngReg)

/-! ## Buffers that no stretch writes

A stretch of host operations leaves a buffer that none of its operations writes as it was; the edge kernel leaves every
buffer that is not one of its arrays as it was.  So at such a buffer the contents at the node kernel's entry are the
launch contents. -/

/-- One stretch, at a buffer none of its operations writes: every operation's written buffer differs from it. -/
local macro "skip_stretch" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := by skip_stretch hostOps1_2
    _ = W6 m ρ c (Proc.devRef .tc main_arg0) := by skip_stretch hostOps1_1
    _ = W5 m ρ c (Proc.devRef .tc main_arg0) := by skip_stretch hostOps1
    _ = W4 m ρ c (Proc.devRef .tc main_arg0) := W5_of_ne m ρ c main_arg0 (by decide)
    _ = W3 m ρ c (Proc.devRef .tc main_arg0) := by skip_stretch hostOps0_3
    _ = W2 m ρ c (Proc.devRef .tc main_arg0) := by skip_stretch hostOps0_2
    _ = W1 m ρ c (Proc.devRef .tc main_arg0) := by skip_stretch hostOps0_1
    _ = W0 m ρ c (Proc.devRef .tc main_arg0) := by skip_stretch hostOps0
    _ = m ((c : Thread nD τ).loc main_arg0) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := by skip_stretch hostOps1_2
    _ = W6 m ρ c (Proc.devRef .tc main_arg3) := by skip_stretch hostOps1_1
    _ = W5 m ρ c (Proc.devRef .tc main_arg3) := by skip_stretch hostOps1
    _ = W4 m ρ c (Proc.devRef .tc main_arg3) := W5_of_ne m ρ c main_arg3 (by decide)
    _ = W3 m ρ c (Proc.devRef .tc main_arg3) := by skip_stretch hostOps0_3
    _ = W2 m ρ c (Proc.devRef .tc main_arg3) := by skip_stretch hostOps0_2
    _ = W1 m ρ c (Proc.devRef .tc main_arg3) := by skip_stretch hostOps0_1
    _ = W0 m ρ c (Proc.devRef .tc main_arg3) := by skip_stretch hostOps0
    _ = m ((c : Thread nD τ).loc main_arg3) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := by skip_stretch hostOps1_2
    _ = W6 m ρ c (Proc.devRef .tc main_arg7) := by skip_stretch hostOps1_1
    _ = W5 m ρ c (Proc.devRef .tc main_arg7) := by skip_stretch hostOps1
    _ = W4 m ρ c (Proc.devRef .tc main_arg7) := W5_of_ne m ρ c main_arg7 (by decide)
    _ = W3 m ρ c (Proc.devRef .tc main_arg7) := by skip_stretch hostOps0_3
    _ = W2 m ρ c (Proc.devRef .tc main_arg7) := by skip_stretch hostOps0_2
    _ = W1 m ρ c (Proc.devRef .tc main_arg7) := by skip_stretch hostOps0_1
    _ = W0 m ρ c (Proc.devRef .tc main_arg7) := by skip_stretch hostOps0
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := by skip_stretch hostOps1_2
    _ = W6 m ρ c (Proc.devRef .tc main_arg8) := by skip_stretch hostOps1_1
    _ = W5 m ρ c (Proc.devRef .tc main_arg8) := by skip_stretch hostOps1
    _ = W4 m ρ c (Proc.devRef .tc main_arg8) := W5_of_ne m ρ c main_arg8 (by decide)
    _ = W3 m ρ c (Proc.devRef .tc main_arg8) := by skip_stretch hostOps0_3
    _ = W2 m ρ c (Proc.devRef .tc main_arg8) := by skip_stretch hostOps0_2
    _ = W1 m ρ c (Proc.devRef .tc main_arg8) := by skip_stretch hostOps0_1
    _ = W0 m ρ c (Proc.devRef .tc main_arg8) := by skip_stretch hostOps0
    _ = m ((c : Thread nD τ).loc main_arg8) := rfl

/-- The node table, the noise and the readout weights enter the node kernel as launched. -/
theorem b0_eq (c : Dev nD) : NodeV.b0 (V8 m ρ) c = m ((c.tc : Thread nD τ).loc main_arg0) := W8_main_arg0 m ρ c
theorem b2_eq (c : Dev nD) : NodeV.b2 (V8 m ρ) c = m ((c.tc : Thread nD τ).loc main_arg3) := W8_main_arg3 m ρ c
theorem b3_eq (c : Dev nD) : NodeV.b3 (V8 m ρ) c = m ((c.tc : Thread nD τ).loc main_arg7) := W8_main_arg7 m ρ c
theorem b4_eq (c : Dev nD) : NodeV.b4 (V8 m ρ) c = m ((c.tc : Thread nD τ).loc main_arg8) := W8_main_arg8 m ρ c

/-! ## A lane of the statistics array summed over the blocks -/

/-- A sum over the indices of a one-axis shape is the sum over the axis. -/
theorem sum_idx1 {n : ℕ} (x : (⟨1, ![n]⟩ : Shape).Idx → EReal) : ∑ i, x i = ∑ t : Fin n, x (ix1 t) :=
  (Fintype.sum_equiv ⟨ix1, fun j => j 0, fun _ => rfl, fun j => (eq_ix1 j).symm⟩ (fun t => x (ix1 t)) x (fun _ => rfl)).symm

/-- Lane (0, l) of an [N, 8, 128] statistics array cut out, flattened to [N] and summed by the host from the zero word:
    the sum of the lane over the N blocks. -/
theorem hostSum_lane {N : ℕ} (X : (⟨3, ![N, 8, 128]⟩ : Shape).Idx → EReal) (l : ℕ) (hl : l < 128)
    (hs : (⟨3, ![N, 8, 128]⟩ : Shape).Slices ![0, 0, l] ⟨3, ![N, 1, 1]⟩)
    (hc : (⟨3, ![N, 1, 1]⟩ : Shape).ShapeCasts ⟨1, ![N]⟩)
    (hr : (⟨1, ![N]⟩ : Shape).ReducesTo [0] ⟨0, ![]⟩) (hu : 0 < (⟨0, ![]⟩ : Shape).numel) :
    Host.reduceAdd (F := Ideal) (φ := .f32) (shapeCast ⟨1, ![N]⟩ (extractStridedSlice ⟨3, ![N, 1, 1]⟩ ![0, 0, l] X hs) hc)
      (constant ⟨0, ![]⟩ .f32 0x00000000#32) hr hu ix0 = ∑ t : Fin N, X (ix3 t 0 ⟨l, hl⟩) := by
  show Ideal.hostReduceAdd hr _ (Ideal.ofBits .f32 0x00000000#32) ix0 = _
  rw [Ideal.hostReduceAdd_total hr (fun b => b.elim0), Ideal.ofBits_zero_f32, zero_add, sum_idx1]
  refine Finset.sum_congr rfl fun t _ => ?_
  refine (shapeCast_apply _ hc (ix1 t) (ix3 t 0 0) ?_).trans ?_
  · rw [Shape.rowMajor_val_three, Shape.rowMajor_val_one]
    show (t.val * 1 + 0) * 1 + 0 = t.val
    omega
  · exact extractStridedSlice_apply _ X hs (ix3 t 0 0) (ix3 t 0 ⟨l, hl⟩) fun a =>
      match a with
      | ⟨0, _⟩ => by show t.val = 0 + t.val; omega
      | ⟨1, _⟩ => by show 0 = 0 + 0; omega
      | ⟨2, _⟩ => by show l = l + 0; omega

/-! ## The summed length: lane (0, 1) -/

/-- The length buffer at the node kernel's entry, as the host operations' term over the edge kernel's statistics array. -/
theorem v14_term (c : Dev nD) :
    (W8 m ρ c (Proc.devRef .tc main_v14) : Vec Ideal S_ .f32)
      = Host.reduceAdd (F := Ideal) (shapeCast S100 (extractStridedSlice S100x1x1 ![0, 0, 1] (EdgeV.o7 (V4 m ρ) c)
          slices_S100x8x128_S100x1x1_0_0_1) shapeCasts_S100x1x1_S100) (constant S_ .f32 0x00000000#32) reducesTo_S100_S_d0 h_S_ := by
  dsimp only [W8, W7, W6]
  simp only [hostOps1, hostOps1_1, hostOps1_2]
  after_results
  rw [show W5 m ρ c (Proc.devRef .tc main_v6_1) = EdgeV.o7 (V4 m ρ) c from W5_arr m ρ c 7]
  rfl

/-- The food-source length sum, as computed on the host between the kernels. -/
theorem v14_eq (c : Dev nD) :
    (W8 m ρ c (Proc.devRef .tc main_v14) : Vec Ideal S_ .f32) ix0 = ∑ t : Fin 100, EdgeV.o7 (V4 m ρ) c (ix3 t 0 1) :=
  (congrFun (v14_term m ρ c) ix0).trans
    (hostSum_lane (EdgeV.o7 (V4 m ρ) c) 1 (by decide) slices_S100x8x128_S100x1x1_0_0_1 shapeCasts_S100x1x1_S100
      reducesTo_S100_S_d0 h_S_)

/-! ## The count: lane (0, 0), rounded and converted

Its three stretches, each over any contents at the stretch's entry. -/

/-- The first stretch leaves in its sum buffer lane (0, 0) of the statistics array summed over the blocks. -/
theorem v11_step (V : Valuation τ sig (Elt Ideal)) :
    @Eq (FVec Ideal S_ .f32) (StableHlo.after hostOps1 V (Proc.devRef .tc main_v11))
      (Host.reduceAdd (F := Ideal) (shapeCast S100 (extractStridedSlice S100x1x1 ![0, 0, 0]
          (V (Proc.devRef .tc main_v6_1) : FVec Ideal S100x8x128 .f32)
          slices_S100x8x128_S100x1x1_0_0_0) shapeCasts_S100x1x1_S100) (constant S_ .f32 0x00000000#32) reducesTo_S100_S_d0 h_S_) := by
  simp only [hostOps1]
  after_results
  rfl

/-- The rounding stretch rounds the sum buffer to the nearest integer, ties to even. -/
theorem v12_step (V : Valuation τ sig (Elt Ideal)) :
    @Eq (FVec Ideal S_ .f32) (StableHlo.after hostOps1_1 V (Proc.devRef .tc main_v12))
      (Host.roundeven (F := Ideal) (s := S_) (φ := .f32) (V (Proc.devRef .tc main_v11))) := by
  simp only [hostOps1_1]
  after_results
  rfl

/-- The last stretch converts the rounded sum to an integer word. -/
theorem v13_step (V : Valuation τ sig (Elt Ideal)) :
    @Eq (IVec S_ 32) (StableHlo.after hostOps1_2 V (Proc.devRef .tc main_v13))
      (fptosi (F := Ideal) (s := S_) (φ := .f32) 32 (V (Proc.devRef .tc main_v12))) := by
  simp only [hostOps1_2]
  after_results

/-- A rounded and converted one-element vector, read at its element. -/
theorem fptosi_roundeven_apply (x : FVec Ideal S_ .f32) :
    (fptosi 32 (Host.roundeven x) : IVec S_ 32) ix0 = Ideal.fptosi 32 (Ideal.liftRound Ideal.roundHalfEven (x ix0)) := rfl

/-- The count buffer at the node kernel's entry, as the host operations' term over the edge kernel's statistics array. -/
theorem v13_term (c : Dev nD) :
    @Eq (IVec S_ 32) (W8 m ρ c (Proc.devRef .tc main_v13))
      (fptosi (F := Ideal) (s := S_) (φ := .f32) 32 (Host.roundeven (Host.reduceAdd (F := Ideal) (shapeCast S100
        (extractStridedSlice S100x1x1 ![0, 0, 0] (EdgeV.o7 (V4 m ρ) c) slices_S100x8x128_S100x1x1_0_0_0)
        shapeCasts_S100x1x1_S100) (constant S_ .f32 0x00000000#32) reducesTo_S100_S_d0 h_S_))) := by
  refine (v13_step (W7 m ρ c)).trans (congrArg (fptosi (F := Ideal) (s := S_) (φ := .f32) 32) ?_)
  refine (v12_step (W6 m ρ c)).trans (congrArg (Host.roundeven (F := Ideal) (s := S_) (φ := .f32)) ?_)
  refine (v11_step (W5 m ρ c)).trans ?_
  rw [show W5 m ρ c (Proc.devRef .tc main_v6_1) = EdgeV.o7 (V4 m ρ) c from W5_arr m ρ c 7]

/-- The food-source count, as computed on the host between the kernels. -/
theorem v13_eq (c : Dev nD) :
    (W8 m ρ c (Proc.devRef .tc main_v13) : IVec S_ 32) ix0
      = Ideal.fptosi 32 (Ideal.liftRound Ideal.roundHalfEven (∑ t : Fin 100, EdgeV.o7 (V4 m ρ) c (ix3 t 0 0))) :=
  (congrFun (v13_term m ρ c) ix0).trans ((fptosi_roundeven_apply _).trans
    (congrArg (fun s => Ideal.fptosi 32 (Ideal.liftRound Ideal.roundHalfEven s))
      (hostSum_lane (EdgeV.o7 (V4 m ρ) c) 0 (by decide) slices_S100x8x128_S100x1x1_0_0_0 shapeCasts_S100x1x1_S100
        reducesTo_S100_S_d0 h_S_)))

end Cert.KernelIdeal.Host12

end
-- ==== Proof.Host2.lean ====
/-
  The host operations after the node kernel, read at one element: the keep array compared with one half; the
  statistics' first five lanes summed over the ten blocks, two of the sums rounded and converted to integer words, the
  two velocity sums divided by the number of nodes; the new node table passed through; and the two results computed
  before the node kernel carried unchanged to the end.
-/
import proofs.«426050_j60911226191976_3_alg».proof.Proof.Gen.KernelIdeal.Frame
import proofs.«426050_j60911226191976_3_alg».proof.Proof.Spec
import proofs.«426050_j60911226191976_3_alg».proof.Proof.EdgeVal
import proofs.«426050_j60911226191976_3_alg».proof.Proof.NodeVal
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

open scoped BigOperators

namespace Cert.KernelIdeal.Host2

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- One stretch of host operations none of which writes the buffer leaves it as it was. -/
local macro "walk_back" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The buffers no later stretch writes -/

theorem r6_eq (c : Dev nD) :
    (W14 m ρ c (Proc.devRef .tc main_v13) : IVec S_ 32) = W8 m ρ c (Proc.devRef .tc main_v13) :=
  calc W14 m ρ c (Proc.devRef .tc main_v13)
    _ = W13 m ρ c (Proc.devRef .tc main_v13) := by walk_back hostOps2_4
    _ = W12 m ρ c (Proc.devRef .tc main_v13) := by walk_back hostOps2_3
    _ = W11 m ρ c (Proc.devRef .tc main_v13) := by walk_back hostOps2_2
    _ = W10 m ρ c (Proc.devRef .tc main_v13) := by walk_back hostOps2_1
    _ = W9 m ρ c (Proc.devRef .tc main_v13) := by walk_back hostOps2
    _ = W8 m ρ c (Proc.devRef .tc main_v13) := W9_of_ne m ρ c main_v13 (by decide)

theorem r7_eq (c : Dev nD) :
    (W14 m ρ c (Proc.devRef .tc main_v14) : Vec Ideal S_ .f32) = W8 m ρ c (Proc.devRef .tc main_v14) :=
  calc W14 m ρ c (Proc.devRef .tc main_v14)
    _ = W13 m ρ c (Proc.devRef .tc main_v14) := by walk_back hostOps2_4
    _ = W12 m ρ c (Proc.devRef .tc main_v14) := by walk_back hostOps2_3
    _ = W11 m ρ c (Proc.devRef .tc main_v14) := by walk_back hostOps2_2
    _ = W10 m ρ c (Proc.devRef .tc main_v14) := by walk_back hostOps2_1
    _ = W9 m ρ c (Proc.devRef .tc main_v14) := by walk_back hostOps2
    _ = W8 m ρ c (Proc.devRef .tc main_v14) := W9_of_ne m ρ c main_v14 (by decide)

theorem r0_eq (c : Dev nD) :
    (W14 m ρ c (Proc.devRef .tc main_v18_0) : Vec Ideal S50000x10 .f32) = NodeV.o5 (V8 m ρ) c :=
  calc W14 m ρ c (Proc.devRef .tc main_v18_0)
    _ = W13 m ρ c (Proc.devRef .tc main_v18_0) := by walk_back hostOps2_4
    _ = W12 m ρ c (Proc.devRef .tc main_v18_0) := by walk_back hostOps2_3
    _ = W11 m ρ c (Proc.devRef .tc main_v18_0) := by walk_back hostOps2_2
    _ = W10 m ρ c (Proc.devRef .tc main_v18_0) := by walk_back hostOps2_1
    _ = W9 m ρ c (Proc.devRef .tc main_v18_0) := by walk_back hostOps2
    _ = NodeV.o5 (V8 m ρ) c := W9_arr m ρ c 5

/-! ## The node kernel's keep and statistics arrays through the later stretches -/

/-- The keep array and the statistics array leave the node kernel as its pipeline wrote them. -/
theorem keepArr_W9 (c : Dev nD) : (W9 m ρ c (Proc.devRef .tc main_v18_1) : Vec Ideal S50000x1 .f32) = NodeV.o6 (V8 m ρ) c :=
  W9_arr m ρ c 6
theorem stats_W9 (c : Dev nD) : (W9 m ρ c (Proc.devRef .tc main_v18_2) : Vec Ideal S10x8x128 .f32) = NodeV.o7 (V8 m ρ) c :=
  W9_arr m ρ c 7

/-- No host operation writes the statistics array: every later stretch reads what the node kernel left. -/
theorem stats_W11 (c : Dev nD) : (W11 m ρ c (Proc.devRef .tc main_v18_2) : Vec Ideal S10x8x128 .f32) = NodeV.o7 (V8 m ρ) c :=
  calc W11 m ρ c (Proc.devRef .tc main_v18_2)
    _ = W10 m ρ c (Proc.devRef .tc main_v18_2) := by walk_back hostOps2_1
    _ = W9 m ρ c (Proc.devRef .tc main_v18_2) := by walk_back hostOps2
    _ = NodeV.o7 (V8 m ρ) c := stats_W9 m ρ c
theorem stats_W13 (c : Dev nD) : (W13 m ρ c (Proc.devRef .tc main_v18_2) : Vec Ideal S10x8x128 .f32) = NodeV.o7 (V8 m ρ) c :=
  calc W13 m ρ c (Proc.devRef .tc main_v18_2)
    _ = W12 m ρ c (Proc.devRef .tc main_v18_2) := by walk_back hostOps2_3
    _ = W11 m ρ c (Proc.devRef .tc main_v18_2) := by walk_back hostOps2_2
    _ = NodeV.o7 (V8 m ρ) c := stats_W11 m ρ c

/-! ## Each result buffer's term -/

/-- The keep result: the keep array as a vector, compared with one half. -/
theorem v21_term (c : Dev nD) :
    (W14 m ρ c (Proc.devRef .tc main_v21) : IVec S50000 1)
      = cmpf .ogt (shapeCast S50000 (NodeV.o6 (V8 m ρ) c) shapeCasts_S50000x1_S50000)
          (broadcastInDim S50000 ![] bcast_S_S50000 (constant (F := Ideal) S_ .f32 0x3F000000#32)) := by
  have h10 : (W10 m ρ c (Proc.devRef .tc main_v21) : IVec S50000 1)
      = cmpf .ogt (shapeCast S50000 (W9 m ρ c (Proc.devRef .tc main_v18_1) : Vec Ideal S50000x1 .f32) shapeCasts_S50000x1_S50000)
          (broadcastInDim S50000 ![] bcast_S_S50000 (constant (F := Ideal) S_ .f32 0x3F000000#32)) := by
    dsimp only [W10, hostOps2]
    after_results
    rfl
  calc W14 m ρ c (Proc.devRef .tc main_v21)
    _ = W13 m ρ c (Proc.devRef .tc main_v21) := by walk_back hostOps2_4
    _ = W12 m ρ c (Proc.devRef .tc main_v21) := by walk_back hostOps2_3
    _ = W11 m ρ c (Proc.devRef .tc main_v21) := by walk_back hostOps2_2
    _ = W10 m ρ c (Proc.devRef .tc main_v21) := by walk_back hostOps2_1
    _ = _ := h10
    _ = _ := by rw [keepArr_W9]

/-- The border result: lane 0 of the statistics array's first rows, summed over the ten blocks from the zero word. -/
theorem v24_term (c : Dev nD) :
    (W14 m ρ c (Proc.devRef .tc main_v24) : Vec Ideal S_ .f32)
      = Host.reduceAdd (F := Ideal) (shapeCast S10 (extractStridedSlice S10x1x1 ![0, 0, 0] (NodeV.o7 (V8 m ρ) c) slices_S10x8x128_S10x1x1_0_0_0) shapeCasts_S10x1x1_S10)
          (constant (F := Ideal) S_ .f32 0x00000000#32) reducesTo_S10_S_d0 h_S_ := by
  have h10 : (W10 m ρ c (Proc.devRef .tc main_v24) : Vec Ideal S_ .f32)
      = Host.reduceAdd (F := Ideal) (shapeCast S10 (extractStridedSlice S10x1x1 ![0, 0, 0] (W9 m ρ c (Proc.devRef .tc main_v18_2) : Vec Ideal S10x8x128 .f32) slices_S10x8x128_S10x1x1_0_0_0) shapeCasts_S10x1x1_S10)
          (constant (F := Ideal) S_ .f32 0x00000000#32) reducesTo_S10_S_d0 h_S_ := by
    dsimp only [W10, hostOps2]
    after_results
    rfl
  calc W14 m ρ c (Proc.devRef .tc main_v24)
    _ = W13 m ρ c (Proc.devRef .tc main_v24) := by walk_back hostOps2_4
    _ = W12 m ρ c (Proc.devRef .tc main_v24) := by walk_back hostOps2_3
    _ = W11 m ρ c (Proc.devRef .tc main_v24) := by walk_back hostOps2_2
    _ = W10 m ρ c (Proc.devRef .tc main_v24) := by walk_back hostOps2_1
    _ = _ := h10
    _ = _ := by rw [stats_W9]

/-- The dead count: lane 1 summed over the ten blocks, rounded to the nearest integer (ties to even), converted to a word. -/
theorem v29_term (c : Dev nD) :
    (W14 m ρ c (Proc.devRef .tc main_v29) : IVec S_ 32)
      = fptosi (F := Ideal) (s := S_) (φ := .f32) 32 (Host.roundeven (F := Ideal) (s := S_) (φ := .f32) (Host.reduceAdd (F := Ideal) (shapeCast S10 (extractStridedSlice S10x1x1 ![0, 0, 1] (NodeV.o7 (V8 m ρ) c) slices_S10x8x128_S10x1x1_0_0_1) shapeCasts_S10x1x1_S10)
          (constant (F := Ideal) S_ .f32 0x00000000#32) reducesTo_S10_S_d0 h_S_)) := by
  have h10 : (W10 m ρ c (Proc.devRef .tc main_v27) : Vec Ideal S_ .f32)
      = Host.reduceAdd (F := Ideal) (shapeCast S10 (extractStridedSlice S10x1x1 ![0, 0, 1] (W9 m ρ c (Proc.devRef .tc main_v18_2) : Vec Ideal S10x8x128 .f32) slices_S10x8x128_S10x1x1_0_0_1) shapeCasts_S10x1x1_S10)
          (constant (F := Ideal) S_ .f32 0x00000000#32) reducesTo_S10_S_d0 h_S_ := by
    dsimp only [W10, hostOps2]
    after_results
    rfl
  have h11 : (W11 m ρ c (Proc.devRef .tc main_v28) : Vec Ideal S_ .f32)
      = Host.roundeven (F := Ideal) (s := S_) (φ := .f32) (W10 m ρ c (Proc.devRef .tc main_v27) : Vec Ideal S_ .f32) := by
    dsimp only [W11, hostOps2_1]
    after_results_simp <;> (try simp only [StableHlo.TRef.ofBuf, StableHlo.TRef.toBuf, cast_eq]) <;> rfl
  have h12 : (W12 m ρ c (Proc.devRef .tc main_v29) : IVec S_ 32)
      = fptosi (F := Ideal) (s := S_) (φ := .f32) 32 (W11 m ρ c (Proc.devRef .tc main_v28)) := by
    dsimp only [W12, hostOps2_2]
    after_results
  calc W14 m ρ c (Proc.devRef .tc main_v29)
    _ = W13 m ρ c (Proc.devRef .tc main_v29) := by walk_back hostOps2_4
    _ = W12 m ρ c (Proc.devRef .tc main_v29) := by walk_back hostOps2_3
    _ = _ := h12
    _ = _ := by rw [h11, h10, stats_W9]

/-- The consumed count: lane 2 summed over the ten blocks, rounded and converted likewise. -/
theorem v34_term (c : Dev nD) :
    (W14 m ρ c (Proc.devRef .tc main_v34) : IVec S_ 32)
      = fptosi (F := Ideal) (s := S_) (φ := .f32) 32 (Host.roundeven (F := Ideal) (s := S_) (φ := .f32) (Host.reduceAdd (F := Ideal) (shapeCast S10 (extractStridedSlice S10x1x1 ![0, 0, 2] (NodeV.o7 (V8 m ρ) c) slices_S10x8x128_S10x1x1_0_0_2) shapeCasts_S10x1x1_S10)
          (constant (F := Ideal) S_ .f32 0x00000000#32) reducesTo_S10_S_d0 h_S_)) := by
  have h12 : (W12 m ρ c (Proc.devRef .tc main_v32) : Vec Ideal S_ .f32)
      = Host.reduceAdd (F := Ideal) (shapeCast S10 (extractStridedSlice S10x1x1 ![0, 0, 2] (W11 m ρ c (Proc.devRef .tc main_v18_2) : Vec Ideal S10x8x128 .f32) slices_S10x8x128_S10x1x1_0_0_2) shapeCasts_S10x1x1_S10)
          (constant (F := Ideal) S_ .f32 0x00000000#32) reducesTo_S10_S_d0 h_S_ := by
    dsimp only [W12, hostOps2_2]
    after_results
    rfl
  have h13 : (W13 m ρ c (Proc.devRef .tc main_v33) : Vec Ideal S_ .f32)
      = Host.roundeven (F := Ideal) (s := S_) (φ := .f32) (W12 m ρ c (Proc.devRef .tc main_v32) : Vec Ideal S_ .f32) := by
    dsimp only [W13, hostOps2_3]
    after_results_simp <;> (try simp only [StableHlo.TRef.ofBuf, StableHlo.TRef.toBuf, cast_eq]) <;> rfl
  have h14 : (W14 m ρ c (Proc.devRef .tc main_v34) : IVec S_ 32)
      = fptosi (F := Ideal) (s := S_) (φ := .f32) 32 (W13 m ρ c (Proc.devRef .tc main_v33)) := by
    dsimp only [W14, hostOps2_4]
    after_results
  rw [h14, h13, h12, stats_W11]

/-- The velocity result: lanes 3 and 4 summed over the ten blocks, divided by the word 50000.0. -/
theorem v39_term (c : Dev nD) :
    (W14 m ρ c (Proc.devRef .tc main_v39) : Vec Ideal S2 .f32)
      = Host.divf (F := Ideal) (Host.reduceAdd (F := Ideal) (shapeCast S10x2 (extractStridedSlice S10x1x2 ![0, 0, 3] (NodeV.o7 (V8 m ρ) c) slices_S10x8x128_S10x1x2_0_0_3) shapeCasts_S10x1x2_S10x2)
          (constant (F := Ideal) S_ .f32 0x00000000#32) reducesTo_S10x2_S2_d0 h_S_)
          (broadcastInDim S2 ![] bcast_S_S2 (constant (F := Ideal) S_ .f32 0x47435000#32)) := by
  have h14 : (W14 m ρ c (Proc.devRef .tc main_v39) : Vec Ideal S2 .f32)
      = Host.divf (F := Ideal) (Host.reduceAdd (F := Ideal) (shapeCast S10x2 (extractStridedSlice S10x1x2 ![0, 0, 3] (W13 m ρ c (Proc.devRef .tc main_v18_2) : Vec Ideal S10x8x128 .f32) slices_S10x8x128_S10x1x2_0_0_3) shapeCasts_S10x1x2_S10x2)
          (constant (F := Ideal) S_ .f32 0x00000000#32) reducesTo_S10x2_S2_d0 h_S_)
          (broadcastInDim S2 ![] bcast_S_S2 (constant (F := Ideal) S_ .f32 0x47435000#32)) := by
    dsimp only [W14, hostOps2_4]
    after_results
    rfl
  rw [h14, stats_W13]

/-! ## The terms read at one element -/

/-- The keep array as a vector: entry n is its entry (n, 0). -/
theorem keepVec_apply (o : Vec Ideal S50000x1 .f32) (n : Fin 50000) :
    shapeCast S50000 o shapeCasts_S50000x1_S50000 (ix1 n) = o (ix2 n 0) :=
  shapeCast_apply o shapeCasts_S50000x1_S50000 (ix1 n) (ix2 n 0)
    (by rewrite [Shape.rowMajor_val_two, Shape.rowMajor_val_one]; show n.val * 1 + 0 = n.val; omega)

/-- Lane 0, 1, 2 of the first rows as a vector over the ten blocks: entry t is the array's entry (t, 0, lane). -/
theorem lane0_apply (o : Vec Ideal S10x8x128 .f32) (t : Fin 10) :
    shapeCast S10 (extractStridedSlice S10x1x1 ![0, 0, 0] o slices_S10x8x128_S10x1x1_0_0_0) shapeCasts_S10x1x1_S10 (ix1 t)
      = o (ix3 t 0 0) := by
  rw [shapeCast_apply _ shapeCasts_S10x1x1_S10 (ix1 t) (ix3 t 0 0)
    (by rewrite [Shape.rowMajor_val_three, Shape.rowMajor_val_one]; show (t.val * 1 + 0) * 1 + 0 = t.val; omega)]
  exact extractStridedSlice_apply ![0, 0, 0] o slices_S10x8x128_S10x1x1_0_0_0 (ix3 t 0 0) (ix3 t 0 0) (fun a => by
    match a with
    | ⟨0, _⟩ => show t.val = 0 + t.val; omega
    | ⟨1, _⟩ => rfl
    | ⟨2, _⟩ => rfl)

theorem lane1_apply (o : Vec Ideal S10x8x128 .f32) (t : Fin 10) :
    shapeCast S10 (extractStridedSlice S10x1x1 ![0, 0, 1] o slices_S10x8x128_S10x1x1_0_0_1) shapeCasts_S10x1x1_S10 (ix1 t)
      = o (ix3 t 0 1) := by
  rw [shapeCast_apply _ shapeCasts_S10x1x1_S10 (ix1 t) (ix3 t 0 0)
    (by rewrite [Shape.rowMajor_val_three, Shape.rowMajor_val_one]; show (t.val * 1 + 0) * 1 + 0 = t.val; omega)]
  exact extractStridedSlice_apply ![0, 0, 1] o slices_S10x8x128_S10x1x1_0_0_1 (ix3 t 0 0) (ix3 t 0 1) (fun a => by
    match a with
    | ⟨0, _⟩ => show t.val = 0 + t.val; omega
    | ⟨1, _⟩ => rfl
    | ⟨2, _⟩ => rfl)

theorem lane2_apply (o : Vec Ideal S10x8x128 .f32) (t : Fin 10) :
    shapeCast S10 (extractStridedSlice S10x1x1 ![0, 0, 2] o slices_S10x8x128_S10x1x1_0_0_2) shapeCasts_S10x1x1_S10 (ix1 t)
      = o (ix3 t 0 2) := by
  rw [shapeCast_apply _ shapeCasts_S10x1x1_S10 (ix1 t) (ix3 t 0 0)
    (by rewrite [Shape.rowMajor_val_three, Shape.rowMajor_val_one]; show (t.val * 1 + 0) * 1 + 0 = t.val; omega)]
  exact extractStridedSlice_apply ![0, 0, 2] o slices_S10x8x128_S10x1x1_0_0_2 (ix3 t 0 0) (ix3 t 0 2) (fun a => by
    match a with
    | ⟨0, _⟩ => show t.val = 0 + t.val; omega
    | ⟨1, _⟩ => rfl
    | ⟨2, _⟩ => rfl)

/-- Lanes 3 and 4 of the first rows as a [10 × 2] array: entry (t, a) is the array's entry (t, 0, 3 + a). -/
theorem lane34_apply (o : Vec Ideal S10x8x128 .f32) (t : Fin 10) (a : Fin 2) :
    shapeCast S10x2 (extractStridedSlice S10x1x2 ![0, 0, 3] o slices_S10x8x128_S10x1x2_0_0_3) shapeCasts_S10x1x2_S10x2 (ix2 t a)
      = o (ix3 t 0 ((Fin.natAdd 3 a).castLE (by decide))) := by
  rw [shapeCast_apply _ shapeCasts_S10x1x2_S10x2 (ix2 t a) (ix3 t 0 a)
    (by rewrite [Shape.rowMajor_val_three, Shape.rowMajor_val_two]; show (t.val * 1 + 0) * 2 + a.val = t.val * 2 + a.val; omega)]
  exact extractStridedSlice_apply ![0, 0, 3] o slices_S10x8x128_S10x1x2_0_0_3 (ix3 t 0 a) (ix3 t 0 ((Fin.natAdd 3 a).castLE (by decide))) (fun b => by
    match b with
    | ⟨0, _⟩ => show t.val = 0 + t.val; omega
    | ⟨1, _⟩ => rfl
    | ⟨2, _⟩ => rfl)

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-- The host's sum over the ten blocks from the zero word is the sum of the ten entries. -/
theorem sum10 (x : Vec Ideal S10 .f32) :
    Host.reduceAdd (F := Ideal) x (constant (F := Ideal) S_ .f32 0x00000000#32) reducesTo_S10_S_d0 h_S_ ix0
      = ∑ t : Fin 10, x (ix1 t) := by
  simp only [Host.reduceAdd, Ideal.hostReduceAdd_def]
  rw [Ideal.hostReduceAdd_total reducesTo_S10_S_d0 (fun b => b.elim0)]
  show Ideal.ofBits .f32 0x00000000#32 + _ = _
  rw [Ideal.ofBits_zero_f32, zero_add]
  exact sum_idx1 x

/-- The host's sum down the ten rows of a [10 × 2] array from the zero word, at column a. -/
theorem sum10x2 (x : Vec Ideal S10x2 .f32) (a : Fin 2) :
    Host.reduceAdd (F := Ideal) x (constant (F := Ideal) S_ .f32 0x00000000#32) reducesTo_S10x2_S2_d0 h_S_ (ix1 a)
      = ∑ t : Fin 10, x (ix2 t a) := by
  simp only [Host.reduceAdd, Ideal.hostReduceAdd_def]
  rw [Ideal.hostReduceAdd_single reducesTo_S10x2_S2_d0 (by decide)]
  show Ideal.ofBits .f32 0x00000000#32 + _ = _
  rw [Ideal.ofBits_zero_f32, zero_add]
  exact Finset.sum_congr rfl fun k _ => congrArg x (funext fun b => Fin.ext (by match b with | ⟨0, _⟩ => rfl | ⟨1, _⟩ => rfl))

/-- The host's sum of a lane over the ten blocks. -/
theorem lane0_sum (o : Vec Ideal S10x8x128 .f32) :
    Host.reduceAdd (F := Ideal) (shapeCast S10 (extractStridedSlice S10x1x1 ![0, 0, 0] o slices_S10x8x128_S10x1x1_0_0_0) shapeCasts_S10x1x1_S10)
      (constant (F := Ideal) S_ .f32 0x00000000#32) reducesTo_S10_S_d0 h_S_ ix0 = ∑ t : Fin 10, o (ix3 t 0 0) := by
  rw [sum10]
  exact Finset.sum_congr rfl fun t _ => lane0_apply o t

theorem lane1_sum (o : Vec Ideal S10x8x128 .f32) :
    Host.reduceAdd (F := Ideal) (shapeCast S10 (extractStridedSlice S10x1x1 ![0, 0, 1] o slices_S10x8x128_S10x1x1_0_0_1) shapeCasts_S10x1x1_S10)
      (constant (F := Ideal) S_ .f32 0x00000000#32) reducesTo_S10_S_d0 h_S_ ix0 = ∑ t : Fin 10, o (ix3 t 0 1) := by
  rw [sum10]
  exact Finset.sum_congr rfl fun t _ => lane1_apply o t

theorem lane2_sum (o : Vec Ideal S10x8x128 .f32) :
    Host.reduceAdd (F := Ideal) (shapeCast S10 (extractStridedSlice S10x1x1 ![0, 0, 2] o slices_S10x8x128_S10x1x1_0_0_2) shapeCasts_S10x1x1_S10)
      (constant (F := Ideal) S_ .f32 0x00000000#32) reducesTo_S10_S_d0 h_S_ ix0 = ∑ t : Fin 10, o (ix3 t 0 2) := by
  rw [sum10]
  exact Finset.sum_congr rfl fun t _ => lane2_apply o t

theorem lane34_sum (o : Vec Ideal S10x8x128 .f32) (a : Fin 2) :
    Host.reduceAdd (F := Ideal) (shapeCast S10x2 (extractStridedSlice S10x1x2 ![0, 0, 3] o slices_S10x8x128_S10x1x2_0_0_3) shapeCasts_S10x1x2_S10x2)
      (constant (F := Ideal) S_ .f32 0x00000000#32) reducesTo_S10x2_S2_d0 h_S_ (ix1 a)
      = ∑ t : Fin 10, o (ix3 t 0 ((Fin.natAdd 3 a).castLE (by decide))) := by
  rw [sum10x2]
  exact Finset.sum_congr rfl fun t _ => lane34_apply o t a

/-- A rounded sum converted to a word, read at the one index. -/
theorem round_word (x : Vec Ideal S_ .f32) :
    (fptosi (F := Ideal) (s := S_) (φ := .f32) 32 (Host.roundeven (F := Ideal) (s := S_) (φ := .f32) x) : IVec S_ 32) ix0
      = Ideal.fptosi 32 (Ideal.liftRound Ideal.roundHalfEven (x ix0)) := rfl

/-! ## The results -/

theorem r1_apply (c : Dev nD) (n : Fin 50000) :
    (W14 m ρ c (Proc.devRef .tc main_v21) : IVec S50000 1) (ix1 n)
      = Ideal.cmp .ogt (NodeV.o6 (V8 m ρ) c (ix2 n 0)) (Spec.lit 0x3F000000#32) := by
  refine (congrFun (v21_term m ρ c) (ix1 n)).trans ?_
  rw [cmpf_apply, keepVec_apply, broadcastInDim_scalar_apply]
  rfl

theorem r2_apply (c : Dev nD) (a : Fin 2) :
    (W14 m ρ c (Proc.devRef .tc main_v39) : Vec Ideal S2 .f32) (ix1 a)
      = Ideal.div (∑ t : Fin 10, NodeV.o7 (V8 m ρ) c (ix3 t 0 ((Fin.natAdd 3 a).castLE (by decide)))) (Spec.lit 0x47435000#32) := by
  refine (congrFun (v39_term m ρ c) (ix1 a)).trans ?_
  rw [hostDivf_apply, lane34_sum, broadcastInDim_scalar_apply]
  rfl

theorem r3_eq (c : Dev nD) :
    (W14 m ρ c (Proc.devRef .tc main_v24) : Vec Ideal S_ .f32) ix0 = ∑ t : Fin 10, NodeV.o7 (V8 m ρ) c (ix3 t 0 0) :=
  (congrFun (v24_term m ρ c) ix0).trans (lane0_sum _)

theorem r4_eq (c : Dev nD) :
    (W14 m ρ c (Proc.devRef .tc main_v34) : IVec S_ 32) ix0
      = Ideal.fptosi 32 (Ideal.liftRound Ideal.roundHalfEven (∑ t : Fin 10, NodeV.o7 (V8 m ρ) c (ix3 t 0 2))) := by
  refine (congrFun (v34_term m ρ c) ix0).trans ?_
  rw [round_word, lane2_sum]

theorem r5_eq (c : Dev nD) :
    (W14 m ρ c (Proc.devRef .tc main_v29) : IVec S_ 32) ix0
      = Ideal.fptosi 32 (Ideal.liftRound Ideal.roundHalfEven (∑ t : Fin 10, NodeV.o7 (V8 m ρ) c (ix3 t 0 1))) := by
  refine (congrFun (v29_term m ρ c) ix0).trans ?_
  rw [round_word, lane1_sum]

end Cert.KernelIdeal.Host2

end
-- ==== Proof.Host1S.lean ====
/-
  The table of summed rows the node kernel is entered with, read at one element.  Between the two kernels the host
  takes a zero table of 50000 rows of eighteen, and adds each row of the combined array into the row its edge's
  destination names.  When every destination is a node number, entry (n, col) is the sum, over the edges ending at n,
  of column col of their rows.
-/
import proofs.«426050_j60911226191976_3_alg».proof.Proof.Gen.KernelIdeal.Frame
import proofs.«426050_j60911226191976_3_alg».proof.Proof.Spec
import proofs.«426050_j60911226191976_3_alg».proof.Proof.Decode
import proofs.«426050_j60911226191976_3_alg».proof.Proof.EdgeVal
import proofs.«426050_j60911226191976_3_alg».proof.Proof.NodeVal
import proofs.«426050_j60911226191976_3_alg».proof.Proof.Host0
import proofs.«426050_j60911226191976_3_alg».proof.Proof.LibScatterGather
import Idealize.ShloMosaic.Lib.ValueIdx
import Idealize.ShloMosaic.Lib.Pipeline.Value
import Idealize.ShloMosaic.Lib.StableHlo.Run
import Idealize.ShloMosaic.Lib.StableHlo.Predicate

set_option maxRecDepth 16384

noncomputable section

open scoped BigOperators

namespace Cert.KernelIdeal.Host1S

open Cert.KernelIdeal Cert.KernelIdeal.Gen Idealize.ShloMosaic Idealize.ShloMosaic.TcCoe Idealize.ShloMosaic.ValueIdx Idealize.SL.Sem
open Cert.KernelIdeal.Host0 (xA srcA dstA)

variable (m : (ℓ : Loc nD τ sig) → Buf (Elt Ideal) ℓ) (ρ : Dev nD → PrngReg)

open Idealize.ShloMosaic.StableHlo.Predicate (ixP)

/-- The host's accumulating scatter into the zero table, at in-range positions: entry (n, col) is the sum of column col
    over the update rows whose position is n.  The target's entry is the zero word; row e of the position column is
    word e of the destination array; and a word that is a node number equals n exactly when its node is n. -/
theorem scatter_zero_apply (d : ScatterDims S50000x18 S3200000x1 S3200000x18)
    (huw : d.updateWindowDims = [1]) (hiw : d.insertedWindowDims = [0]) (hsd : d.scatterDimsToOperandDims = [0]) (hivd : d.indexVectorDim = 1)
    (hb0 : S_.BroadcastsInDim S50000x18 (![] : Fin 0 → Fin 2)) (hb1 : S3200000.BroadcastsInDim S3200000x1 (![0] : Fin 1 → Fin 2))
    (dst : IVec S3200000 32) (hd : Spec.InR dst) (upd : FVec Ideal S3200000x18 .f32) (n : Fin 50000) (col : Fin 18) :
    Host.scatterAdd (F := Ideal) d (broadcastInDim S50000x18 ![] hb0 (constant S_ .f32 0x00000000#32))
        (broadcastInDim S3200000x1 ![0] hb1 dst) upd (ix2 n col)
      = ∑ e ∈ Finset.univ.filter (fun e : Fin 3200000 => Spec.dec dst hd e = n), upd (ix2 e col) := by
  rw [Cert.LibSG.scatterAdd_rows d huw hiw hsd hivd]
  rw [show broadcastInDim S50000x18 ![] hb0 (constant (F := Ideal) S_ .f32 0x00000000#32) (ix2 n col) = (0 : EReal) from Ideal.ofBits_zero_f32, zero_add]
  refine Finset.sum_congr (Finset.filter_congr fun e _ => ?_) fun _ _ => rfl
  have hb : broadcastInDim S3200000x1 ![0] hb1 dst (ixP e) = dst (ix1 e) :=
    broadcastInDim_apply _ hb1 dst (ixP e) (ix1 e) fun a => match a with
      | ⟨0, _⟩ => by show e.val = if (3200000 : ℕ) = 1 then 0 else e.val; rw [if_neg (by decide)]
  rw [hb, ← Spec.dec_val dst hd e]
  constructor
  · intro h; exact Fin.ext (by exact_mod_cast h)
  · intro h; rw [h]

/-- A stretch of host operations leaves a buffer none of them writes as it was. -/
local macro "skip_stretch" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The last stretch before the node kernel builds the summed-rows table from whatever it finds in the destination
    array's buffer and in the combined array's buffer: the accumulating scatter into the zero table. -/
theorem after12_v17 (X : Valuation τ sig (Elt Ideal)) :
    (StableHlo.after (hostOps1_2 (F := Ideal)) X (Proc.devRef .tc main_v17) : Vec Ideal S50000x18 .f32)
      = Host.scatterAdd (F := Ideal) scatter_S50000x18_S3200000x1_S3200000x18_1_0_0_1
          (broadcastInDim S50000x18 ![] bcast_S_S50000x18 (constant S_ .f32 0x00000000#32))
          (broadcastInDim S3200000x1 ![0] bcast_S3200000_S3200000x1_0 (X (Proc.devRef .tc main_arg2)))
          (X (Proc.devRef .tc main_v6_0)) := by
  after_results_simp

/-- Up to that stretch the destination array's buffer is as launched … -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by skip_stretch hostOps1_1
    _ = W5 m ρ c (Proc.devRef .tc main_arg2) := by skip_stretch hostOps1
    _ = W4 m ρ c (Proc.devRef .tc main_arg2) := W5_of_ne m ρ c main_arg2 (by decide)
    _ = W3 m ρ c (Proc.devRef .tc main_arg2) := by skip_stretch hostOps0_3
    _ = W2 m ρ c (Proc.devRef .tc main_arg2) := by skip_stretch hostOps0_2
    _ = W1 m ρ c (Proc.devRef .tc main_arg2) := by skip_stretch hostOps0_1
    _ = W0 m ρ c (Proc.devRef .tc main_arg2) := by skip_stretch hostOps0
    _ = m ((c : Thread nD τ).loc main_arg2) := rfl

/-- … and the combined array's buffer holds what the edge kernel's region left. -/
theorem W7_main_v6_0 (c : Dev nD) : W7 m ρ c (Proc.devRef .tc main_v6_0) = EdgeV.o6 (V4 m ρ) c :=
  calc W7 m ρ c (Proc.devRef .tc main_v6_0)
    _ = W6 m ρ c (Proc.devRef .tc main_v6_0) := by skip_stretch hostOps1_1
    _ = W5 m ρ c (Proc.devRef .tc main_v6_0) := by skip_stretch hostOps1
    _ = EdgeV.o6 (V4 m ρ) c := W5_arr m ρ c 6

/-- The summed-rows table the node kernel is entered with, as one term: the accumulating scatter, into the zero table,
    of the combined array's rows at the launched destination array laid out as a column. -/
theorem b1_term (c : Dev nD) :
    NodeV.b1 (V8 m ρ) c
      = Host.scatterAdd (F := Ideal) scatter_S50000x18_S3200000x1_S3200000x18_1_0_0_1
          (broadcastInDim S50000x18 ![] bcast_S_S50000x18 (constant S_ .f32 0x00000000#32))
          (broadcastInDim S3200000x1 ![0] bcast_S3200000_S3200000x1_0 (dstA m c))
          (EdgeV.o6 (V4 m ρ) c) := by
  refine (after12_v17 (W7 m ρ c)).trans ?_
  rw [W7_main_arg2, W7_main_v6_0]

/-- Entry (n, col) of the summed-rows table: column col of the combined array summed over the edges ending at n. -/
theorem b1_apply (c : Dev nD) (hd : Spec.InR (dstA m c)) (n : Fin 50000) (col : Fin 18) :
    NodeV.b1 (V8 m ρ) c (ix2 n col)
      = ∑ e ∈ Finset.univ.filter (fun e : Fin 3200000 => Spec.dec (dstA m c) hd e = n), EdgeV.o6 (V4 m ρ) c (ix2 e col) := by
  rw [b1_term]
  exact scatter_zero_apply _ rfl rfl rfl rfl _ _ (dstA m c) hd _ n col

end Cert.KernelIdeal.Host1S

end
-- ==== Proof.Host0A.lean ====
/-
  The three weight arrays of the edge kernel reach it as launched: no host operation before the kernel writes them.
-/
import proofs.«426050_j60911226191976_3_alg».proof.Proof.Gen.KernelIdeal.Frame
import proofs.«426050_j60911226191976_3_alg».proof.Proof.EdgeVal
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Host0A

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- One stretch of host operations, at a buffer none of its operations writes: every operation's written buffer differs
    from it, so the buffer keeps its contents. -/
local macro "skip_stretch" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! The four stretches before the edge kernel write none of the three weight buffers: at the kernel's entry each holds its
    launch contents. -/

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by skip_stretch hostOps0_3
    _ = W2 m ρ c (Proc.devRef .tc main_arg4) := by skip_stretch hostOps0_2
    _ = W1 m ρ c (Proc.devRef .tc main_arg4) := by skip_stretch hostOps0_1
    _ = W0 m ρ c (Proc.devRef .tc main_arg4) := by skip_stretch hostOps0
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by skip_stretch hostOps0_3
    _ = W2 m ρ c (Proc.devRef .tc main_arg5) := by skip_stretch hostOps0_2
    _ = W1 m ρ c (Proc.devRef .tc main_arg5) := by skip_stretch hostOps0_1
    _ = W0 m ρ c (Proc.devRef .tc main_arg5) := by skip_stretch hostOps0
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by skip_stretch hostOps0_3
    _ = W2 m ρ c (Proc.devRef .tc main_arg6) := by skip_stretch hostOps0_2
    _ = W1 m ρ c (Proc.devRef .tc main_arg6) := by skip_stretch hostOps0_1
    _ = W0 m ρ c (Proc.devRef .tc main_arg6) := by skip_stretch hostOps0
    _ = m ((c : Thread nD τ).loc main_arg6) := rfl

/-- The three weight arrays enter the edge kernel as launched. -/
theorem a3_eq (c : Dev nD) : EdgeV.a3 (V4 m ρ) c = m ((c.tc : Thread nD τ).loc main_arg4) := W4_main_arg4 m ρ c
theorem a4_eq (c : Dev nD) : EdgeV.a4 (V4 m ρ) c = m ((c.tc : Thread nD τ).loc main_arg5) := W4_main_arg5 m ρ c
theorem a5_eq (c : Dev nD) : EdgeV.a5 (V4 m ρ) c = m ((c.tc : Thread nD τ).loc main_arg6) := W4_main_arg6 m ρ c

end Cert.KernelIdeal.Host0A

end
-- ==== Proof.KVals.lean ====
/-
  The idealized kernel program's eight results are the specification's.  Reading backwards through the program: each
  result is a host operation on the node kernel's three arrays; those are the node-level functions of the node table,
  the noise and the table of summed rows; a summed row is the sum, over the edges ending at the node, of the edge
  kernel's rows; an edge's row is the edge-level function of the gathered source row, destination position and
  destination flag, which are rows of the node table at the edge's end points.  Sums the kernels take block by block
  are the sums over all edges or all nodes, and a rounded, converted sum of bits is their count.
-/
import proofs.«426050_j60911226191976_3_alg».proof.Proof.Gen.KernelIdeal.Frame
import proofs.«426050_j60911226191976_3_alg».proof.Proof.Spec
import proofs.«426050_j60911226191976_3_alg».proof.Proof.Decode
import proofs.«426050_j60911226191976_3_alg».proof.Proof.Bridge
import proofs.«426050_j60911226191976_3_alg».proof.Proof.EdgeVal
import proofs.«426050_j60911226191976_3_alg».proof.Proof.NodeVal
import proofs.«426050_j60911226191976_3_alg».proof.Proof.Host0
import proofs.«426050_j60911226191976_3_alg».proof.Proof.Host12
import proofs.«426050_j60911226191976_3_alg».proof.Proof.Host2
import proofs.«426050_j60911226191976_3_alg».proof.Proof.Host1S
import proofs.«426050_j60911226191976_3_alg».proof.Proof.Host0A

set_option maxRecDepth 16384

noncomputable section

open scoped BigOperators

namespace Cert.KernelIdeal.KVals

open Cert.KernelIdeal Cert.KernelIdeal.Gen Idealize.ShloMosaic Idealize.ShloMosaic.TcCoe Idealize.ShloMosaic.ValueIdx Idealize.SL.Sem
open Cert.KernelIdeal.Host0 (xA srcA dstA)

variable (m : (ℓ : Loc nD τ sig) → Buf (Elt Ideal) ℓ) (ρ : Dev nD → PrngReg) (c : Dev nD)
  (hs : Spec.InR (srcA m c)) (hd : Spec.InR (dstA m c))

/-- The graph's arguments read off core c's launch memory. -/
abbrev I : Spec.In :=
  Spec.inOf (xA m c) (srcA m c) (dstA m c) hs hd (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

/-! ## The edge kernel's rows -/

theorem srow_eq (e : Fin 3200000) : EdgeV.srow (V4 m ρ) c e = Spec.xrow (I m c hs hd) ((I m c hs hd).s e) := by
  funext k
  exact Host0.a0_apply m ρ c hs k e

theorem drow_eq (e : Fin 3200000) : EdgeV.drow (V4 m ρ) c e = Spec.prow (I m c hs hd) e := by
  funext a
  exact Host0.a1_apply m ρ c hd a e

/-- Entry (e, col) of the combined array is column col of edge e's row. -/
theorem o6_eq (e : Fin 3200000) (col : Fin 18) :
    EdgeV.o6 (V4 m ρ) c (ix2 e col) = Spec.erow (I m c hs hd) e col := by
  rw [EdgeV.o6_apply, srow_eq m ρ c hs hd, drow_eq m ρ c hs hd, Host0.a2_apply m ρ c hd, Host0A.a3_eq, Host0A.a4_eq, Host0A.a5_eq]
  rfl

/-! ## The node kernel's rows -/

theorem xr_eq (n : Fin 50000) : NodeV.xr (V8 m ρ) c n = Spec.xrow (I m c hs hd) n := by
  funext k
  show NodeV.b0 (V8 m ρ) c (ix2 n k) = _
  rw [Host12.b0_eq]
  rfl

theorem zr_eq (n : Fin 50000) : NodeV.zr (V8 m ρ) c n = Spec.nzrow (I m c hs hd) n := by
  funext a
  show NodeV.b2 (V8 m ρ) c (ix2 n a) = _
  rw [Host12.b2_eq]
  rfl

/-- Row n of the summed-rows table is node n's eighteen column sums. -/
theorem cr_eq (n : Fin 50000) : NodeV.cr (V8 m ρ) c n = Spec.csrow (I m c hs hd) n := by
  funext col
  show NodeV.b1 (V8 m ρ) c (ix2 n col) = _
  rw [Host1S.b1_apply m ρ c hd n col]
  unfold Spec.csrow Spec.into
  exact Finset.sum_congr rfl fun e _ => o6_eq m ρ c hs hd e col

/-! ## The eight results -/

theorem newX_eq :
    (W14 m ρ c (Proc.devRef .tc main_v18_0) : Vec Ideal S50000x10 .f32) = Spec.newX (I m c hs hd) := by
  rw [Host2.r0_eq]
  funext i
  obtain ⟨n, col, rfl⟩ : ∃ (n : Fin 50000) (col : Fin 10), i = ix2 n col := ⟨i 0, i 1, eq_ix2 i⟩
  rw [NodeV.o5_apply, xr_eq m ρ c hs hd, cr_eq m ρ c hs hd, zr_eq m ρ c hs hd, Host12.b3_eq, Host12.b4_eq]
  rfl

theorem keep_eq :
    (W14 m ρ c (Proc.devRef .tc main_v21) : IVec S50000 1) = Spec.keep (I m c hs hd) := by
  funext i
  obtain ⟨n, rfl⟩ : ∃ n : Fin 50000, i = ix1 n := ⟨i 0, eq_ix1 i⟩
  rw [Host2.r1_apply, NodeV.o6_apply, Spec.cmp_ogt_half, xr_eq m ρ c hs hd, cr_eq m ρ c hs hd]
  rfl

/-- The scalar shape has one index. -/
instance : Subsingleton S_.Idx := ⟨fun _ _ => funext fun d => d.elim0⟩

theorem velBonus_eq :
    (W14 m ρ c (Proc.devRef .tc main_v39) : Vec Ideal S2 .f32) = Spec.velBonus (I m c hs hd) := by
  have h : ∀ a : Fin 2, (W14 m ρ c (Proc.devRef .tc main_v39) : Vec Ideal S2 .f32) (ix1 a) = Spec.velBonus (I m c hs hd) (ix1 a) := by
    intro a
    rw [Host2.r2_apply]
    show _ = Ideal.div (∑ n : Fin 50000, Spec.absE (Spec.vel (I m c hs hd) n a)) _
    rw [Spec.sum_nodes_blocks]
    refine congrArg (fun s => Ideal.div s (Spec.lit 0x47435000#32)) ?_
    refine Finset.sum_congr rfl fun t _ => ?_
    rw [NodeV.o7_vel]
    refine Finset.sum_congr rfl fun q _ => ?_
    rw [xr_eq m ρ c hs hd, cr_eq m ρ c hs hd, Host12.b3_eq, Host12.b4_eq]
    rfl
  funext i
  obtain ⟨a, rfl⟩ : ∃ a : Fin 2, i = ix1 a := ⟨i 0, eq_ix1 i⟩
  exact h a

theorem borderCost_eq :
    (W14 m ρ c (Proc.devRef .tc main_v24) : Vec Ideal S_ .f32) = Spec.borderCost (I m c hs hd) := by
  have h : (W14 m ρ c (Proc.devRef .tc main_v24) : Vec Ideal S_ .f32) ix0 = Spec.borderCost (I m c hs hd) ix0 := by
    rw [Host2.r3_eq]
    show _ = ∑ n : Fin 50000, ∑ a : Fin 2, Spec.nBorder (Spec.xrow (I m c hs hd) n) (Spec.csrow (I m c hs hd) n) (I m c hs hd).Wo (I m c hs hd).b2 a
    rw [Spec.sum_nodes_blocks]
    refine Finset.sum_congr rfl fun t _ => ?_
    rw [NodeV.o7_border]
    refine Finset.sum_congr rfl fun q _ => ?_
    rw [xr_eq m ρ c hs hd, cr_eq m ρ c hs hd, Host12.b3_eq, Host12.b4_eq]
    rfl
  funext (i : S_.Idx)
  obtain rfl : i = ix0 := Subsingleton.elim _ _
  exact h

theorem foodReward_eq :
    (W14 m ρ c (Proc.devRef .tc main_v34) : IVec S_ 32) = Spec.foodReward (I m c hs hd) := by
  have h : (W14 m ρ c (Proc.devRef .tc main_v34) : IVec S_ 32) ix0 = Spec.foodReward (I m c hs hd) ix0 := by
    rw [Host2.r4_eq]
    show _ = Spec.countBV fun n => Spec.nConsumed (Spec.xrow (I m c hs hd) n) (Spec.csrow (I m c hs hd) n)
    rw [← Spec.count_eq _ (by norm_num), Spec.sum_nodes_blocks]
    refine congrArg (fun s => Ideal.fptosi 32 (Ideal.liftRound Ideal.roundHalfEven s)) ?_
    refine Finset.sum_congr rfl fun t _ => ?_
    rw [NodeV.o7_consumed]
    refine Finset.sum_congr rfl fun q _ => ?_
    rw [xr_eq m ρ c hs hd, cr_eq m ρ c hs hd]
  funext (i : S_.Idx)
  obtain rfl : i = ix0 := Subsingleton.elim _ _
  exact h

theorem deadCost_eq :
    (W14 m ρ c (Proc.devRef .tc main_v29) : IVec S_ 32) = Spec.deadCost (I m c hs hd) := by
  have h : (W14 m ρ c (Proc.devRef .tc main_v29) : IVec S_ 32) ix0 = Spec.deadCost (I m c hs hd) ix0 := by
    rw [Host2.r5_eq]
    show _ = Spec.countBV fun n => Spec.nDead (Spec.xrow (I m c hs hd) n) (Spec.csrow (I m c hs hd) n)
    rw [← Spec.count_eq _ (by norm_num), Spec.sum_nodes_blocks]
    refine congrArg (fun s => Ideal.fptosi 32 (Ideal.liftRound Ideal.roundHalfEven s)) ?_
    refine Finset.sum_congr rfl fun t _ => ?_
    rw [NodeV.o7_dead]
    refine Finset.sum_congr rfl fun q _ => ?_
    rw [xr_eq m ρ c hs hd, cr_eq m ρ c hs hd]
  funext (i : S_.Idx)
  obtain rfl : i = ix0 := Subsingleton.elim _ _
  exact h

theorem visibleFood_eq :
    (W14 m ρ c (Proc.devRef .tc main_v13) : IVec S_ 32) = Spec.visibleFood (I m c hs hd) := by
  have h : (W14 m ρ c (Proc.devRef .tc main_v13) : IVec S_ 32) ix0 = Spec.visibleFood (I m c hs hd) ix0 := by
    rw [Host2.r6_eq, Host12.v13_eq]
    show _ = Spec.countBV (Spec.food (I m c hs hd))
    rw [← Spec.count_eq _ (by norm_num), Spec.sum_edges_blocks]
    refine congrArg (fun s => Ideal.fptosi 32 (Ideal.liftRound Ideal.roundHalfEven s)) ?_
    refine Finset.sum_congr rfl fun t _ => ?_
    rw [EdgeV.o7_food]
    refine Finset.sum_congr rfl fun q _ => ?_
    rw [srow_eq m ρ c hs hd]
    rfl
  funext (i : S_.Idx)
  obtain rfl : i = ix0 := Subsingleton.elim _ _
  exact h

theorem foodDist_eq :
    (W14 m ρ c (Proc.devRef .tc main_v14) : Vec Ideal S_ .f32) = Spec.foodDist (I m c hs hd) := by
  have h : (W14 m ρ c (Proc.devRef .tc main_v14) : Vec Ideal S_ .f32) ix0 = Spec.foodDist (I m c hs hd) ix0 := by
    rw [Host2.r7_eq, Host12.v14_eq]
    show _ = ∑ e : Fin 3200000, Spec.dist (I m c hs hd) e * Spec.bitR (Spec.food (I m c hs hd) e)
    rw [Spec.sum_edges_blocks]
    refine Finset.sum_congr rfl fun t _ => ?_
    rw [EdgeV.o7_dist]
    refine Finset.sum_congr rfl fun q _ => ?_
    rw [srow_eq m ρ c hs hd, drow_eq m ρ c hs hd]
    rfl
  funext (i : S_.Idx)
  obtain rfl : i = ix0 := Subsingleton.elim _ _
  exact h

end Cert.KernelIdeal.KVals

end
-- ==== Proof.RefNode.lean ====
/-
  The reference's node update, one node at a time.  Every stage after the three accumulating scatters is pointwise in
  the node: the living-cell mask, the four-channel readout of the summed messages, the clipped velocity, the new
  position, the noisy velocity, the dead and consumed bits.  Given that the three scatters hold the eighteen column sums
  of the rows of the edges ending at each node, and that the edge length and the food-source bit are the
  specification's, each stage read at a node is the specification's function of that node's row, its column sums and
  its noise; the joined table is read by its column ranges; a sum over a rank-two index set is the double sum; and the
  host's integer sum of widened truth bits from the zero word is the count of the set bits.
-/
import proofs.«426050_j60911226191976_3_alg».proof.Proof.RefRead
import proofs.«426050_j60911226191976_3_alg».proof.Proof.Spec
import proofs.«426050_j60911226191976_3_alg».proof.Proof.Decode
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

open scoped BigOperators

namespace Cert.ReferenceIdeal.RefN

open Cert.ReferenceIdeal Cert.ReferenceIdeal.Gen Cert.ReferenceIdeal.Read Idealize.ShloMosaic Idealize.ShloMosaic.TcCoe Idealize.ShloMosaic.ValueIdx Idealize.SL.Sem

/-! ## Sums and counts -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A fold of 32-bit addition over a finite set is the start plus the sum. -/
theorem fold_addi_eq_sum {ι : Type*} (S : Finset ι) (f : ι → BitVec 32) (b : BitVec 32) :
    S.fold IntOp.addi b f = b + ∑ i ∈ S, f i := by
  induction S using Finset.cons_induction with
  | empty => simp
  | cons a S ha ih =>
    rw [Finset.fold_cons, Finset.sum_cons, ih]
    exact add_left_comm _ _ _

/-- The host's integer sum of a vector of truth bits, each widened to 32 bits, from the zero word: the count of set bits. -/
theorem hostCount {n : Nat} (x : IVec ⟨1, ![n]⟩ 1) (hw : 1 < 32) (h : (⟨1, ![n]⟩ : Shape).ReducesTo [0] ⟨0, ![]⟩)
    (hu : 0 < (⟨0, ![]⟩ : Shape).numel) (j : (⟨0, ![]⟩ : Shape).Idx) :
    Host.reduce IntOp.addi (extui 32 x hw) (constantI ⟨0, ![]⟩ 32 0#32) h hu j = Spec.countBV fun k => x (ix1 k) := by
  rw [Host.reduce_eq_fold, Finset.filter_true_of_mem (fun i _ => funext fun b => b.elim0), fold_addi_eq_sum, sum_idx1]
  show 0#32 + _ = _
  rw [BitVec.zero_add]
  rfl

/-- A truth bit turned into a float is the bit as the number 0 or 1. -/
theorem uitofp_bit (b : BitVec 1) : FloatOps.uitofp (F := Ideal) .f32 b = Spec.bitR b := rfl

/-! ## The joined table by its column ranges -/

section Cat
variable {α : Type} (p0 p1 : S50000x2.Idx → α) (p2 : S50000x1.Idx → α) (p3 : S50000x2.Idx → α) (p4 : S50000x3.Idx → α)
  (h : Shape.Concatenates ([(⟨S50000x2, p0⟩ : (s : Shape) × (s.Idx → α)), ⟨S50000x2, p1⟩, ⟨S50000x1, p2⟩, ⟨S50000x2, p3⟩, ⟨S50000x3, p4⟩].map (·.1)) S50000x10 1)
  (n : Fin 50000) (col : Fin 10)

/-- Pieces of widths 2, 2, 1, 2, 3 joined along the columns: columns 0-1 are the first piece's. -/
theorem cat_0 (c : Fin 2) (hc : 0 + c.val = col.val) :
    concatenate S50000x10 1 [⟨S50000x2, p0⟩, ⟨S50000x2, p1⟩, ⟨S50000x1, p2⟩, ⟨S50000x2, p3⟩, ⟨S50000x3, p4⟩] h (ix2 n col) = p0 (ix2 n c) :=
  concatenate_apply_piece 1 _ h _ 0 (Nat.succ_pos _) S50000x2 p0 rfl rfl 0 rfl (ix2 n c)
    (fun b hb => by match b with | ⟨0, _⟩ => rfl | ⟨1, _⟩ => exact absurd rfl hb) hc

/-- Columns 2-3 are the second piece's. -/
theorem cat_1 (c : Fin 2) (hc : 2 + c.val = col.val) :
    concatenate S50000x10 1 [⟨S50000x2, p0⟩, ⟨S50000x2, p1⟩, ⟨S50000x1, p2⟩, ⟨S50000x2, p3⟩, ⟨S50000x3, p4⟩] h (ix2 n col) = p1 (ix2 n c) :=
  concatenate_apply_piece 1 _ h _ 1 (by simp) S50000x2 p1 rfl rfl 2 rfl (ix2 n c)
    (fun b hb => by match b with | ⟨0, _⟩ => rfl | ⟨1, _⟩ => exact absurd rfl hb) hc

/-- Column 4 is the third piece's one column. -/
theorem cat_2 (c : Fin 1) (hc : 4 + c.val = col.val) :
    concatenate S50000x10 1 [⟨S50000x2, p0⟩, ⟨S50000x2, p1⟩, ⟨S50000x1, p2⟩, ⟨S50000x2, p3⟩, ⟨S50000x3, p4⟩] h (ix2 n col) = p2 (ix2 n c) :=
  concatenate_apply_piece 1 _ h _ 2 (by simp) S50000x1 p2 rfl rfl 4 rfl (ix2 n c)
    (fun b hb => by match b with | ⟨0, _⟩ => rfl | ⟨1, _⟩ => exact absurd rfl hb) hc

/-- Columns 5-6 are the fourth piece's. -/
theorem cat_3 (c : Fin 2) (hc : 5 + c.val = col.val) :
    concatenate S50000x10 1 [⟨S50000x2, p0⟩, ⟨S50000x2, p1⟩, ⟨S50000x1, p2⟩, ⟨S50000x2, p3⟩, ⟨S50000x3, p4⟩] h (ix2 n col) = p3 (ix2 n c) :=
  concatenate_apply_piece 1 _ h _ 3 (by simp) S50000x2 p3 rfl rfl 5 rfl (ix2 n c)
    (fun b hb => by match b with | ⟨0, _⟩ => rfl | ⟨1, _⟩ => exact absurd rfl hb) hc

/-- Columns 7-9 are the fifth piece's. -/
theorem cat_4 (c : Fin 3) (hc : 7 + c.val = col.val) :
    concatenate S50000x10 1 [⟨S50000x2, p0⟩, ⟨S50000x2, p1⟩, ⟨S50000x1, p2⟩, ⟨S50000x2, p3⟩, ⟨S50000x3, p4⟩] h (ix2 n col) = p4 (ix2 n c) :=
  concatenate_apply_piece 1 _ h _ 4 (by simp) S50000x3 p4 rfl rfl 7 rfl (ix2 n c)
    (fun b hb => by match b with | ⟨0, _⟩ => rfl | ⟨1, _⟩ => exact absurd rfl hb) hc

end Cat

/-! ## One node of the reference -/

variable (x0 : (⟨S50000x10, .f32⟩ : BufTy).Contents (Elt Ideal)) (x1 x2 : (⟨S3200000, .i32⟩ : BufTy).Contents (Elt Ideal))
  (x3 : (⟨S50000x2, .f32⟩ : BufTy).Contents (Elt Ideal)) (x4 : (⟨S4x16, .f32⟩ : BufTy).Contents (Elt Ideal))
  (x5 : (⟨S10x16, .f32⟩ : BufTy).Contents (Elt Ideal)) (x6 : (⟨S16, .f32⟩ : BufTy).Contents (Elt Ideal))
  (x7 : (⟨S16x4, .f32⟩ : BufTy).Contents (Elt Ideal)) (x8 : (⟨S4, .f32⟩ : BufTy).Contents (Elt Ideal))
  (hs : Spec.InR x1) (hd : Spec.InR x2)

local notation "𝕀" => Spec.inOf x0 x1 x2 hs hd x3 x4 x5 x6 x7 x8

/-- The flag column read at a node is the node's channel 4. -/
theorem cell_apply (n : Fin 50000) : val_main_v3 (F := Ideal) x0 (ix1 n) = x0 (ix2 n 4) := by
  rw [val_main_v3_apply, val_main_v2_apply]
  refine congrArg x0 (funext fun a => ?_)
  match a with
  | ⟨0, _⟩ => exact Fin.ext (Nat.div_one _)
  | ⟨1, _⟩ => rfl

/-- The living-cell mask at a node. -/
theorem mask_apply (n : Fin 50000) : val_main_v6 (F := Ideal) x0 (ix1 n) = Spec.nMask (Spec.xrow 𝕀 n) := by
  rw [val_main_v6_apply, val_main_v5_apply, cell_apply, val_main_v4_apply, val_main_cst_apply]
  rfl

section Agg
variable (hagg : ∀ (n : Fin 50000) (j : Fin 16),
  val_main_v53 (F := Ideal) x0 x1 x2 x4 x5 x6 (ix2 n j) = Spec.csrow (Spec.inOf x0 x1 x2 hs hd x3 x4 x5 x6 x7 x8) n (Fin.castLE (by decide) j))
include hagg

/-- The masked readout at a node: tanh of the affine map of the node's sixteen summed message channels, times the mask. -/
theorem hid_apply (n : Fin 50000) (q : Fin 4) :
    val_main_v61 (F := Ideal) x0 x1 x2 x4 x5 x6 x7 x8 (ix2 n q) = Spec.nHid (Spec.xrow 𝕀 n) (Spec.csrow 𝕀 n) x7 x8 q := by
  have e60 : idx_main_v59 (idx_main_v60 (ix2 n q)) = ix1 n := funext fun a => by match a with | ⟨0, _⟩ => rfl
  have e56 : idx_main_v55 (idx_main_v56 (ix2 n q)) = ix1 q := funext fun a => by match a with | ⟨0, _⟩ => rfl
  have hsum : ∑ k : Fin 16, val_main_v53 (F := Ideal) x0 x1 x2 x4 x5 x6 (lidx_main_v54 (ix2 n q) k) * x7 (ridx_main_v54 (ix2 n q) k)
      = ∑ j : Fin 16, Spec.csrow 𝕀 n (Fin.castLE (by decide) j) * x7 (ix2 j q) :=
    Finset.sum_congr rfl fun k _ => by
      rw [show lidx_main_v54 (ix2 n q) k = ix2 n k from funext fun a => by match a with | ⟨0, _⟩ => rfl | ⟨1, _⟩ => rfl,
        show ridx_main_v54 (ix2 n q) k = ix2 k q from funext fun a => by match a with | ⟨0, _⟩ => rfl | ⟨1, _⟩ => rfl, hagg]
  rw [val_main_v61_apply, val_main_v58_apply, val_main_v57_apply, val_main_v54_apply, hsum, val_main_v56_apply, val_main_v55_apply, e56,
    val_main_v60_apply, val_main_v59_apply, e60, mask_apply x0 x1 x2 x3 x4 x5 x6 x7 x8 hs hd n]
  simp only [Ideal.mulf_def, Ideal.addf_def, Ideal.hostUnary_tanh_def]
  rfl

/-- The clipped new velocity at a node. -/
theorem vel_apply (n : Fin 50000) (a : Fin 2) :
    val_main_v66 (F := Ideal) x0 x1 x2 x4 x5 x6 x7 x8 (ix2 n a) = Spec.nVel (Spec.xrow 𝕀 n) (Spec.csrow 𝕀 n) x7 x8 a := by
  have e62 : idx_main_v62 (ix2 n a) = ix2 n (Fin.castLE (by decide) a) := funext fun b => by match b with | ⟨0, _⟩ => rfl | ⟨1, _⟩ => rfl
  have e1 : idx_main_v1 (ix2 n a) = ix2 n ((Fin.natAdd 2 a).castLE (by decide)) := funext fun b => by match b with | ⟨0, _⟩ => rfl | ⟨1, _⟩ => rfl
  rw [val_main_v66_apply, val_main_call1_v4_apply, val_main_call1_v3_apply, val_main_cst_12_apply,
    val_main_call1_v2_apply, val_main_call1_v1_apply, val_main_call1_v0_apply, val_main_cst_11_apply,
    val_main_v65_apply, val_main_v1_apply, e1, val_main_v64_apply, val_main_v62_apply, e62,
    hid_apply x0 x1 x2 x3 x4 x5 x6 x7 x8 hs hd hagg n, val_main_v63_apply, val_main_cst_10_apply]
  rfl

/-- The new position at a node. -/
theorem pos_apply (n : Fin 50000) (a : Fin 2) :
    val_main_v67 (F := Ideal) x0 x1 x2 x4 x5 x6 x7 x8 (ix2 n a) = Spec.nPos (Spec.xrow 𝕀 n) (Spec.csrow 𝕀 n) x7 x8 a := by
  have e0 : idx_main_v0 (ix2 n a) = ix2 n (Fin.castLE (by decide) a) := funext fun b => by match b with | ⟨0, _⟩ => rfl | ⟨1, _⟩ => rfl
  rw [val_main_v67_apply, val_main_v0_apply, e0, vel_apply x0 x1 x2 x3 x4 x5 x6 x7 x8 hs hd hagg n a]
  rfl

/-- The noisy velocity at a node. -/
theorem noisy_apply (n : Fin 50000) (a : Fin 2) :
    val_main_v77 (F := Ideal) x0 x1 x2 x3 x4 x5 x6 x7 x8 (ix2 n a)
      = Spec.nNoisy (Spec.xrow 𝕀 n) (Spec.csrow 𝕀 n) (Spec.nzrow 𝕀 n) x7 x8 a := by
  have e75 : idx_main_v74 (idx_main_v75 (ix2 n a)) = ix1 n := funext fun b => by match b with | ⟨0, _⟩ => rfl
  rw [val_main_v77_apply, vel_apply x0 x1 x2 x3 x4 x5 x6 x7 x8 hs hd hagg n a, val_main_v76_apply, val_main_v73_apply, val_main_v71_apply,
    val_main_v69_apply, val_main_v68_apply, val_main_cst_13_apply, val_main_v70_apply, val_main_cst_14_apply, val_main_v72_apply,
    val_main_cst_15_apply, val_main_v75_apply, val_main_v74_apply, e75, mask_apply x0 x1 x2 x3 x4 x5 x6 x7 x8 hs hd n]
  rfl

/-- One border term at a node and an axis. -/
theorem border_apply (n : Fin 50000) (a : Fin 2) :
    val_main_v90 (F := Ideal) x0 x1 x2 x4 x5 x6 x7 x8 (ix2 n a) = Spec.nBorder (Spec.xrow 𝕀 n) (Spec.csrow 𝕀 n) x7 x8 a := by
  rw [val_main_v90_apply, val_main_v89_apply, val_main_v88_apply, val_main_v86_apply, val_main_v87_apply, val_main_cst_17_apply,
    val_main_v85_apply, val_main_v84_apply, val_main_v82_apply, val_main_v83_apply, val_main_cst_16_apply,
    pos_apply x0 x1 x2 x3 x4 x5 x6 x7 x8 hs hd hagg n a]
  rfl

/-- Result 0: the joined table is the specification's new node table. -/
theorem newX_of : val_main_v81 (F := Ideal) x0 x1 x2 x3 x4 x5 x6 x7 x8 = Spec.newX 𝕀 := by
  funext i
  obtain ⟨n, col, rfl⟩ : ∃ (n : Fin 50000) (col : Fin 10), i = ix2 n col := ⟨i 0, i 1, eq_ix2 i⟩
  unfold val_main_v81
  match col with
  | ⟨0, _⟩ =>
    exact (cat_0 _ _ _ _ _ _ n _ 0 rfl).trans (pos_apply x0 x1 x2 x3 x4 x5 x6 x7 x8 hs hd hagg n 0)
  | ⟨1, _⟩ =>
    exact (cat_0 _ _ _ _ _ _ n _ 1 rfl).trans (pos_apply x0 x1 x2 x3 x4 x5 x6 x7 x8 hs hd hagg n 1)
  | ⟨2, _⟩ =>
    exact (cat_1 _ _ _ _ _ _ n _ 0 rfl).trans (noisy_apply x0 x1 x2 x3 x4 x5 x6 x7 x8 hs hd hagg n 0)
  | ⟨3, _⟩ =>
    exact (cat_1 _ _ _ _ _ _ n _ 1 rfl).trans (noisy_apply x0 x1 x2 x3 x4 x5 x6 x7 x8 hs hd hagg n 1)
  | ⟨4, _⟩ =>
    refine (cat_2 _ _ _ _ _ _ n _ 0 rfl).trans ?_
    rw [val_main_v78_apply, show idx_main_v78 (ix2 n (0 : Fin 1)) = ix1 n from funext fun b => by match b with | ⟨0, _⟩ => rfl, cell_apply]
    rfl
  | ⟨5, _⟩ =>
    refine (cat_3 _ _ _ _ _ _ n _ 0 rfl).trans ?_
    rw [val_main_v79_apply, show idx_main_v79 (ix2 n (0 : Fin 2)) = ix2 n (2 : Fin 4) from funext fun b => by match b with | ⟨0, _⟩ => rfl | ⟨1, _⟩ => rfl,
      hid_apply x0 x1 x2 x3 x4 x5 x6 x7 x8 hs hd hagg n]
    rfl
  | ⟨6, _⟩ =>
    refine (cat_3 _ _ _ _ _ _ n _ 1 rfl).trans ?_
    rw [val_main_v79_apply, show idx_main_v79 (ix2 n (1 : Fin 2)) = ix2 n (3 : Fin 4) from funext fun b => by match b with | ⟨0, _⟩ => rfl | ⟨1, _⟩ => rfl,
      hid_apply x0 x1 x2 x3 x4 x5 x6 x7 x8 hs hd hagg n]
    rfl
  | ⟨k + 7, hk⟩ =>
    have hk3 : k < 3 := by omega
    refine (cat_4 _ _ _ _ _ _ n _ ⟨k, hk3⟩ (Nat.add_comm 7 k)).trans ?_
    rw [val_main_v80_apply]
    refine congrArg x0 (funext fun b => ?_)
    match b with
    | ⟨0, _⟩ => rfl
    | ⟨1, _⟩ => exact Fin.ext (Nat.add_comm 7 k)

/-- Result 2: the mean absolute new velocity per axis. -/
theorem velBonus_of : val_main_v144 (F := Ideal) x0 x1 x2 x4 x5 x6 x7 x8 = Spec.velBonus 𝕀 := by
  funext i
  obtain ⟨a, rfl⟩ : ∃ a : Fin 2, i = ix1 a := ⟨i 0, eq_ix1 i⟩
  have hsum : ∑ k : Fin 50000, val_main_v141 (F := Ideal) x0 x1 x2 x4 x5 x6 x7 x8 (idx_main_v142 (ix1 a) k)
      = ∑ n : Fin 50000, Spec.absE (Spec.vel 𝕀 n a) :=
    Finset.sum_congr rfl fun k _ => by
      rw [show idx_main_v142 (ix1 a) k = ix2 k a from funext fun b => by match b with | ⟨0, _⟩ => rfl | ⟨1, _⟩ => rfl,
        val_main_v141_apply, vel_apply x0 x1 x2 x3 x4 x5 x6 x7 x8 hs hd hagg k a]
      rfl
  rw [val_main_v144_apply, val_main_v142_apply, hsum, val_main_cst_36_apply, val_main_v143_apply, val_main_cst_37_apply,
    Ideal.ofBits_def, Ideal.ofBits_zero_f32, zero_add]
  rfl

/-- Result 3: the border cost, the double sum over nodes and axes. -/
theorem borderCost_of : val_main_v91 (F := Ideal) x0 x1 x2 x4 x5 x6 x7 x8 = Spec.borderCost 𝕀 := by
  funext i
  rw [val_main_v91_apply, sum_idx2, val_main_cst_18_apply, Ideal.ofBits_def, Ideal.ofBits_zero_f32, zero_add]
  exact Finset.sum_congr rfl fun n _ => Finset.sum_congr rfl fun a _ =>
    border_apply x0 x1 x2 x3 x4 x5 x6 x7 x8 hs hd hagg n a

end Agg

section Deg
variable (hdeg : ∀ n : Fin 50000, val_main_v102 (F := Ideal) x2 (ix1 n) = Spec.csrow (Spec.inOf x0 x1 x2 hs hd x3 x4 x5 x6 x7 x8) n 16)
include hdeg

/-- The dead bit at a node. -/
theorem dead_apply (n : Fin 50000) :
    val_main_v107 (F := Ideal) x0 x2 (ix1 n) = Spec.nDead (Spec.xrow 𝕀 n) (Spec.csrow 𝕀 n) := by
  rw [val_main_v107_apply, val_main_v104_apply, cell_apply, val_main_v103_apply, val_main_cst_24_apply, val_main_v106_apply, hdeg,
    val_main_v105_apply, val_main_cst_25_apply]
  rfl

/-- Result 5: the number of dead nodes. -/
theorem deadCost_of : val_main_v146 (F := Ideal) x0 x2 = Spec.deadCost 𝕀 := by
  funext j
  unfold val_main_v146 val_main_v145 val_main_c_38
  exact (hostCount _ _ _ _ j).trans (congrArg Spec.countBV (funext fun n => dead_apply x0 x1 x2 x3 x4 x5 x6 x7 x8 hs hd hdeg n))

end Deg

section CDeg
variable (hcdeg : ∀ n : Fin 50000, val_main_v133 (F := Ideal) x0 x1 x2 (ix1 n) = Spec.csrow (Spec.inOf x0 x1 x2 hs hd x3 x4 x5 x6 x7 x8) n 17)
include hcdeg

/-- The consumed bit at a node. -/
theorem consumed_apply (n : Fin 50000) :
    val_main_v138 (F := Ideal) x0 x1 x2 (ix1 n) = Spec.nConsumed (Spec.xrow 𝕀 n) (Spec.csrow 𝕀 n) := by
  rw [val_main_v138_apply, val_main_v135_apply, cell_apply, val_main_v134_apply, val_main_cst_34_apply, val_main_v137_apply, hcdeg,
    val_main_v136_apply, val_main_cst_35_apply]
  rfl

/-- Result 4: the number of consumed nodes. -/
theorem foodReward_of : val_main_v148 (F := Ideal) x0 x1 x2 = Spec.foodReward 𝕀 := by
  funext j
  unfold val_main_v148 val_main_v147 val_main_c_39
  exact (hostCount _ _ _ _ j).trans (congrArg Spec.countBV (funext fun n => consumed_apply x0 x1 x2 x3 x4 x5 x6 x7 x8 hs hd hcdeg n))

/-- Result 1: the keep bit per node. -/
theorem keep_of (hdeg : ∀ n : Fin 50000, val_main_v102 (F := Ideal) x2 (ix1 n) = Spec.csrow 𝕀 n 16) :
    val_main_v140 (F := Ideal) x0 x1 x2 = Spec.keep 𝕀 := by
  funext i
  obtain ⟨n, rfl⟩ : ∃ n : Fin 50000, i = ix1 n := ⟨i 0, eq_ix1 i⟩
  rw [val_main_v140_apply, val_main_v139_apply, dead_apply x0 x1 x2 x3 x4 x5 x6 x7 x8 hs hd hdeg n,
    consumed_apply x0 x1 x2 x3 x4 x5 x6 x7 x8 hs hd hcdeg n]
  rfl

end CDeg

section Edge
variable (hdist : ∀ e : Fin 3200000, val_main_v26 (F := Ideal) x0 x1 x2 (ix1 e) = Spec.dist (Spec.inOf x0 x1 x2 hs hd x3 x4 x5 x6 x7 x8) e)
  (hfood : ∀ e : Fin 3200000, val_main_v93 (F := Ideal) x0 x1 (ix1 e) = Spec.food (Spec.inOf x0 x1 x2 hs hd x3 x4 x5 x6 x7 x8) e)

include hfood in
/-- Result 6: the number of food-source edges. -/
theorem visibleFood_of : val_main_v95 (F := Ideal) x0 x1 = Spec.visibleFood 𝕀 := by
  funext j
  unfold val_main_v95 val_main_v94 val_main_c_20
  exact (hostCount _ _ _ _ j).trans (congrArg Spec.countBV (funext fun e => hfood e))

include hdist hfood in
/-- Result 7: the summed length of the food-source edges. -/
theorem foodDist_of : val_main_v98 (F := Ideal) x0 x1 x2 = Spec.foodDist 𝕀 := by
  funext j
  rw [val_main_v98_apply, sum_idx1, val_main_cst_21_apply, Ideal.ofBits_def, Ideal.ofBits_zero_f32, zero_add]
  refine Finset.sum_congr rfl fun e _ => ?_
  rw [val_main_v97_apply, hdist, val_main_v96_apply, hfood]
  rfl

end Edge

end Cert.ReferenceIdeal.RefN

end
-- ==== Proof.LibGatherFlat.lean ====
/-
  A host gather of single entries of a vector, read at one element, for any extents: the gather of an [N] vector at an
  [n × 1] column of positions (the one operand axis collapsed and start-indexed, no offset axes, the index vector on
  axis 1) is, at result position p, the vector's entry at position p's number read signed and clamped into [0, N − 1].
-/
import Idealize.ShloMosaic.PureOps.Ideal
import Idealize.ShloMosaic.PureOps.Contract
import Idealize.ShloMosaic.Lib.ValueIdx
import Idealize.ShloMosaic.Lib.StableHlo.Predicate

noncomputable section

namespace Cert.LibSG

open Idealize.ShloMosaic Idealize.ShloMosaic.ValueIdx Idealize.ShloMosaic.StableHlo.Predicate

/-- Entries gathered from an [N] vector at an [n × 1] column of positions: entry p of the result is the vector's entry
    at row p's number read signed and clamped into [0, N − 1]. -/
theorem gather_flat {α : Type} {N n w : ℕ} (d : GatherDims ⟨1, ![N]⟩ ⟨2, ![n, 1]⟩ ⟨1, ![n]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1])
    (x : (⟨1, ![N]⟩ : Shape).Idx → α) (idx : IVec ⟨2, ![n, 1]⟩ w) (p : Fin n) (hN : 0 < N) :
    Host.gather d x idx (ix1 p) = x (ix1 (⟨min (idx (ixP p)).toInt.toNat (N - 1), by omega⟩ : Fin N)) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨1, ![N]⟩) (si := ⟨2, ![n, 1]⟩) (t := ⟨1, ![n]⟩) [] [0] [] [] [0] 1 ![1] wf).siIdx (ix1 p) c = ixP p := by
      intro c
      funext b; refine Fin.ext ?_
      match b with
      | ⟨0, _⟩ => rfl
      | ⟨1, _⟩ => exact Nat.lt_one_iff.mp c.isLt
    rw [hsi]
    rfl

end Cert.LibSG

end
-- ==== Proof.RefEdge.lean ====
/-
  The reference's edge-level values and its three accumulating scatters, read at one element, are the specification's.
  The reference gathers node rows at the edge end points: a negative number is wrapped by the table's height and the
  row number is clamped into the table.  When every end point is a node number neither applies, so the gathered row is
  the end point's row; the edge's offsets, length, four attributes, message and bits are then the specification's
  functions of the source's row, the destination's position and the destination's flag.  An update of an accumulating
  scatter lands on node n exactly when its edge's destination is n, and the target is the zero table, so each scatter,
  read at node n, is the sum over the edges that end at n: of the message channels, of the constant one, and of the
  consumption bits as 0 or 1 — the eighteen column sums of the edges' rows.
-/
import proofs.«426050_j60911226191976_3_alg».proof.Proof.RefRead
import proofs.«426050_j60911226191976_3_alg».proof.Proof.Spec
import proofs.«426050_j60911226191976_3_alg».proof.Proof.Decode
import proofs.«426050_j60911226191976_3_alg».proof.Proof.LibScatterGather
import proofs.«426050_j60911226191976_3_alg».proof.Proof.LibGatherFlat
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefV

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo.Predicate

variable (x0 : (⟨S50000x10, .f32⟩ : BufTy).Contents (Elt Ideal)) (x1 x2 : (⟨S3200000, .i32⟩ : BufTy).Contents (Elt Ideal))
  (x3 : (⟨S50000x2, .f32⟩ : BufTy).Contents (Elt Ideal)) (x4 : (⟨S4x16, .f32⟩ : BufTy).Contents (Elt Ideal))
  (x5 : (⟨S10x16, .f32⟩ : BufTy).Contents (Elt Ideal)) (x6 : (⟨S16, .f32⟩ : BufTy).Contents (Elt Ideal))
  (x7 : (⟨S16x4, .f32⟩ : BufTy).Contents (Elt Ideal)) (x8 : (⟨S4, .f32⟩ : BufTy).Contents (Elt Ideal))
  (hs : Spec.InR x1) (hd : Spec.InR x2)

/-- The graph's arguments read off the nine argument arrays. -/
abbrev I : Spec.In := Spec.inOf x0 x1 x2 hs hd x3 x4 x5 x6 x7 x8

/-! ## Words: an in-range end point is neither wrapped nor clamped -/

/-- A word that reads non-negative is not below zero, so the wrap's select keeps it. -/
theorem wrap_id (v : BitVec 32) (h0 : 0 ≤ v.toInt) :
    Scalar.select (IntOp.cmpi .slt v 0#32) (IntOp.addi v 50000#32) v = v := by
  have hz : (0#32 : BitVec 32).toInt = 0 := by decide
  have hlt : v.slt 0#32 = false := by
    rw [BitVec.slt, hz]
    exact decide_eq_false (not_lt.mpr h0)
  have hc : IntOp.cmpi .slt v 0#32 = 0#1 := by
    unfold IntOp.cmpi
    show BitVec.ofBool (v.slt 0#32) = 0#1
    rw [hlt]; rfl
  rw [hc]
  exact select_zero _ _

/-- The row number a gather reads at an in-range end point — the word read signed and clamped into the table — is the
    end point's node number. -/
theorem clamp_dec (v : IVec ⟨1, ![3200000]⟩ 32) (h : Spec.InR v) (e : Fin 3200000) (w : BitVec 32) (hw : w = v (ix1 e))
    (pf : min w.toInt.toNat (50000 - 1) < 50000) :
    (⟨min w.toInt.toNat (50000 - 1), pf⟩ : Fin 50000) = Spec.dec v h e := by
  subst hw
  apply Fin.ext
  have := h e
  show min (v (ix1 e)).toInt.toNat (50000 - 1) = (v (ix1 e)).toInt.toNat
  omega

/-- The updates of a scatter at the column of destination words that land on node n are the edges that end at n. -/
theorem into_filter (idx : IVec ⟨2, ![3200000, 1]⟩ 32) (hidx : ∀ e : Fin 3200000, idx (ixP e) = x2 (ix1 e)) (n : Fin 50000) :
    (Finset.univ.filter fun e : Fin 3200000 => (idx (ixP e)).toInt = (n.val : ℤ))
      = Spec.into (I x0 x1 x2 x3 x4 x5 x6 x7 x8 hs hd) n := by
  unfold Spec.into
  refine Finset.filter_congr fun e _ => ?_
  show _ ↔ Spec.dec x2 hd e = n
  rw [hidx e, ← Spec.dec_val x2 hd e]
  constructor
  · intro h
    exact Fin.ext (by exact_mod_cast h)
  · intro h
    rw [h]

/-! ## The six wrapped columns of end points -/

include hs in
theorem v12_at (e : Fin 3200000) : val_main_v12 (F := Ideal) x1 (ixP e) = x1 (ix1 e) := by
  have hi : idx_main_v12 (ixP e) = ix1 e := funext fun a => by match a with | ⟨0, _⟩ => rfl
  rw [val_main_v12_apply, hi, val_main_v11_apply, val_main_v8_apply, val_main_v10_apply, val_main_v7_apply,
    val_main_v9_apply, val_main_c_apply, val_main_c_0_apply]
  exact wrap_id _ (hs e).1

include hd in
theorem v19_at (e : Fin 3200000) : val_main_v19 (F := Ideal) x2 (ixP e) = x2 (ix1 e) := by
  have hi : idx_main_v19 (ixP e) = ix1 e := funext fun a => by match a with | ⟨0, _⟩ => rfl
  rw [val_main_v19_apply, hi, val_main_v18_apply, val_main_v15_apply, val_main_v17_apply, val_main_v14_apply,
    val_main_v16_apply, val_main_c_1_apply, val_main_c_2_apply]
  exact wrap_id _ (hd e).1

include hs in
theorem v32_at (e : Fin 3200000) : val_main_v32 (F := Ideal) x1 (ixP e) = x1 (ix1 e) := by
  have hi : idx_main_v32 (ixP e) = ix1 e := funext fun a => by match a with | ⟨0, _⟩ => rfl
  rw [val_main_v32_apply, hi, val_main_v31_apply, val_main_v28_apply, val_main_v30_apply, val_main_v27_apply,
    val_main_v29_apply, val_main_c_5_apply, val_main_c_6_apply]
  exact wrap_id _ (hs e).1

include hs in
theorem v43_at (e : Fin 3200000) : val_main_v43 (F := Ideal) x1 (ixP e) = x1 (ix1 e) := by
  have hi : idx_main_v43 (ixP e) = ix1 e := funext fun a => by match a with | ⟨0, _⟩ => rfl
  rw [val_main_v43_apply, hi, val_main_v42_apply, val_main_v39_apply, val_main_v41_apply, val_main_v38_apply,
    val_main_v40_apply, val_main_c_7_apply, val_main_c_8_apply]
  exact wrap_id _ (hs e).1

include hs in
theorem v115_at (e : Fin 3200000) : val_main_v115 (F := Ideal) x1 (ixP e) = x1 (ix1 e) := by
  have hi : idx_main_v115 (ixP e) = ix1 e := funext fun a => by match a with | ⟨0, _⟩ => rfl
  rw [val_main_v115_apply, hi, val_main_v114_apply, val_main_v111_apply, val_main_v113_apply, val_main_v110_apply,
    val_main_v112_apply, val_main_c_27_apply, val_main_c_28_apply]
  exact wrap_id _ (hs e).1

include hd in
theorem v125_at (e : Fin 3200000) : val_main_v125 (F := Ideal) x2 (ixP e) = x2 (ix1 e) := by
  have hi : idx_main_v125 (ixP e) = ix1 e := funext fun a => by match a with | ⟨0, _⟩ => rfl
  rw [val_main_v125_apply, hi, val_main_v124_apply, val_main_v121_apply, val_main_v123_apply, val_main_v120_apply,
    val_main_v122_apply, val_main_c_30_apply, val_main_c_31_apply]
  exact wrap_id _ (hd e).1

/-! ## The gathered rows -/

include hs in
/-- The position gathered at an edge's source is the source's. -/
theorem v13_at (e : Fin 3200000) (a : Fin 2) :
    val_main_v13 (F := Ideal) x0 x1 (ix2 e a) = x0 (ix2 (Spec.dec x1 hs e) (Fin.castLE (by decide) a)) := by
  unfold val_main_v13
  rw [Cert.LibSG.gather_rows gather_S50000x2_S3200000x1_S3200000x2_1_0_n_n_0_1_12 rfl rfl rfl rfl rfl rfl rfl _ _ e a (by decide),
    clamp_dec x1 hs e _ (v12_at x1 hs e), val_main_v0_apply]
  exact congrArg x0 (funext fun b => by match b with | ⟨0, _⟩ => rfl | ⟨1, _⟩ => rfl)

include hd in
/-- The position gathered at an edge's destination is the destination's. -/
theorem v20_at (e : Fin 3200000) (a : Fin 2) :
    val_main_v20 (F := Ideal) x0 x2 (ix2 e a) = x0 (ix2 (Spec.dec x2 hd e) (Fin.castLE (by decide) a)) := by
  unfold val_main_v20
  rw [Cert.LibSG.gather_rows gather_S50000x2_S3200000x1_S3200000x2_1_0_n_n_0_1_12 rfl rfl rfl rfl rfl rfl rfl _ _ e a (by decide),
    clamp_dec x2 hd e _ (v19_at x2 hd e), val_main_v0_apply]
  exact congrArg x0 (funext fun b => by match b with | ⟨0, _⟩ => rfl | ⟨1, _⟩ => rfl)

include hs in
/-- The whole row gathered at an edge's source is the source's. -/
theorem v44_at (e : Fin 3200000) (k : Fin 10) :
    val_main_v44 (F := Ideal) x0 x1 (ix2 e k) = x0 (ix2 (Spec.dec x1 hs e) k) := by
  unfold val_main_v44
  rw [Cert.LibSG.gather_rows gather_S50000x10_S3200000x1_S3200000x10_1_0_n_n_0_1_110 rfl rfl rfl rfl rfl rfl rfl _ _ e k (by decide),
    clamp_dec x1 hs e _ (v43_at x1 hs e)]

/-- The flag vector, entry n, is channel 4 of node n. -/
theorem cell_at (n : Fin 50000) : val_main_v3 (F := Ideal) x0 (ix1 n) = x0 (ix2 n 4) := by
  rw [val_main_v3_apply, val_main_v2_apply]
  exact congrArg x0 (funext fun b => by
    match b with
    | ⟨0, _⟩ => exact Fin.ext (Nat.div_one _)
    | ⟨1, _⟩ => rfl)

include hs in
/-- The flag gathered at an edge's source (for the attributes and the food-source bit). -/
theorem v33_at (e : Fin 3200000) : val_main_v33 (F := Ideal) x0 x1 (ix1 e) = x0 (ix2 (Spec.dec x1 hs e) 4) := by
  unfold val_main_v33
  rw [Cert.LibSG.gather_flat gather_S50000_S3200000x1_S3200000_n_0_n_n_0_1_1 rfl rfl rfl rfl rfl rfl rfl _ _ e (by decide),
    clamp_dec x1 hs e _ (v32_at x1 hs e), cell_at]

include hs in
/-- The flag gathered at an edge's source (for the consumption bit). -/
theorem v116_at (e : Fin 3200000) : val_main_v116 (F := Ideal) x0 x1 (ix1 e) = x0 (ix2 (Spec.dec x1 hs e) 4) := by
  unfold val_main_v116
  rw [Cert.LibSG.gather_flat gather_S50000_S3200000x1_S3200000_n_0_n_n_0_1_1 rfl rfl rfl rfl rfl rfl rfl _ _ e (by decide),
    clamp_dec x1 hs e _ (v115_at x1 hs e), cell_at]

include hd in
/-- The flag gathered at an edge's destination. -/
theorem v126_at (e : Fin 3200000) : val_main_v126 (F := Ideal) x0 x2 (ix1 e) = x0 (ix2 (Spec.dec x2 hd e) 4) := by
  unfold val_main_v126
  rw [Cert.LibSG.gather_flat gather_S50000_S3200000x1_S3200000_n_0_n_n_0_1_1 rfl rfl rfl rfl rfl rfl rfl _ _ e (by decide),
    clamp_dec x2 hd e _ (v125_at x2 hd e), cell_at]

/-! ## One edge: offsets, length, bits -/

/-- The offset of the source from the destination, coordinate a. -/
theorem v21_at (e : Fin 3200000) (a : Fin 2) :
    val_main_v21 (F := Ideal) x0 x1 x2 (ix2 e a)
      = Spec.eDlt (Spec.xrow (I x0 x1 x2 x3 x4 x5 x6 x7 x8 hs hd) ((I x0 x1 x2 x3 x4 x5 x6 x7 x8 hs hd).s e))
          (Spec.prow (I x0 x1 x2 x3 x4 x5 x6 x7 x8 hs hd) e) a := by
  rw [val_main_v21_apply, v13_at x0 x1 hs, v20_at x0 x2 hd]
  rfl

theorem dist_apply (e : Fin 3200000) :
    val_main_v26 (F := Ideal) x0 x1 x2 (ix1 e) = Spec.dist (I x0 x1 x2 x3 x4 x5 x6 x7 x8 hs hd) e := by
  have hk : ∀ k : Fin 2, val_main_v22 (F := Ideal) x0 x1 x2 (idx_main_v23 (ix1 e) k)
      = Spec.eDlt (Spec.xrow (I x0 x1 x2 x3 x4 x5 x6 x7 x8 hs hd) ((I x0 x1 x2 x3 x4 x5 x6 x7 x8 hs hd).s e))
          (Spec.prow (I x0 x1 x2 x3 x4 x5 x6 x7 x8 hs hd) e) k
        * Spec.eDlt (Spec.xrow (I x0 x1 x2 x3 x4 x5 x6 x7 x8 hs hd) ((I x0 x1 x2 x3 x4 x5 x6 x7 x8 hs hd).s e))
          (Spec.prow (I x0 x1 x2 x3 x4 x5 x6 x7 x8 hs hd) e) k := by
    intro k
    have hi : idx_main_v23 (ix1 e) k = ix2 e k := funext fun a => by match a with | ⟨0, _⟩ => rfl | ⟨1, _⟩ => rfl
    rw [hi, val_main_v22_apply, v21_at x0 x1 x2 x3 x4 x5 x6 x7 x8 hs hd]
    rfl
  rw [val_main_v26_apply, val_main_v25_apply, val_main_v23_apply, val_main_v24_apply, val_main_cst_4_apply,
    val_main_cst_3_apply]
  simp only [hk, Ideal.ofBits_def, Ideal.ofBits_zero_f32, zero_add]
  rfl

theorem food_apply (e : Fin 3200000) :
    val_main_v93 (F := Ideal) x0 x1 (ix1 e) = Spec.food (I x0 x1 x2 x3 x4 x5 x6 x7 x8 hs hd) e := by
  rw [val_main_v93_apply, v33_at x0 x1 hs, val_main_v92_apply, val_main_cst_19_apply]
  rfl

/-! ## One edge: the four attributes, the message -/

/-- The attribute table is the concatenation, along the columns, of the length, the two offsets and the source's flag. -/
abbrev attrPieces : List ((s : Shape) × (s.Idx → EReal)) :=
  [⟨S3200000x1, val_main_v34 (F := Ideal) x0 x1 x2⟩, ⟨S3200000x2, val_main_v21 (F := Ideal) x0 x1 x2⟩,
    ⟨S3200000x1, val_main_v35 (F := Ideal) x0 x1⟩]

theorem v36_eq : val_main_v36 (F := Ideal) x0 x1 x2
    = concatenate S3200000x4 1 (attrPieces x0 x1 x2) concatenates_S3200000x1_S3200000x2_S3200000x1_S3200000x4_d1 := rfl

/-- The length as a column, at edge e. -/
theorem v34_at (e : Fin 3200000) :
    val_main_v34 (F := Ideal) x0 x1 x2 (ixP e) = Spec.dist (I x0 x1 x2 x3 x4 x5 x6 x7 x8 hs hd) e := by
  have hi : idx_main_v34 (ixP e) = ix1 e := funext fun a => by match a with | ⟨0, _⟩ => rfl
  rw [val_main_v34_apply, hi, dist_apply x0 x1 x2 x3 x4 x5 x6 x7 x8 hs hd]

include hs in
/-- The source's flag as a column, at edge e. -/
theorem v35_at (e : Fin 3200000) : val_main_v35 (F := Ideal) x0 x1 (ixP e) = x0 (ix2 (Spec.dec x1 hs e) 4) := by
  have hi : idx_main_v35 (ixP e) = ix1 e := funext fun a => by match a with | ⟨0, _⟩ => rfl
  rw [val_main_v35_apply, hi, v33_at x0 x1 hs]

/-- Column k of the attribute table at edge e is the edge's attribute k. -/
theorem attr_apply (e : Fin 3200000) (k : Fin 4) :
    val_main_v36 (F := Ideal) x0 x1 x2 (ix2 e k)
      = Spec.eAttr (Spec.xrow (I x0 x1 x2 x3 x4 x5 x6 x7 x8 hs hd) ((I x0 x1 x2 x3 x4 x5 x6 x7 x8 hs hd).s e))
          (Spec.prow (I x0 x1 x2 x3 x4 x5 x6 x7 x8 hs hd) e) k := by
  rw [v36_eq]
  match k with
  | ⟨0, h⟩ =>
    rw [concatenate_apply_piece (t := S3200000x4) 1 (attrPieces x0 x1 x2) concatenates_S3200000x1_S3200000x2_S3200000x1_S3200000x4_d1
      (ix2 e ⟨0, h⟩) 0 (by decide : (0 : ℕ) < 3) S3200000x1 (val_main_v34 (F := Ideal) x0 x1 x2) rfl rfl 0 rfl (ixP e)
      (fun b hb => by match b with | ⟨0, _⟩ => rfl | ⟨1, _⟩ => exact absurd rfl hb) rfl,
      v34_at x0 x1 x2 x3 x4 x5 x6 x7 x8 hs hd]
    rfl
  | ⟨1, h⟩ =>
    rw [concatenate_apply_piece (t := S3200000x4) 1 (attrPieces x0 x1 x2) concatenates_S3200000x1_S3200000x2_S3200000x1_S3200000x4_d1
      (ix2 e ⟨1, h⟩) 1 (by decide : (1 : ℕ) < 3) S3200000x2 (val_main_v21 (F := Ideal) x0 x1 x2) rfl rfl 1 rfl (ix2 e 0)
      (fun b hb => by match b with | ⟨0, _⟩ => rfl | ⟨1, _⟩ => exact absurd rfl hb) rfl,
      v21_at x0 x1 x2 x3 x4 x5 x6 x7 x8 hs hd]
    rfl
  | ⟨2, h⟩ =>
    rw [concatenate_apply_piece (t := S3200000x4) 1 (attrPieces x0 x1 x2) concatenates_S3200000x1_S3200000x2_S3200000x1_S3200000x4_d1
      (ix2 e ⟨2, h⟩) 1 (by decide : (1 : ℕ) < 3) S3200000x2 (val_main_v21 (F := Ideal) x0 x1 x2) rfl rfl 1 rfl (ix2 e 1)
      (fun b hb => by match b with | ⟨0, _⟩ => rfl | ⟨1, _⟩ => exact absurd rfl hb) rfl,
      v21_at x0 x1 x2 x3 x4 x5 x6 x7 x8 hs hd]
    rfl
  | ⟨3, h⟩ =>
    rw [concatenate_apply_piece (t := S3200000x4) 1 (attrPieces x0 x1 x2) concatenates_S3200000x1_S3200000x2_S3200000x1_S3200000x4_d1
      (ix2 e ⟨3, h⟩) 2 (by decide : (2 : ℕ) < 3) S3200000x1 (val_main_v35 (F := Ideal) x0 x1) rfl rfl 3 rfl (ixP e)
      (fun b hb => by match b with | ⟨0, _⟩ => rfl | ⟨1, _⟩ => exact absurd rfl hb) rfl,
      v35_at x0 x1 hs]
    rfl

/-- Channel j of the rectified affine map at edge e is the edge's message channel j. -/
theorem msg_apply (e : Fin 3200000) (j : Fin 16) :
    val_main_v50 (F := Ideal) x0 x1 x2 x4 x5 x6 (ix2 e j)
      = Spec.eMsg (Spec.xrow (I x0 x1 x2 x3 x4 x5 x6 x7 x8 hs hd) ((I x0 x1 x2 x3 x4 x5 x6 x7 x8 hs hd).s e))
          (Spec.prow (I x0 x1 x2 x3 x4 x5 x6 x7 x8 hs hd) e) x4 x5 x6 j := by
  have e1 : ∀ k : Fin 4, val_main_v36 (F := Ideal) x0 x1 x2 (lidx_main_v37 (ix2 e j) k) * x4 (ridx_main_v37 (ix2 e j) k)
      = Spec.eAttr (Spec.xrow (I x0 x1 x2 x3 x4 x5 x6 x7 x8 hs hd) ((I x0 x1 x2 x3 x4 x5 x6 x7 x8 hs hd).s e))
          (Spec.prow (I x0 x1 x2 x3 x4 x5 x6 x7 x8 hs hd) e) k * x4 (ix2 k j) := by
    intro k
    have hl : lidx_main_v37 (ix2 e j) k = ix2 e k := funext fun a => by match a with | ⟨0, _⟩ => rfl | ⟨1, _⟩ => rfl
    have hr : ridx_main_v37 (ix2 e j) k = ix2 k j := funext fun a => by match a with | ⟨0, _⟩ => rfl | ⟨1, _⟩ => rfl
    rw [hl, hr, attr_apply x0 x1 x2 x3 x4 x5 x6 x7 x8 hs hd]
  have e2 : ∀ k : Fin 10, val_main_v44 (F := Ideal) x0 x1 (lidx_main_v45 (ix2 e j) k) * x5 (ridx_main_v45 (ix2 e j) k)
      = Spec.xrow (I x0 x1 x2 x3 x4 x5 x6 x7 x8 hs hd) ((I x0 x1 x2 x3 x4 x5 x6 x7 x8 hs hd).s e) k * x5 (ix2 k j) := by
    intro k
    have hl : lidx_main_v45 (ix2 e j) k = ix2 e k := funext fun a => by match a with | ⟨0, _⟩ => rfl | ⟨1, _⟩ => rfl
    have hr : ridx_main_v45 (ix2 e j) k = ix2 k j := funext fun a => by match a with | ⟨0, _⟩ => rfl | ⟨1, _⟩ => rfl
    rw [hl, hr, v44_at x0 x1 hs]
    rfl
  have e3 : val_main_v48 (F := Ideal) x6 (ix2 e j) = x6 (ix1 j) := by
    rw [val_main_v48_apply, val_main_v47_apply]
    exact congrArg x6 (funext fun a => by match a with | ⟨0, _⟩ => rfl)
  rw [val_main_v50_apply, val_main_v49_apply, val_main_v46_apply, val_main_v37_apply, val_main_v45_apply, e3,
    val_main_call0_v0_apply, val_main_call0_cst_apply]
  simp only [e1, e2]
  rfl

/-! ## The three scatters -/

/-- The column of destination words the message scatter reads, at edge e. -/
theorem v52_at (e : Fin 3200000) : val_main_v52 (F := Ideal) x2 (ixP e) = x2 (ix1 e) := by
  rw [val_main_v52_apply]
  exact congrArg x2 (funext fun a => by match a with | ⟨0, _⟩ => rfl)

theorem v101_at (e : Fin 3200000) : val_main_v101 (F := Ideal) x2 (ixP e) = x2 (ix1 e) := by
  rw [val_main_v101_apply]
  exact congrArg x2 (funext fun a => by match a with | ⟨0, _⟩ => rfl)

theorem v132_at (e : Fin 3200000) : val_main_v132 (F := Ideal) x2 (ixP e) = x2 (ix1 e) := by
  rw [val_main_v132_apply]
  exact congrArg x2 (funext fun a => by match a with | ⟨0, _⟩ => rfl)

theorem agg_apply (n : Fin 50000) (j : Fin 16) :
    val_main_v53 (F := Ideal) x0 x1 x2 x4 x5 x6 (ix2 n j)
      = Spec.csrow (I x0 x1 x2 x3 x4 x5 x6 x7 x8 hs hd) n (Fin.castLE (by decide) j) := by
  unfold val_main_v53
  rw [Cert.LibSG.scatterAdd_rows scatter_S50000x16_S3200000x1_S3200000x16_1_0_0_1 rfl rfl rfl rfl _ _ _ n j,
    into_filter x0 x1 x2 x3 x4 x5 x6 x7 x8 hs hd (val_main_v52 (F := Ideal) x2) (v52_at x2) n,
    val_main_v51_apply, val_main_cst_9_apply]
  simp only [Ideal.ofBits_def, Ideal.ofBits_zero_f32, zero_add]
  show _ = ∑ e ∈ Spec.into (I x0 x1 x2 x3 x4 x5 x6 x7 x8 hs hd) n, Spec.erow (I x0 x1 x2 x3 x4 x5 x6 x7 x8 hs hd) e (Fin.castLE (by decide) j)
  refine Finset.sum_congr rfl fun e _ => ?_
  rw [msg_apply x0 x1 x2 x3 x4 x5 x6 x7 x8 hs hd]
  unfold Spec.erow Spec.eRow
  rw [dif_pos (show (Fin.castLE (by decide : 16 ≤ 18) j).val < 16 from j.isLt)]
  rfl

theorem deg_apply (n : Fin 50000) :
    val_main_v102 (F := Ideal) x2 (ix1 n) = Spec.csrow (I x0 x1 x2 x3 x4 x5 x6 x7 x8 hs hd) n 16 := by
  unfold val_main_v102
  rw [Cert.LibSG.scatterAdd_flat scatter_S50000_S3200000x1_S3200000_n_0_0_1 rfl rfl rfl rfl _ _ _ n,
    into_filter x0 x1 x2 x3 x4 x5 x6 x7 x8 hs hd (val_main_v101 (F := Ideal) x2) (v101_at x2) n,
    val_main_v100_apply, val_main_cst_23_apply]
  simp only [Ideal.ofBits_def, Ideal.ofBits_zero_f32, zero_add]
  show _ = ∑ e ∈ Spec.into (I x0 x1 x2 x3 x4 x5 x6 x7 x8 hs hd) n, Spec.erow (I x0 x1 x2 x3 x4 x5 x6 x7 x8 hs hd) e 16
  refine Finset.sum_congr rfl fun e _ => ?_
  rw [val_main_v99_apply, val_main_cst_22_apply]
  unfold Spec.erow Spec.eRow
  rw [dif_neg (by decide), if_pos (by decide)]
  rfl

theorem cdeg_apply (n : Fin 50000) :
    val_main_v133 (F := Ideal) x0 x1 x2 (ix1 n) = Spec.csrow (I x0 x1 x2 x3 x4 x5 x6 x7 x8 hs hd) n 17 := by
  unfold val_main_v133
  rw [Cert.LibSG.scatterAdd_flat scatter_S50000_S3200000x1_S3200000_n_0_0_1 rfl rfl rfl rfl _ _ _ n,
    into_filter x0 x1 x2 x3 x4 x5 x6 x7 x8 hs hd (val_main_v132 (F := Ideal) x2) (v132_at x2) n,
    val_main_v131_apply, val_main_cst_33_apply]
  simp only [Ideal.ofBits_def, Ideal.ofBits_zero_f32, zero_add]
  show _ = ∑ e ∈ Spec.into (I x0 x1 x2 x3 x4 x5 x6 x7 x8 hs hd) n, Spec.erow (I x0 x1 x2 x3 x4 x5 x6 x7 x8 hs hd) e 17
  refine Finset.sum_congr rfl fun e _ => ?_
  rw [val_main_v130_apply, val_main_v129_apply, val_main_v119_apply, val_main_v109_apply, val_main_v118_apply,
    val_main_v128_apply, dist_apply x0 x1 x2 x3 x4 x5 x6 x7 x8 hs hd, v116_at x0 x1 hs, v126_at x0 x2 hd,
    val_main_v108_apply, val_main_cst_26_apply, val_main_v117_apply, val_main_cst_29_apply, val_main_v127_apply,
    val_main_cst_32_apply]
  unfold Spec.erow Spec.eRow
  rw [dif_neg (by decide), if_neg (by decide)]
  rfl

end Cert.ReferenceIdeal.RefV

end
-- ==== Proof.RefVals.lean ====
/-
  The reference's eight results are the specification's.  The reference gathers node rows at the edge end points
  (negative numbers wrapped, the row number clamped into the table), computes every edge's length, message and bits,
  sums them into their destination nodes by three accumulating scatters (messages, ones, consumption bits), and
  updates every node.  When every end point is a node number the wrap and the clamp never apply, an edge lands on
  node n exactly when its destination is n, and each result, read at an index, is the specification's: the edge-level
  and scatter-level facts give each node its eighteen column sums, each edge its length and food-source bit, and the
  node-level reading of the remaining stages turns these into the eight results.
-/
import proofs.«426050_j60911226191976_3_alg».proof.Proof.RefRead
import proofs.«426050_j60911226191976_3_alg».proof.Proof.Spec
import proofs.«426050_j60911226191976_3_alg».proof.Proof.Decode
import proofs.«426050_j60911226191976_3_alg».proof.Proof.LibScatterGather
import proofs.«426050_j60911226191976_3_alg».proof.Proof.RefNode
import proofs.«426050_j60911226191976_3_alg».proof.Proof.RefEdge
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefV

open Cert.ReferenceIdeal Cert.ReferenceIdeal.Gen Cert.ReferenceIdeal.Read Idealize.ShloMosaic Idealize.ShloMosaic.TcCoe Idealize.ShloMosaic.ValueIdx Idealize.SL.Sem

variable (x0 : (⟨S50000x10, .f32⟩ : BufTy).Contents (Elt Ideal)) (x1 x2 : (⟨S3200000, .i32⟩ : BufTy).Contents (Elt Ideal))
  (x3 : (⟨S50000x2, .f32⟩ : BufTy).Contents (Elt Ideal)) (x4 : (⟨S4x16, .f32⟩ : BufTy).Contents (Elt Ideal))
  (x5 : (⟨S10x16, .f32⟩ : BufTy).Contents (Elt Ideal)) (x6 : (⟨S16, .f32⟩ : BufTy).Contents (Elt Ideal))
  (x7 : (⟨S16x4, .f32⟩ : BufTy).Contents (Elt Ideal)) (x8 : (⟨S4, .f32⟩ : BufTy).Contents (Elt Ideal))
  (hs : Spec.InR x1) (hd : Spec.InR x2)

theorem newX_eq : val_main_v81 (F := Ideal) x0 x1 x2 x3 x4 x5 x6 x7 x8 = Spec.newX (I x0 x1 x2 x3 x4 x5 x6 x7 x8 hs hd) :=
  RefN.newX_of x0 x1 x2 x3 x4 x5 x6 x7 x8 hs hd (agg_apply x0 x1 x2 x3 x4 x5 x6 x7 x8 hs hd)

theorem keep_eq : val_main_v140 (F := Ideal) x0 x1 x2 = Spec.keep (I x0 x1 x2 x3 x4 x5 x6 x7 x8 hs hd) :=
  RefN.keep_of x0 x1 x2 x3 x4 x5 x6 x7 x8 hs hd (cdeg_apply x0 x1 x2 x3 x4 x5 x6 x7 x8 hs hd) (deg_apply x0 x1 x2 x3 x4 x5 x6 x7 x8 hs hd)

theorem velBonus_eq : val_main_v144 (F := Ideal) x0 x1 x2 x4 x5 x6 x7 x8 = Spec.velBonus (I x0 x1 x2 x3 x4 x5 x6 x7 x8 hs hd) :=
  RefN.velBonus_of x0 x1 x2 x3 x4 x5 x6 x7 x8 hs hd (agg_apply x0 x1 x2 x3 x4 x5 x6 x7 x8 hs hd)

theorem borderCost_eq : val_main_v91 (F := Ideal) x0 x1 x2 x4 x5 x6 x7 x8 = Spec.borderCost (I x0 x1 x2 x3 x4 x5 x6 x7 x8 hs hd) :=
  RefN.borderCost_of x0 x1 x2 x3 x4 x5 x6 x7 x8 hs hd (agg_apply x0 x1 x2 x3 x4 x5 x6 x7 x8 hs hd)

theorem foodReward_eq : val_main_v148 (F := Ideal) x0 x1 x2 = Spec.foodReward (I x0 x1 x2 x3 x4 x5 x6 x7 x8 hs hd) :=
  RefN.foodReward_of x0 x1 x2 x3 x4 x5 x6 x7 x8 hs hd (cdeg_apply x0 x1 x2 x3 x4 x5 x6 x7 x8 hs hd)

theorem deadCost_eq : val_main_v146 (F := Ideal) x0 x2 = Spec.deadCost (I x0 x1 x2 x3 x4 x5 x6 x7 x8 hs hd) :=
  RefN.deadCost_of x0 x1 x2 x3 x4 x5 x6 x7 x8 hs hd (deg_apply x0 x1 x2 x3 x4 x5 x6 x7 x8 hs hd)

theorem visibleFood_eq : val_main_v95 (F := Ideal) x0 x1 = Spec.visibleFood (I x0 x1 x2 x3 x4 x5 x6 x7 x8 hs hd) :=
  RefN.visibleFood_of x0 x1 x2 x3 x4 x5 x6 x7 x8 hs hd (food_apply x0 x1 x2 x3 x4 x5 x6 x7 x8 hs hd)

theorem foodDist_eq : val_main_v98 (F := Ideal) x0 x1 x2 = Spec.foodDist (I x0 x1 x2 x3 x4 x5 x6 x7 x8 hs hd) :=
  RefN.foodDist_of x0 x1 x2 x3 x4 x5 x6 x7 x8 hs hd (dist_apply x0 x1 x2 x3 x4 x5 x6 x7 x8 hs hd) (food_apply x0 x1 x2 x3 x4 x5 x6 x7 x8 hs hd)

end Cert.ReferenceIdeal.RefV

end
-- ==== Proof.PreDecode.lean ====
/-
  What the precondition says about the index arrays.  The precondition is one truth value: the conjunction of "every
  entry is finite" for the seven float arrays and "every entry lies in [0, 50000)" for the two index arrays.  When it
  holds, both index arrays are in range.
-/
import proofs.«426050_j60911226191976_3_alg».proof.Pre_finite_inputs
import proofs.«426050_j60911226191976_3_alg».proof.Proof.Gen.Pre_finite_inputs
import proofs.«426050_j60911226191976_3_alg».proof.Proof.Spec
import proofs.«426050_j60911226191976_3_alg».proof.Proof.Decode
import Idealize.ShloMosaic.Lib.ReduceAll
import Idealize.ShloMosaic.Lib.StableHlo.Predicate
import Idealize.ShloMosaic.Lib.ValueIdx

noncomputable section

namespace Cert.Spec

open Idealize.ShloMosaic Idealize.ShloMosaic.ValueIdx

/-- A word that compares, signed, at least the word 0 and below the word 50000 is, read signed, in [0, 50000):
    the two constant words read signed are 0 and 50000. -/
private theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have f : (50000#32 : BitVec 32).toInt = 50000 := by decide
  omega

/-- The precondition's truth makes both index arrays in range.  The truth value is a conjunction nested to the
    left: its last conjunct is "all entries of the second index array are in range", the one before it the same for
    the first index array.  A conjunction of truth bits is 1 only when both are; an "all" that is 1 had a 1 at every
    entry; and the entry's bit is the conjunction of the two signed comparisons of the entry's word. -/
theorem inR_of_pre [Cert.Pre_finite_inputs.Facts]
    (x0 : FVec Ideal ⟨2, ![50000, 10]⟩ .f32) (x1 x2 : IVec ⟨1, ![3200000]⟩ 32) (x3 : FVec Ideal ⟨2, ![50000, 2]⟩ .f32)
    (x4 : FVec Ideal ⟨2, ![4, 16]⟩ .f32) (x5 : FVec Ideal ⟨2, ![10, 16]⟩ .f32) (x6 : FVec Ideal ⟨1, ![16]⟩ .f32)
    (x7 : FVec Ideal ⟨2, ![16, 4]⟩ .f32) (x8 : FVec Ideal ⟨1, ![4]⟩ .f32)
    (h : Cert.Pre_finite_inputs.fn (F := Ideal) x0 x1 x2 x3 x4 x5 x6 x7 x8 = fun _ => 1#1) : InR x1 ∧ InR x2 := by
  -- the result has one index: the empty one
  haveI : Subsingleton Cert.Pre_finite_inputs.S_.Idx := ⟨fun a b => funext fun d => d.elim0⟩
  have e := congrFun h ValueIdx.ix0
  dsimp only [Cert.Pre_finite_inputs.fn, Cert.Pre_finite_inputs.fn_part1, Cert.Pre_finite_inputs.fn_part2] at e
  simp only [andi] at e
  rw [IntOp.andi_eq_one, IntOp.andi_eq_one] at e
  obtain ⟨⟨-, hs⟩, hd⟩ := e
  have hs' := Host.reduce_andi_all _ _ _ _ _ hs
  have hd' := Host.reduce_andi_all _ _ _ _ _ hd
  refine ⟨fun e => ?_, fun e => ?_⟩
  · have q := hs' (ix1 e)
    simp only [andi, cmpi, broadcastInDim, constantI] at q
    rw [IntOp.andi_eq_one] at q
    exact word_range _ q.1 q.2
  · have q := hd' (ix1 e)
    simp only [andi, cmpi, broadcastInDim, constantI] at q
    rw [IntOp.andi_eq_one] at q
    exact word_range _ q.1 q.2

end Cert.Spec

end
-- ==== Proof.lean ====
/-
  One step of a graph cellular automaton, as a Pallas program (an edge kernel, a scatter-add on the host, a node
  kernel) and as a jnp reference, compute the same eight results over the extended reals when every float input is
  finite and every edge end point is a node number.

  Both programs run: the kernel program by its generated frame over two regions, the reference by its generated run.
  The idealized kernel's results are read off the run's final buffer contents, backwards through the host operations
  and the two regions, down to row-level functions of the node table at the edges' end points; the reference's
  results are read one operation at a time down to the same functions.  What joins the two sides is only the
  arrangement of sums (by blocks of 32000 edges and 5000 nodes against all at once; eighteen columns scattered together
  against three scatters) and the reading of a sum of truth bits, rounded and converted, as their count.  No law used
  needs finiteness; the precondition is used only for the end points' range, where the kernel's gather fills and the
  reference's clamps.
-/
import proofs.«426050_j60911226191976_3_alg».proof.Defs
import proofs.«426050_j60911226191976_3_alg».proof.Proof.Gen.Kernel
import proofs.«426050_j60911226191976_3_alg».proof.Proof.Gen.Kernel.Frame
import proofs.«426050_j60911226191976_3_alg».proof.Proof.Gen.KernelIdeal
import proofs.«426050_j60911226191976_3_alg».proof.Proof.Gen.KernelIdeal.Frame
import proofs.«426050_j60911226191976_3_alg».proof.Proof.Gen.ReferenceIdeal
import proofs.«426050_j60911226191976_3_alg».proof.Proof.Gen.Pre_finite_inputs
import proofs.«426050_j60911226191976_3_alg».proof.Proof.RefRead
import proofs.«426050_j60911226191976_3_alg».proof.Proof.KRun
import proofs.«426050_j60911226191976_3_alg».proof.Proof.KVals
import proofs.«426050_j60911226191976_3_alg».proof.Proof.RefVals
import proofs.«426050_j60911226191976_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2.2.2.2.2)
    (Cert.ReferenceIdeal.Value.run (F := Ideal) m ρ)

/-- The idealization rewrote nothing. -/
theorem preserves : Cert.preserves_Kernel_KernelIdeal := trivial

/-- Argument array b of the reference program on core c. -/
abbrev refArg (m' : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) :
    Buf (Elt Ideal) ((c.tc : Thread Cert.ReferenceIdeal.nD Cert.ReferenceIdeal.τ).loc b) :=
  m' ((c.tc : Thread Cert.ReferenceIdeal.nD Cert.ReferenceIdeal.τ).loc b)

open Cert.KernelIdeal in
/-- Both idealized programs end with the specification's eight results on the decoded arguments. -/
theorem algebraic : Cert.algebraic_KernelIdeal_ReferenceIdeal := by
  intro m ρ m' ρ' hpre hagree
  have hR : ∀ c : Dev Cert.KernelIdeal.nD, Spec.InR (Host0.srcA m c) ∧ Spec.InR (Host0.dstA m c) := fun c =>
    Spec.inR_of_pre _ _ _ _ _ _ _ _ _ (hpre c)
  refine ⟨fun c => Spec.newX (KVals.I m c (hR c).1 (hR c).2), fun c => Spec.keep (KVals.I m c (hR c).1 (hR c).2),
    fun c => Spec.velBonus (KVals.I m c (hR c).1 (hR c).2), fun c => Spec.borderCost (KVals.I m c (hR c).1 (hR c).2),
    fun c => Spec.foodReward (KVals.I m c (hR c).1 (hR c).2), fun c => Spec.deadCost (KVals.I m c (hR c).1 (hR c).2),
    fun c => Spec.visibleFood (KVals.I m c (hR c).1 (hR c).2), fun c => Spec.foodDist (KVals.I m c (hR c).1 (hR c).2), ?_, ?_⟩
  · refine (θ_run Cert.KernelIdeal.defs _ _).mono (fun r h c => ?_) (Cert.KernelIdeal.RunV.run_vals m ρ)
    exact ⟨(h c main_v18_0 (by decide)).trans (KVals.newX_eq m ρ c (hR c).1 (hR c).2),
      (h c main_v21 (by decide)).trans (KVals.keep_eq m ρ c (hR c).1 (hR c).2),
      (h c main_v39 (by decide)).trans (KVals.velBonus_eq m ρ c (hR c).1 (hR c).2),
      (h c main_v24 (by decide)).trans (KVals.borderCost_eq m ρ c (hR c).1 (hR c).2),
      (h c main_v34 (by decide)).trans (KVals.foodReward_eq m ρ c (hR c).1 (hR c).2),
      (h c main_v29 (by decide)).trans (KVals.deadCost_eq m ρ c (hR c).1 (hR c).2),
      (h c main_v13 (by decide)).trans (KVals.visibleFood_eq m ρ c (hR c).1 (hR c).2),
      (h c main_v14 (by decide)).trans (KVals.foodDist_eq m ρ c (hR c).1 (hR c).2),
      (h c main_arg0 (by decide)).trans (Gen.W14_main_arg0 m ρ c),
      (h c main_arg1 (by decide)).trans (Gen.W14_main_arg1 m ρ c),
      (h c main_arg2 (by decide)).trans (Gen.W14_main_arg2 m ρ c),
      (h c main_arg3 (by decide)).trans (Gen.W14_main_arg3 m ρ c),
      (h c main_arg4 (by decide)).trans (Gen.W14_main_arg4 m ρ c),
      (h c main_arg5 (by decide)).trans (Gen.W14_main_arg5 m ρ c),
      (h c main_arg6 (by decide)).trans (Gen.W14_main_arg6 m ρ c),
      (h c main_arg7 (by decide)).trans (Gen.W14_main_arg7 m ρ c),
      (h c main_arg8 (by decide)).trans (Gen.W14_main_arg8 m ρ c)⟩
  · refine (θ_run Cert.ReferenceIdeal.defs _ _).mono (fun r h c => ?_)
      (Cert.ReferenceIdeal.Value.run (F := Ideal) m' ρ')
    obtain ⟨h0, h1, h2, h3, h4, h5, h6, h7, hargs⟩ := h c
    obtain ⟨e0, e1, e2, e3, e4, e5, e6, e7, e8⟩ := hagree c
    have hs' : Spec.InR (m' ((c.tc : Thread Cert.ReferenceIdeal.nD Cert.ReferenceIdeal.τ).loc Cert.ReferenceIdeal.main_arg1)) := by
      rw [e1]; exact (hR c).1
    have hd' : Spec.InR (m' ((c.tc : Thread Cert.ReferenceIdeal.nD Cert.ReferenceIdeal.τ).loc Cert.ReferenceIdeal.main_arg2)) := by
      rw [e2]; exact (hR c).2
    have hdec : ∀ (v v' : IVec ⟨1, ![3200000]⟩ 32) (e : v' = v) (h' : Spec.InR v') (h : Spec.InR v),
        Spec.dec v' h' = Spec.dec v h := by
      intro v v' e h' h; subst e; rfl
    have hI : Cert.ReferenceIdeal.RefV.I (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd' = KVals.I m c (hR c).1 (hR c).2 := by
      unfold Cert.ReferenceIdeal.RefV.I KVals.I Spec.inOf
      rw [hdec _ _ e1 hs' (hR c).1, hdec _ _ e2 hd' (hR c).2]
      dsimp only [refArg]
      rw [e0, e3, e4, e5, e6, e7, e8]
    refine ⟨?_, ?_, ?_, ?_, ?_, ?_, ?_, ?_, hargs⟩
    · rw [h0, Cert.ReferenceIdeal.Read.val_main_v81_eq, Cert.ReferenceIdeal.RefV.newX_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd', hI]
    · rw [h1, Cert.ReferenceIdeal.Read.val_main_v140_eq, Cert.ReferenceIdeal.RefV.keep_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd', hI]
    · rw [h2, Cert.ReferenceIdeal.Read.val_main_v144_eq, Cert.ReferenceIdeal.RefV.velBonus_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd', hI]
    · rw [h3, Cert.ReferenceIdeal.Read.val_main_v91_eq, Cert.ReferenceIdeal.RefV.borderCost_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd', hI]
    · rw [h4, Cert.ReferenceIdeal.Read.val_main_v148_eq, Cert.ReferenceIdeal.RefV.foodReward_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd', hI]
    · exact ((h5.trans (Cert.ReferenceIdeal.Read.val_main_v146_eq _ _)).trans
        (Cert.ReferenceIdeal.RefV.deadCost_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd')).trans (congrArg Spec.deadCost hI)
    · exact ((h6.trans (Cert.ReferenceIdeal.Read.val_main_v95_eq _ _)).trans
        (Cert.ReferenceIdeal.RefV.visibleFood_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd')).trans (congrArg Spec.visibleFood hI)
    · exact ((h7.trans (Cert.ReferenceIdeal.Read.val_main_v98_eq _ _ _)).trans
        (Cert.ReferenceIdeal.RefV.foodDist_eq (refArg m' c Cert.ReferenceIdeal.main_arg0) (refArg m' c Cert.ReferenceIdeal.main_arg1) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) hs' hd')).trans (congrArg Spec.foodDist hI)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
